-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 4096]⟩ ⟨2, ![16384, 4096]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16384, 1024]⟩ ⟨2, ![16384, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Pre_finite_inputs_ReferenceIdeal.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S4096x4096 : Shape := ⟨2, ![4096, 4096]⟩
abbrev S16384x1024 : Shape := ⟨2, ![16384, 1024]⟩
abbrev S4096x1024 : Shape := ⟨2, ![4096, 1024]⟩
abbrev S2 : Shape := ⟨1, ![2]⟩
abbrev S3 : Shape := ⟨1, ![3]⟩
abbrev S_ : Shape := ⟨0, ![]⟩
abbrev S1 : Shape := ⟨1, ![1]⟩

abbrev nBuf : Space → Nat
  | .hbm => 2
  | .vmem => 1
  | .smem => 0
  | _ => 0

abbrev bufTy : (tb : Table) → Fin (tcTables nBuf tb) → BufTy
  | .hbm, ⟨0, _⟩ => ⟨S4096x4096, .f32⟩
  | .hbm, ⟨1, _⟩ => ⟨S16384x1024, .f32⟩
  | .local _ .vmem, ⟨0, _⟩ => ⟨S4096x1024, .f32⟩
  | _, _ => ⟨S4096x4096, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32 : BitVec 32 := 4096#32
  let v19 : BitVec 32 := Scalar.muli v2 c4096_i32
  let c0_i32_19 : BitVec 32 := 0#32
  ![v19.toNat, 0]
def k0_off2 (d0 : Dev nD) (c1_i32_13 : BitVec 32) : Fin 2 → Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c1024_i32 : BitVec 32 := 1024#32
  let v18 : BitVec 32 := Scalar.muli v17 c1024_i32
  ![0, v18.toNat]
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_17 : BitVec 32 := 1#32
  let v20 : BitVec 32 := Scalar.muli v17 c1_i32_17
  let v21 : BitVec 32 := Scalar.addi c0_i32_18 v20
  v21.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_21 : BitVec 32 := 2#32
  let v28 : BitVec 32 := Scalar.addi v2 c2_i32_21
  let c4_i32_22 : BitVec 32 := 4#32
  let v29 : BitVec 32 := Scalar.remsi v28 c4_i32_22
  let c1_i32_27 : BitVec 32 := 1#32
  let v32 : BitVec 32 := Scalar.muli v29 c1_i32_27
  let v33 : BitVec 32 := Scalar.addi c0_i32_28 v32
  v33.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_31 : BitVec 32 := 3#32
  let v40 : BitVec 32 := Scalar.addi v2 c3_i32_31
  let c4_i32_32 : BitVec 32 := 4#32
  let v41 : BitVec 32 := Scalar.remsi v40 c4_i32_32
  let c1_i32_37 : BitVec 32 := 1#32
  let v44 : BitVec 32 := Scalar.muli v41 c1_i32_37
  let v45 : BitVec 32 := Scalar.addi c0_i32_38 v44
  v45.toNat
def k0_off3 (d0 : Dev nD) : Fin 2 → Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_41 : BitVec 32 := 1024#32
  let v52 : BitVec 32 := Scalar.muli v2 c1024_i32_41
  ![0, v52.toNat]

class Facts₀ : Prop where
  hamt_1 : (1#32 : BitVec 32).msb = false
  hamt_3 : (3#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  inb_S2_S1_0 : ∀ a, (![0] : Fin 1 → Nat) a + S1.size a ≤ S2.size a
  inb_S2_S1_1 : ∀ a, (![1] : Fin 1 → Nat) a + S1.size a ≤ S2.size a
  hcc0_scratch1 : 0 + S2.numel ≤ 8
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S4096x1024.size a ≤ S16384x1024.size a
  k0_off2_inb : ∀ d0 : Dev nD, ∀ (r : Fin 3), ∀ a, (k0_off2 d0 (BitVec.ofNat 32 (1 + r.val))) a + S4096x1024.size a ≤ S4096x4096.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off3_inb : ∀ d0 : Dev nD, ∀ a, (k0_off3 d0) a + S4096x1024.size a ≤ S4096x4096.size a

variable [Facts₀]

abbrev cc0_scratch1 : DmaSems sig S2 := SemArray.consecutive 0 S2 hcc0_scratch1
abbrev cc0_scratch2 : DmaSems sig S3 := SemArray.consecutive 2 S3 hcc0_scratch2
abbrev cc0_scratch3 : DmaSems sig S3 := SemArray.consecutive 5 S3 hcc0_scratch3

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x4096 : Shape := ⟨2, ![16384, 4096]⟩

abbrev nBuf : Space → Nat
  | .hbm => 1
  | .vmem => 0
  | .smem => 0
  | _ => 0

abbrev bufTy : (tb : Table) → Fin (tcTables nBuf tb) → BufTy
  | .hbm, ⟨0, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Proto.lean ====
/-
  An all-to-all over four devices. Device `c` holds `x_c`, rows `[4096c, 4096c + 4096)` of the whole array, and must end
  holding columns `[1024c, 1024c + 1024)` of it: row block `s` of its result is column block `c` of `x_s`. Each device
  sends column block `p` of its `x` into row block `c` of device `p`'s result (three addressed transfers, `p ≠ c`), and
  moves its own column block `c` through a scratch buffer into its own row block `c` (two local transfers).

  This module names the protocol's objects: the ring arithmetic on device ids, the slabs of the two arrays each transfer
  reads and writes, the semaphore cells, and what the result array holds at the end.
-/
import proofs.«900007_g7700000000000008_dist_a2a_v7x_i4_i_m4096_n1024_f32_1_alg».proof.Proof.Gen.KernelIdeal
import proofs.«900007_g7700000000000008_dist_a2a_v7x_i4_i_m4096_n1024_f32_1_alg».proof.Proof.Gen.KernelIdeal.Skeleton
import proofs.«900007_g7700000000000008_dist_a2a_v7x_i4_i_m4096_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Device arithmetic

`peer c j` is the device `j + 1` places after `c` on the ring of four: the target of `c`'s transfer `j` and of its signal `j`.
`srcOf c j` is the device whose transfer `j` targets `c`. `rev j = 2 - j`: going `j + 1` places and then `rev j + 1` more
comes back to the start. -/

def peer (c : Dev nD) (j : Fin 3) : Dev nD := ⟨(c.val + j.val + 1) % 4, Nat.mod_lt _ (by decide)⟩
def srcOf (c : Dev nD) (j : Fin 3) : Dev nD := ⟨(c.val + 3 - j.val) % 4, Nat.mod_lt _ (by decide)⟩
def rev (j : Fin 3) : Fin 3 := ⟨2 - j.val, by omega⟩

theorem peer_srcOf (c : Dev nD) (j : Fin 3) : peer (srcOf c j) j = c := by revert c j; decide
theorem srcOf_peer (c : Dev nD) (j : Fin 3) : srcOf (peer c j) j = c := by revert c j; decide
theorem peer_peer_rev (c : Dev nD) (j : Fin 3) : peer (peer c j) (rev j) = c := by revert c j; decide
theorem srcOf_rev (c : Dev nD) (j : Fin 3) : srcOf c (rev j) = peer c j := by revert c j; decide
theorem rev_rev (j : Fin 3) : rev (rev j) = j := by revert j; decide
theorem peer_ne (c : Dev nD) (j : Fin 3) : peer c j ≠ c := by revert c j; decide
theorem srcOf_ne (c : Dev nD) (j : Fin 3) : srcOf c j ≠ c := by revert c j; decide
theorem peer_inj (c : Dev nD) : Function.Injective (peer c) := by revert c; decide
theorem srcOf_inj (c : Dev nD) : Function.Injective (srcOf c) := by revert c; decide
theorem peer_eq_iff (c d : Dev nD) (j : Fin 3) : peer d j = c ↔ d = srcOf c j := by revert c d j; decide

/-- The kernel's device chains: signal `j` and transfer `j` both name `peer c j`. -/
theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 0 := Fin.ext (k0_dev4_eq c)
theorem dev5_eq (c : Dev nD) : (⟨k0_dev5 c, k0_dev5_lt c⟩ : Dev nD) = peer c 1 := Fin.ext (k0_dev5_eq c)
theorem dev6_eq (c : Dev nD) : (⟨k0_dev6 c, k0_dev6_lt c⟩ : Dev nD) = peer c 2 := Fin.ext (k0_dev6_eq c)

/-! ## The arrays and their slabs -/

abbrev xM : Memref sig .tc .hbm S4096x4096 .f32 := Memref.whole main_arg0
abbrev oM : Memref sig .tc .hbm S16384x1024 .f32 := Memref.whole main_v1
abbrev vM : Memref sig .tc .vmem S4096x1024 .f32 := Memref.whole cc0_scratch0

/-- Column block `peer c j` of `x`: the source of `c`'s transfer `j`. -/
abbrev xCol (c : Dev nD) (j : Fin 3) : Memref sig .tc .hbm S4096x1024 .f32 :=
  xM.slice (Rect.unit (s := S4096x4096) (k0_off2 c (BitVec.ofNat 32 (1 + j.val))) S4096x1024.size (k0_off2_inb c j)) (fun _ => rfl)
/-- Column block `c` of `x`: the source of `c`'s own copy. -/
abbrev xOwn (c : Dev nD) : Memref sig .tc .hbm S4096x1024 .f32 :=
  xM.slice (Rect.unit (s := S4096x4096) (k0_off3 c) S4096x1024.size (k0_off3_inb c)) (fun _ => rfl)
/-- Row block `c` of a result array: where everything device `c` sends lands, on whichever device. -/
abbrev oRow (c : Dev nD) : Memref sig .tc .hbm S4096x1024 .f32 :=
  oM.slice (Rect.unit (s := S16384x1024) (k0_off1 c) S4096x1024.size (k0_off1_inb c)) (fun _ => rfl)

/-! ## The semaphores and their cells -/

abbrev barS : Sem sig := (SemArray.scalar (sig.barrier 0 rfl) : Sems sig S_).sem
abbrev loadS : DmaSems sig S_ := (cc0_scratch1.slice (Rect.unit (s := S2) ![0] S1.size inb_S2_S1_0)).squeeze S_ squeezes_S1_S_
abbrev storeS : DmaSems sig S_ := (cc0_scratch1.slice (Rect.unit (s := S2) ![1] S1.size inb_S2_S1_1)).squeeze S_ squeezes_S1_S_
abbrev sendS : Fin 3 → DmaSems sig S_
  | 0 => (cc0_scratch2.slice (Rect.unit (s := S3) ![0] S1.size inb_S3_S1_0)).squeeze S_ squeezes_S1_S_
  | 1 => (cc0_scratch2.slice (Rect.unit (s := S3) ![1] S1.size inb_S3_S1_1)).squeeze S_ squeezes_S1_S_
  | 2 => (cc0_scratch2.slice (Rect.unit (s := S3) ![2] S1.size inb_S3_S1_2)).squeeze S_ squeezes_S1_S_
abbrev recvS : Fin 3 → DmaSems sig S_
  | 0 => (cc0_scratch3.slice (Rect.unit (s := S3) ![0] S1.size inb_S3_S1_0)).squeeze S_ squeezes_S1_S_
  | 1 => (cc0_scratch3.slice (Rect.unit (s := S3) ![1] S1.size inb_S3_S1_1)).squeeze S_ squeezes_S1_S_
  | 2 => (cc0_scratch3.slice (Rect.unit (s := S3) ![2] S1.size inb_S3_S1_2)).squeeze S_ squeezes_S1_S_

/-- The nine semaphores a device's body names: barrier, load, store, three send, three receive. -/
abbrev csem : Fin 9 → SemLoc sig
  | 0 => .reg barS | 1 => .dma loadS.sem | 2 => .dma storeS.sem
  | 3 => .dma (sendS 0).sem | 4 => .dma (sendS 1).sem | 5 => .dma (sendS 2).sem
  | 6 => .dma (recvS 0).sem | 7 => .dma (recvS 1).sem | 8 => .dma (recvS 2).sem
/-- The eight of them that are the kernel's own (scoped). -/
abbrev osem : Fin 8 → SemLoc sig := fun k => csem k.succ

theorem csem_injective : Function.Injective csem := by decide

abbrev kcell (ck : Dev nD × Fin 9) : GSem nD τ sig := ((ck.1 : Thread nD τ), csem ck.2)
abbrev barCell (c : Dev nD) : GSem nD τ sig := kcell (c, 0)
abbrev loadCell (c : Dev nD) : GSem nD τ sig := kcell (c, 1)
abbrev storeCell (c : Dev nD) : GSem nD τ sig := kcell (c, 2)
abbrev sendIx (j : Fin 3) : Fin 9 := ⟨3 + j.val, by omega⟩
abbrev recvIx (j : Fin 3) : Fin 9 := ⟨6 + j.val, by omega⟩
abbrev sendCell (c : Dev nD) (j : Fin 3) : GSem nD τ sig := kcell (c, sendIx j)
abbrev recvCell (c : Dev nD) (j : Fin 3) : GSem nD τ sig := kcell (c, recvIx j)

theorem csem_sendIx (j : Fin 3) : csem (sendIx j) = .dma (sendS j).sem := by revert j; decide
theorem csem_recvIx (j : Fin 3) : csem (recvIx j) = .dma (recvS j).sem := by revert j; decide

/-- What one transfer of a 4096 × 1024 block credits on a DMA semaphore, into the result array and into the scratch. -/
abbrev N : ℕ := (oRow (0 : Dev nD)).view.dmaCredit
abbrev Nv : ℕ := (vM : Memref sig .tc .vmem S4096x1024 .f32).view.dmaCredit
theorem N_pos : 0 < N := View.dmaCredit_pos _ (by decide)
theorem Nv_pos : 0 < Nv := View.dmaCredit_pos _ (by decide)
theorem oRow_credit (c : Dev nD) : (oRow c).view.dmaCredit = N := rfl

end Cert.KernelIdeal.A2A

end
-- ==== Proof.Sched.lean ====
/-
  The schedule of the all-to-all's nine semaphore cells per device, one round each.

  * The barrier cell of device `c` has three duties of one unit: duty `j` is paid by `peer c j` and hands `c` row block
    `c` of `peer c j`'s result array (at any contents) together with the fact that `peer c j` has reached round 0 of its
    receive cell `j` — exactly what `c`'s transfer `j` into that device needs.
  * The load cell: the scratch buffer holding column block `c` of `x_c`, and that column block back.
  * The store cell: row block `c` of the result at its final contents, and the scratch buffer back.
  * Send cell `j`: column block `peer c j` of `x_c` back.
  * Receive cell `j`: row block `srcOf c j` of the result at its final contents.
-/
import proofs.«900007_g7700000000000008_dist_a2a_v7x_i4_i_m4096_n1024_f32_1_alg».proof.Proof.Proto

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `c`'s block of `x`, as launched. -/
abbrev X (c : Dev nD) : Buf (Elt F) ((c : Thread nD τ).loc main_arg0) := m ((c : Thread nD τ).loc main_arg0)

/-- What device `p`'s result array holds at the end: at row `R`, column `l`, the entry of `x_(R / 4096)` at row
    `R % 4096` and column `1024 p + l`. -/
def outF (p : Dev nD) : Buf (Elt F) ((p : Thread nD τ).loc main_v1) :=
  show S16384x1024.Idx → Elt F .f32 from fun i =>
    have h0 : (i 0).val < 16384 := (i 0).isLt
    have h1 : (i 1).val < 1024 := (i 1).isLt
    have hp : p.val < 4 := p.isLt
    (show S4096x4096.Idx → Elt F .f32 from X m ⟨(i 0).val / 4096, by show _ < 4; omega⟩)
      (Shape.pair (d := ![4096, 4096]) ⟨(i 0).val % 4096, Nat.mod_lt _ (by decide)⟩ ⟨1024 * p.val + (i 1).val, by show _ < 4096; omega⟩)

/-- What device `c`'s own copy carries: column block `c` of `x_c`. -/
def kept (c : Dev nD) : Buf (Elt F) ((c : Thread nD τ).loc cc0_scratch0) :=
  show S4096x1024.Idx → Elt F .f32 from (xOwn c).view.read (Elt F) (X m c)

/-! ## The slabs as assertions -/

/-- Row block `s` of device `p`'s result array, at contents `f`. -/
abbrev oSlab (p s : Dev nD) (f : Buf (Elt F) ((p : Thread nD τ).loc main_v1)) : sProp 𝕄 :=
  (oRow s).view.loc (p : Thread nD τ) ↦[(oRow s).view.set]{fullShare} f
/-- Column block `peer c j` of `x_c`. -/
abbrev xColPts (c : Dev nD) (j : Fin 3) : sProp 𝕄 :=
  (xCol c j).view.loc (c : Thread nD τ) ↦[(xCol c j).view.set]{fullShare} X m c
/-- Column block `c` of `x_c`. -/
abbrev xOwnPts (c : Dev nD) : sProp 𝕄 :=
  (xOwn c).view.loc (c : Thread nD τ) ↦[(xOwn c).view.set]{fullShare} X m c
/-- The scratch buffer at contents `f`. -/
abbrev vPts (c : Dev nD) (f : Buf (Elt F) ((c : Thread nD τ).loc cc0_scratch0)) : sProp 𝕄 :=
  (vM : Memref sig .tc .vmem S4096x1024 .f32).view.loc (c : Thread nD τ) ↦[(vM : Memref sig .tc .vmem S4096x1024 .f32).view.set]{fullShare} f

/-! ## Payloads -/

def barPay (c : Dev nD) (j : Fin 3) : sProp 𝕄 := iprop((∃ f, oSlab (peer c j) c f) ∗ reached ER (recvCell (peer c j) j) 0)
def loadPay (c : Dev nD) : sProp 𝕄 := iprop(vPts c (kept m c) ∗ xOwnPts m c)
def storePay (c : Dev nD) : sProp 𝕄 := iprop(oSlab c c (outF m c) ∗ vPts c (kept m c))
def sendPay (c : Dev nD) (j : Fin 3) : sProp 𝕄 := xColPts m c j
def recvPay (c : Dev nD) (j : Fin 3) : sProp 𝕄 := oSlab c (srcOf c j) (outF m c)

/-- The payload of duty `d` of cell `k` of device `c`. -/
def payK (c : Dev nD) (k : Fin 9) (d : Fin 3) : sProp 𝕄 :=
  match k with
  | 0 => barPay c d | 1 => loadPay m c | 2 => storePay m c
  | 3 => sendPay m c 0 | 4 => sendPay m c 1 | 5 => sendPay m c 2
  | 6 => recvPay m c 0 | 7 => recvPay m c 1 | 8 => recvPay m c 2

instance payK_storable (c : Dev nD) (k : Fin 9) (d : Fin 3) : BI.Storable (upEmb : UEmb _ 𝕄) (payK m c k d) := by
  unfold payK barPay loadPay storePay sendPay recvPay
  split <;> infer_instance

/-! ## The schedule -/

/-- Which of the nine a semaphore is, if any. -/
def ksem? (s : SemLoc sig) : Option (Fin 9) := (List.finRange 9).find? fun k => csem k = s

theorem ksem?_csem (k : Fin 9) : ksem? (csem k) = some k := by revert k; decide

/-- The units of a duty of cell `k`: one on the barrier, a block's credit on a DMA cell. -/
def amtK : Fin 9 → ℕ
  | 0 => 1 | 1 => Nv | _ => N
theorem amtK_pos (k : Fin 9) : 0 < amtK k := by
  unfold amtK; split
  · exact Nat.one_pos
  · exact Nv_pos
  · exact N_pos
/-- The duties of cell `k`: three on the barrier, one on a DMA cell. -/
def dutK : Fin 9 → Finset (Fin 3)
  | 0 => Finset.univ | _ => {0}

def sched : Rounds.Schedule (GSem nD τ sig) (Fin 3) 𝕄 where
  duties g r := if r = 0 ∧ g.1.2 = .tc then (match ksem? g.2 with | some k => dutK k | none => ∅) else ∅
  unitless _ := False
  amount g _ _ := match ksem? g.2 with | some k => amtK k | none => 1
  payload g _ d := match ksem? g.2 with | some k => payK m g.1.1 k d | none => iprop(emp)
  amount_pos g _ _ _ := by
    show 0 < (match ksem? g.2 with | some k => amtK k | none => 1)
    split
    · exact amtK_pos _
    · exact Nat.one_pos

instance sched_payload_storable (g : GSem nD τ sig) (r : ℕ) (d : Fin 3) :
    BI.Storable (upEmb : UEmb _ 𝕄) ((sched (F := F) m).payload g r d) := by
  show BI.Storable upEmb (match ksem? g.2 with | some k => payK m g.1.1 k d | none => iprop(emp))
  split <;> infer_instance

section Tables
variable (c : Dev nD)

theorem duties_kk (k : Fin 9) : (sched (F := F) m).duties (kcell (c, k)) 0 = dutK k := by
  show (if (0 : ℕ) = 0 ∧ ((c : Thread nD τ)).2 = .tc then (match ksem? (csem k) with | some k => dutK k | none => ∅) else ∅) = _
  rw [if_pos ⟨rfl, rfl⟩, ksem?_csem]
theorem duties_k0 : (sched (F := F) m).duties (kcell (c, 0)) 0 = Finset.univ := duties_kk m c 0
theorem dutK_ne (k : Fin 9) (hk : k ≠ 0) : dutK k = {0} := by revert k; decide
theorem duties_k (k : Fin 9) (hk : k ≠ 0) : (sched (F := F) m).duties (kcell (c, k)) 0 = {0} := by
  rw [duties_kk, dutK_ne k hk]
theorem duties_later (g : GSem nD τ sig) : ∀ r, 1 ≤ r → (sched (F := F) m).duties g r = ∅ :=
  fun r hr => by dsimp only [sched]; rw [if_neg fun h => by omega]

theorem amount_k (k : Fin 9) (r : ℕ) (d : Fin 3) :
    (sched (F := F) m).amount (kcell (c, k)) r d = amtK k := by
  show (match ksem? (csem k) with | some k => amtK k | none => 1) = _
  rw [ksem?_csem]
theorem amtK_send (j : Fin 3) : amtK (sendIx j) = N := by revert j; decide
theorem amtK_recv (j : Fin 3) : amtK (recvIx j) = N := by revert j; decide
theorem amount_bar (d : Fin 3) : (sched (F := F) m).amount (barCell c) 0 d = 1 := amount_k m c 0 0 d
theorem amount_load (d : Fin 3) : (sched (F := F) m).amount (loadCell c) 0 d = Nv := amount_k m c 1 0 d
theorem amount_store (d : Fin 3) : (sched (F := F) m).amount (storeCell c) 0 d = N := amount_k m c 2 0 d
theorem amount_send (j : Fin 3) (d : Fin 3) : (sched (F := F) m).amount (sendCell c j) 0 d = N := by
  rw [amount_k, amtK_send]
theorem amount_recv (j : Fin 3) (d : Fin 3) : (sched (F := F) m).amount (recvCell c j) 0 d = N := by
  rw [amount_k, amtK_recv]

theorem payload_k (k : Fin 9) (r : ℕ) (d : Fin 3) : (sched (F := F) m).payload (kcell (c, k)) r d = payK m c k d := by
  show (match ksem? (csem k) with | some k => payK m c k d | none => iprop(emp)) = _
  rw [ksem?_csem]

theorem payload_bar (d : Fin 3) : (sched (F := F) m).payload (barCell c) 0 d = barPay c d := payload_k m c 0 0 d
theorem payload_load (d : Fin 3) : (sched (F := F) m).payload (loadCell c) 0 d = loadPay m c := payload_k m c 1 0 d
theorem payload_store (d : Fin 3) : (sched (F := F) m).payload (storeCell c) 0 d = storePay m c := payload_k m c 2 0 d
theorem payK_send (j : Fin 3) (d : Fin 3) : payK m c (sendIx j) d = sendPay m c j := by fin_cases j <;> rfl
theorem payK_recv (j : Fin 3) (d : Fin 3) : payK m c (recvIx j) d = recvPay m c j := by fin_cases j <;> rfl
theorem payload_send (j : Fin 3) (d : Fin 3) : (sched (F := F) m).payload (sendCell c j) 0 d = sendPay m c j := by
  rw [payload_k, payK_send]
theorem payload_recv (j : Fin 3) (d : Fin 3) : (sched (F := F) m).payload (recvCell c j) 0 d = recvPay m c j := by
  rw [payload_k, payK_recv]

theorem sendIx_ne (j : Fin 3) : sendIx j ≠ 0 := by revert j; decide
theorem recvIx_ne (j : Fin 3) : recvIx j ≠ 0 := by revert j; decide

theorem expect_bar : (sched (F := F) m).expect (barCell c) 0 = 3 := by
  unfold Schedule.expect Schedule.amountOf
  rw [duties_k0, Finset.sum_congr rfl fun d _ => amount_bar m c d, Finset.sum_const, Finset.card_univ, Fintype.card_fin, smul_eq_mul]
theorem expect_k (k : Fin 9) (hk : k ≠ 0) : (sched (F := F) m).expect (kcell (c, k)) 0 = amtK k := by
  unfold Schedule.expect Schedule.amountOf; rw [duties_k m c k hk, Finset.sum_singleton, amount_k]
theorem expect_load : (sched (F := F) m).expect (loadCell c) 0 = Nv := expect_k m c 1 (by decide)
theorem expect_store : (sched (F := F) m).expect (storeCell c) 0 = N := expect_k m c 2 (by decide)
theorem expect_send (j : Fin 3) : (sched (F := F) m).expect (sendCell c j) 0 = N := by
  rw [expect_k m c _ (sendIx_ne j), amtK_send]
theorem expect_recv (j : Fin 3) : (sched (F := F) m).expect (recvCell c j) 0 = N := by
  rw [expect_k m c _ (recvIx_ne j), amtK_recv]

/-- The whole of the barrier cell's round: the three neighbours' payloads. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_k0, bigSep_univ_eq_bigSepL [0, 1, 2] (by decide) (by decide)]
  show iprop((sched (F := F) m).payload (barCell c) 0 0 ∗ (sched (F := F) m).payload (barCell c) 0 1 ∗ (sched (F := F) m).payload (barCell c) 0 2) = _
  rw [payload_bar, payload_bar, payload_bar]
theorem rest_k (k : Fin 9) (hk : k ≠ 0) : bigSep ((sched (F := F) m).duties (kcell (c, k)) 0 \ ∅) (fun d => (sched (F := F) m).payload (kcell (c, k)) 0 d)
    = payK m c k 0 := by
  rw [Finset.sdiff_empty, duties_k m c k hk, bigSep_singleton, payload_k]

end Tables

end Cert.KernelIdeal.A2A

end
-- ==== Proof.Levels.lean ====
/-
  What each device owes the others at launch, and why no wait can deadlock.

  Device `c` owes one unit to the barrier cell of each of its three peers, and a block's credit to receive cell `j` of
  `peer c j` for each of its three transfers. Barrier cells sit at level 1, receive cells at level 2, every other cell at
  level 0: the only wait a device makes while it still owes anything is its barrier wait, and what it owes then — the
  three receive credits — lies strictly above.
-/
import proofs.«900007_g7700000000000008_dist_a2a_v7x_i4_i_m4096_n1024_f32_1_alg».proof.Proof.Sched

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The tallies, summed in the order they are paid off (last summand first) -/

/-- The receive credits: transfer 0 peels the last summand, transfer 1 the middle one, transfer 2 the first. -/
def OR₂ (c : Dev nD) : CellTallies nD τ sig Unit := tallyAt (recvCell (peer c 2) 2) () N
def OR₁ (c : Dev nD) : CellTallies nD τ sig Unit := OR₂ c + tallyAt (recvCell (peer c 1) 1) () N
def OR (c : Dev nD) : CellTallies nD τ sig Unit := OR₁ c + tallyAt (recvCell (peer c 0) 0) () N
/-- With the barrier units: signal 0 peels the last summand, signal 1 the next, signal 2 the next. -/
def OB₂ (c : Dev nD) : CellTallies nD τ sig Unit := OR c + tallyAt (barCell (peer c 2)) () 1
def OB₁ (c : Dev nD) : CellTallies nD τ sig Unit := OB₂ c + tallyAt (barCell (peer c 1)) () 1
def O₀ (c : Dev nD) : CellTallies nD τ sig Unit := OB₁ c + tallyAt (barCell (peer c 0)) () 1

def L (g : GSem nD τ sig) : Finset Unit := if g.1.2 = .tc then {()} else ∅
/-- Barrier cells at 1, receive cells at 2, everything else at 0. -/
def lv (g : GSem nD τ sig) (_ : Unit) : ℕ :=
  if g.2 = .reg barS then 1 else if g.2 = .dma (recvS 0).sem ∨ g.2 = .dma (recvS 1).sem ∨ g.2 = .dma (recvS 2).sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (j : Fin 3) (u : Unit) : lv (recvCell c j) u = 2 := by
  unfold lv
  rw [if_neg (by show ¬ csem (recvIx j) = SemLoc.reg barS; revert j; decide),
    if_pos (by show csem (recvIx j) = .dma (recvS 0).sem ∨ csem (recvIx j) = .dma (recvS 1).sem ∨ csem (recvIx j) = .dma (recvS 2).sem; revert j; decide)]

theorem OR_pos {c : Dev nD} {g : GSem nD τ sig} {u : Unit} (h : 0 < OR c g u) : ∃ j, g = recvCell (peer c j) j := by
  unfold OR OR₁ OR₂ at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

omit [FloatOps F] in
/-- At its barrier wait a device owes the three receive credits only: receive cells, above its barrier cell. -/
theorem mayWait_bar (c : Dev nD) :
    (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨j, rfl⟩ := OR_pos hg; exact Finset.mem_singleton_self _)
    (fun p hp => by rw [Finset.mem_singleton.mp hp]; exact le_of_eq (lv_bar c ()))
    (fun g u hg => by obtain ⟨j, rfl⟩ := OR_pos hg; rw [lv_recv]; decide)

/-! ## The launch credit: what all devices together owe each cell of device `c` -/

theorem bar_eq_iff {a b : Dev nD} : Iff (barCell a = barCell b) (a = b) :=
  ⟨fun h => Fin.ext (congrArg (fun g : GSem nD τ sig => g.1.1.val) h), fun h => h ▸ rfl⟩
theorem recvIx_inj : Function.Injective recvIx := by decide
theorem recv_eq_iff {a b : Dev nD} {j j' : Fin 3} : Iff (recvCell a j = recvCell b j') (a = b ∧ j = j') :=
  ⟨fun h => ⟨Fin.ext (congrArg (fun g : GSem nD τ sig => g.1.1.val) h),
      recvIx_inj (csem_injective (show csem (recvIx j) = csem (recvIx j') from congrArg Prod.snd h))⟩, fun h => by rw [h.1, h.2]⟩
theorem recv_ne_bar (a b : Dev nD) (j : Fin 3) : recvCell a j ≠ barCell b := fun h => by
  have h2 : csem (recvIx j) = csem 0 := congrArg Prod.snd h
  exact recvIx_ne j (csem_injective h2)

/-- One unit-of-account term read at a barrier cell and at a receive cell. -/
theorem bar_at_bar (a c : Dev nD) (n : ℕ) : tallyAt (barCell a) () n (barCell c) () = if a = c then n else 0 := by
  rw [tallyAt_apply]
  by_cases h : a = c
  · subst h; rw [if_pos ⟨rfl, rfl⟩, if_pos rfl]
  · rw [if_neg h, if_neg fun h' => h (bar_eq_iff.mp h'.1).symm]
theorem recv_at_bar (a c : Dev nD) (j : Fin 3) (n : ℕ) : tallyAt (recvCell a j) () n (barCell c) () = 0 := by
  rw [tallyAt_apply, if_neg fun h' => recv_ne_bar a c j h'.1.symm]
theorem bar_at_recv (a c : Dev nD) (j : Fin 3) (n : ℕ) : tallyAt (barCell a) () n (recvCell c j) () = 0 := by
  rw [tallyAt_apply, if_neg fun h' => recv_ne_bar c a j h'.1]
theorem recv_at_recv (d c : Dev nD) (j j' : Fin 3) (n : ℕ) :
    tallyAt (recvCell (peer d j') j') () n (recvCell c j) () = if j' = j then (if peer d j = c then n else 0) else 0 := by
  rw [tallyAt_apply]
  by_cases hj : j' = j
  · subst hj
    rw [if_pos rfl]
    by_cases hc : peer d j' = c
    · rw [if_pos hc, if_pos ⟨by rw [hc], rfl⟩]
    · rw [if_neg hc, if_neg fun h => hc (recv_eq_iff.mp h.1).1.symm]
  · rw [if_neg hj, if_neg fun h => hj (recv_eq_iff.mp h.1).2.symm]

/-- What device `d` owes device `c`'s barrier cell: a unit for each of its signals that names `c`. -/
theorem owed_bar (d c : Dev nD) : O₀ d (barCell c) () =
    (if peer d 0 = c then 1 else 0) + (if peer d 1 = c then 1 else 0) + (if peer d 2 = c then 1 else 0) := by
  unfold O₀ OB₁ OB₂ OR OR₁ OR₂
  simp only [Pi.add_apply, Finsupp.add_apply, bar_at_bar, recv_at_bar]
  omega

/-- What device `d` owes device `c`'s receive cell `j`: the block's credit if its transfer `j` names `c`. -/
theorem owed_recv (d c : Dev nD) (j : Fin 3) : O₀ d (recvCell c j) () = if peer d j = c then N else 0 := by
  unfold O₀ OB₁ OB₂ OR OR₁ OR₂
  simp only [Pi.add_apply, Finsupp.add_apply, bar_at_recv, recv_at_recv]
  generalize (if peer d j = c then N else 0) = x
  fin_cases j <;> simp

theorem sum_peer (c : Dev nD) (j : Fin 3) (n : ℕ) : (∑ d : Dev nD, if peer d j = c then n else 0) = n := by
  rw [Finset.sum_congr rfl fun d _ => if_congr (peer_eq_iff c d j) rfl rfl,
    Finset.sum_ite_eq' Finset.univ (srcOf c j) fun _ => n, if_pos (Finset.mem_univ _)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, sum_peer, sum_peer, sum_peer]

theorem launch_recv (c : Dev nD) (j : Fin 3) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, sum_peer]

omit [FloatOps F] in
/-- The credit tokens device `c` starts with: three units on its barrier cell, a block's credit on each receive cell. -/
theorem creds (c : Dev nD) :
    (Pipeline.launchCred O₀ c : sProp 𝕄) ⊢ iprop(cred (tallyAt (barCell c) () 3) ∗ cred (tallyAt (recvCell c 0) () N)
      ∗ cred (tallyAt (recvCell c 1) () N) ∗ cred (tallyAt (recvCell c 2) () N)) := by
  unfold Pipeline.launchCred
  refine (bigSep_subset (t := ([csem 0, csem 6, csem 7, csem 8] : List (SemLoc sig)).toFinset) (Finset.subset_univ _)).trans ?_
  rw [bigSep_eq_bigSepL_of_eq [csem 0, csem 6, csem 7, csem 8] rfl (by decide)]
  show iprop(cred (tallyOn (barCell c) _) ∗ cred (tallyOn (recvCell c 0) _) ∗ cred (tallyOn (recvCell c 1) _) ∗ cred (tallyOn (recvCell c 2) _)) ⊢ _
  rw [launch_bar, launch_recv, launch_recv, launch_recv]

end Cert.KernelIdeal.A2A

end
-- ==== Proof.Ghost.lean ====
/-
  The state a device's body starts from and ends in, and the pipeline's proof data over them.

  A device starts holding: the invariants of every cell and that every cell is at round 0 (`records`); its own nine
  positions; the tokens of the duties IT pays — on each peer's barrier cell, on the receive cell of each peer it
  transfers into, on its own load, store and send cells —; three units of credit on its barrier cell and a block's credit
  on each receive cell; the level facts; its `x` and its result array whole; the scratch buffer at some contents.
  It ends holding `x` unchanged, the result array at its final contents, the scratch buffer, and its eight own
  semaphores back at zero.
-/
import proofs.«900007_g7700000000000008_dist_a2a_v7x_i4_i_m4096_n1024_f32_1_alg».proof.Proof.Levels

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Every cell's invariant, under the names `K` the launch allocated them at, and that every cell is at round 0. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) : records m K ⊢ cellInv ER (sched m) (K ck) (kcell ck) := by
  unfold records
  exact (BI.Entails.trans BI.sep_and BI.and_elimL).trans (bigSep_elim (Φ := fun ck : Dev nD × Fin 9 => (cellInv ER (sched m) (K ck) (kcell ck) : sProp 𝕄)) (Finset.mem_univ ck))
theorem reached_at (K : Dev nD × Fin 9 → ℕ) (ck : Dev nD × Fin 9) : records m K ⊢ reached ER (kcell ck) 0 := by
  unfold records
  exact (BI.Entails.trans BI.sep_and BI.and_elimR).trans (bigSep_elim (Φ := fun ck : Dev nD × Fin 9 => (reached ER (kcell ck) 0 : sProp 𝕄)) (Finset.mem_univ ck))

/-- The five own cells whose one duty the device pays itself: load, store, the three send cells. -/
abbrev ownIx (k : Fin 5) : Fin 9 := ⟨k.val + 1, by omega⟩

/-- The tokens of the duties device `c` pays: signal `i` pays duty `rev i` of `peer c i`'s barrier cell; transfer `j` pays
    the duty of receive cell `j` of `peer c j` and of its own send cell `j`; its own load and store cells' duties. -/
def payToks (c : Dev nD) : sProp 𝕄 :=
  iprop((bigSep Finset.univ fun i : Fin 3 => dutyTok ER (barCell (peer c i)) 0 (rev i))
    ∗ (bigSep Finset.univ fun j : Fin 3 => dutyTok ER (recvCell (peer c j) j) 0 (0 : Fin 3))
    ∗ (bigSep Finset.univ fun k : Fin 5 => dutyTok ER (kcell (c, ownIx k)) 0 (0 : Fin 3)))

/-- Device `c`'s positions: round 0 of each of its nine cells, nothing taken. -/
def positions (c : Dev nD) : sProp 𝕄 := bigSep Finset.univ fun k : Fin 9 => atPos ER (kcell (c, k)) 0 (∅ : Finset (Fin 3)) 0

def ghost (K : Dev nD × Fin 9 → ℕ) (c : Dev nD) : sProp 𝕄 := iprop(records m K ∗ positions c ∗ payToks c)

/-- What device `c`'s body starts from, the scratch buffer apart. -/
def start (c : Dev nD) : sProp 𝕄 :=
  iprop((∃ K, ghost m K c)
    ∗ (cred (tallyAt (barCell c) () 3) ∗ cred (tallyAt (recvCell c 0) () N) ∗ cred (tallyAt (recvCell c 1) () N) ∗ cred (tallyAt (recvCell c 2) () N))
    ∗ levAts L lv
    ∗ (((c : Thread nD τ).loc main_arg0) ↦{fullShare} X m c)
    ∗ (((c : Thread nD τ).loc main_v1) ↦{fullShare} m ((c : Thread nD τ).loc main_v1)))

def Φ₀ (c : Dev nD) : sProp 𝕄 :=
  iprop(start m c ∗ ∃ f : Buf (Elt F) ((c : Thread nD τ).loc cc0_scratch0), ((c : Thread nD τ).loc cc0_scratch0) ↦{fullShare} f)

/-- After the body: `x` as it was, the result array at its final contents, the scratch buffer, the eight own cells closed. -/
def Φ₁ (c : Dev nD) : sProp 𝕄 :=
  iprop((((c : Thread nD τ).loc main_arg0) ↦{fullShare} X m c)
    ∗ (((c : Thread nD τ).loc main_v1) ↦{fullShare} outF m c)
    ∗ (∃ f : Buf (Elt F) ((c : Thread nD τ).loc cc0_scratch0), ((c : Thread nD τ).loc cc0_scratch0) ↦{fullShare} f)
    ∗ bigSep Finset.univ fun k : Fin 8 => semVal (kcell (c, k.succ)) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The pipeline's proof data: no window; the invariant before and after the one point; what is owed there. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- What the run establishes: every device's result array at its final contents, its `x` unchanged. -/
def QC : PUnit × MemSt nD τ sig (Elt F) → Prop := fun r =>
  ∀ c : Dev nD, r.2.mem ((c : Thread nD τ).loc main_v1) = outF m c
    ∧ r.2.mem ((c : Thread nD τ).loc main_arg0) = m ((c : Thread nD τ).loc main_arg0)

end Cert.KernelIdeal.A2A

end
-- ==== Proof.Body.lean ====
/-
  One device's body of the all-to-all, from the state the launch deals it to the state it gives back.

  In program order. Three signals: signal `i` pays duty `rev i` of the barrier cell of `peer c i`, handing that device row
  block `peer c i` of this device's result array (cut out of the whole array beforehand) and the fact that receive cell
  `rev i` here is at round 0. The wait for three units on the own barrier cell — the only wait made while anything is
  still owed, and what is owed then, the three receive credits, lies above it — brings the three peers' row blocks
  `c`. Three addressed transfers: transfer `j` reads column block `peer c j` of `x_c` into row block `c` of `peer c j`'s
  result; what lands there is the final contents of that block. The own column block goes through the scratch buffer into
  the own row block by two local transfers, each waited for at once. Six more waits bring back the three column blocks
  (send cells) and the three row blocks written by the other devices (receive cells). The eight own cells are closed, the
  two arrays put together again from their slabs.
-/
import proofs.«900007_g7700000000000008_dist_a2a_v7x_i4_i_m4096_n1024_f32_1_alg».proof.Proof.Ghost

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the protocol needs of the slabs' index arithmetic: what each transfer lands is the final contents there, and the
    two arrays are the disjoint unions of their slabs. -/
structure SlabFacts : Prop where
  load_eq : ∀ (c : Dev nD) (fd : Buf (Elt F) ((c : Thread nD τ).loc cc0_scratch0)),
    (vM : Memref sig .tc .vmem S4096x1024 .f32).view.write (Elt F) fd ((xOwn c).view.read (Elt F) (X m c)) Finset.univ = kept m c
  landing_eq : ∀ (s : Dev nD) (j : Fin 3) (fd : Buf (Elt F) ((peer s j : Thread nD τ).loc main_v1)),
    ∀ i ∈ (oRow s).view.set, (oRow s).view.write (Elt F) fd ((xCol s j).view.read (Elt F) (X m s)) Finset.univ i = outF m (peer s j) i
  store_eq : ∀ (c : Dev nD) (fd : Buf (Elt F) ((c : Thread nD τ).loc main_v1)),
    ∀ i ∈ (oRow c).view.set, (oRow c).view.write (Elt F) fd ((vM : Memref sig .tc .vmem S4096x1024 .f32).view.read (Elt F) (kept m c)) Finset.univ i = outF m c i
  x_split : ∀ c : Dev nD,
    ((((c : Thread nD τ).loc main_arg0) ↦{fullShare} X m c) : sProp 𝕄) ⊣⊢ iprop(xOwnPts m c ∗ xColPts m c 0 ∗ xColPts m c 1 ∗ xColPts m c 2)
  o_split : ∀ (p : Dev nD) (f : Buf (Elt F) ((p : Thread nD τ).loc main_v1)),
    ((((p : Thread nD τ).loc main_v1) ↦{fullShare} f) : sProp 𝕄) ⊣⊢ iprop(oSlab p p f ∗ oSlab p (peer p 0) f ∗ oSlab p (peer p 1) f ∗ oSlab p (peer p 2) f)
  o_join : ∀ (p : Dev nD) (f : Buf (Elt F) ((p : Thread nD τ).loc main_v1)),
    iprop(oSlab p p f ∗ oSlab p (srcOf p 0) f ∗ oSlab p (srcOf p 1) f ∗ oSlab p (srcOf p 2) f) ⊢ ((((p : Thread nD τ).loc main_v1) ↦{fullShare} f) : sProp 𝕄)

omit [FloatOps F] in
theorem bsep3 (Φ : Fin 3 → sProp 𝕄) : bigSep Finset.univ Φ = iprop(Φ 0 ∗ Φ 1 ∗ Φ 2) := bigSep_univ_eq_bigSepL [0, 1, 2] (by decide) (by decide) Φ
omit [FloatOps F] in
theorem bsep5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
theorem bsep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bsep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem xCol_credit (c : Dev nD) (j : Fin 3) : (xCol c j).view.dmaCredit = N := rfl
theorem vM_credit : (vM : Memref sig .tc .vmem S4096x1024 .f32).view.dmaCredit = Nv := rfl
theorem Nv_eq_N : Nv = N := rfl

section Body

/-- Transfer `j` of device `c`, addressed to `n = peer c j`: it pays the duty of its own send cell `j` (column block `peer c j`
    of `x_c` comes back with it) and the duty of receive cell `j` of the peer (row block `c` of the peer's result, at its final
    contents, goes to the peer), and takes the block's credit off what `c` owes. -/
theorem wp_send_j (H : SlabFacts m) (K : Dev nD × Fin 9 → ℕ) (c n : Dev nD) (j : Fin 3) (hn : n = peer c j)
    {hsc : ((oRow c : Memref sig (Dev.tc n : Thread nD τ).2.kind .hbm S4096x1024 .f32)).view.ref.isScScratch = false}
    {hsrc : (xCol c j).view.WordExact} {hdst : (oRow c).view.WordExact}
    {hsem : DmaTarget.Typed .hbm (.dma (recvS j).sem) (.remote (Dev.tc n : Thread nD τ) (oRow c) (.dma (sendS j).sem) hsc)}
    {α : Type} {Q : α → sProp 𝕄} {k : PUnit → Prog (TpuEff nD τ sig (Elt F) Λ₀ .tc) α}
    (fd : Buf (Elt F) ((peer c j : Thread nD τ).loc main_v1)) (O' O : CellTallies nD τ sig Unit)
    (hO : O' = O + tallyAt (recvCell (peer c j) j) () N) (W : Waits sig Unit) :
    iprop(cellInv ER (sched m) (K (c, sendIx j)) (sendCell c j) ∗ cellInv ER (sched m) (K (peer c j, recvIx j)) (recvCell (peer c j) j)
        ∗ xColPts m c j ∗ oSlab (peer c j) c fd
        ∗ owes (c : Thread nD τ) O' W
        ∗ dutyTok ER (sendCell c j) 0 (0 : Fin 3) ∗ reached ER (sendCell c j) 0
        ∗ dutyTok ER (recvCell (peer c j) j) 0 (0 : Fin 3) ∗ reached ER (recvCell (peer c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xCol c j) (.remote (Dev.tc n : Thread nD τ) (oRow c) (.dma (sendS j).sem) hsc) (.dma (recvS j).sem) hsrc hdst hsem) k) Q) := by
  subst hn
  have e1 : sendCell c j = ((c : Thread nD τ), SemLoc.dma (sendS j).sem) := by rw [← csem_sendIx]
  have e2 : recvCell (peer c j) j = ((peer c j : Thread nD τ), SemLoc.dma (recvS j).sem) := by rw [← csem_recvIx]
  rw [e1, e2]
  exact Rounds.wp_send_pointsTo 𝒱₀ ER (sched m) (c : Thread nD τ) none (κ₁ := K (c, sendIx j)) (κ₂ := K (peer c j, recvIx j))
    (src := xCol c j) (dst := oRow c) (c' := (peer c j : Thread nD τ))
    (r₁ := 0) (r₂ := 0) (d₁ := 0) (d₂ := 0) (fd := fd) (fs := X m c) (q := fullShare)
    (by rw [← e1, duties_k m c _ (sendIx_ne j)]; exact Finset.mem_singleton_self _)
    (by rw [← e2, duties_k m (peer c j) _ (recvIx_ne j)]; exact Finset.mem_singleton_self _)
    () () N rfl (by rw [← e1]; exact amount_send m c j 0) (by rw [← e2]; exact amount_recv m (peer c j) j 0) O (by rw [hO, e2]) (W := W)
    (by rw [← e1, payload_send]; exact BI.Entails.refl _)
    (by rw [← e2, payload_recv]; unfold recvPay; rw [srcOf_peer]
        exact Entails.of_eq (pointsTo_congr (H.landing_eq c j fd)))

/-- The state the body starts from, spelt out conjunct by conjunct. -/
def bodyPre (K : Dev nD × Fin 9 → ℕ) (c : Dev nD) : sProp 𝕄 :=
  iprop(records m K
    ∗ (atPos ER (kcell (c, 0)) 0 (∅ : Finset (Fin 3)) 0 ∗ atPos ER (kcell (c, 1)) 0 (∅ : Finset (Fin 3)) 0 ∗ atPos ER (kcell (c, 2)) 0 (∅ : Finset (Fin 3)) 0
      ∗ atPos ER (kcell (c, 3)) 0 (∅ : Finset (Fin 3)) 0 ∗ atPos ER (kcell (c, 4)) 0 (∅ : Finset (Fin 3)) 0 ∗ atPos ER (kcell (c, 5)) 0 (∅ : Finset (Fin 3)) 0
      ∗ atPos ER (kcell (c, 6)) 0 (∅ : Finset (Fin 3)) 0 ∗ atPos ER (kcell (c, 7)) 0 (∅ : Finset (Fin 3)) 0 ∗ atPos ER (kcell (c, 8)) 0 (∅ : Finset (Fin 3)) 0)
    ∗ ((dutyTok ER (barCell (peer c 0)) 0 (rev 0) ∗ dutyTok ER (barCell (peer c 1)) 0 (rev 1) ∗ dutyTok ER (barCell (peer c 2)) 0 (rev 2))
      ∗ (dutyTok ER (recvCell (peer c 0) 0) 0 (0 : Fin 3) ∗ dutyTok ER (recvCell (peer c 1) 1) 0 (0 : Fin 3) ∗ dutyTok ER (recvCell (peer c 2) 2) 0 (0 : Fin 3))
      ∗ (dutyTok ER (kcell (c, ownIx 0)) 0 (0 : Fin 3) ∗ dutyTok ER (kcell (c, ownIx 1)) 0 (0 : Fin 3) ∗ dutyTok ER (kcell (c, ownIx 2)) 0 (0 : Fin 3)
        ∗ dutyTok ER (kcell (c, ownIx 3)) 0 (0 : Fin 3) ∗ dutyTok ER (kcell (c, ownIx 4)) 0 (0 : Fin 3)))
    ∗ (cred (tallyAt (barCell c) () 3) ∗ cred (tallyAt (recvCell c 0) () N) ∗ cred (tallyAt (recvCell c 1) () N) ∗ cred (tallyAt (recvCell c 2) () N))
    ∗ levAts L lv
    ∗ (((c : Thread nD τ).loc main_arg0) ↦{fullShare} X m c)
    ∗ (((c : Thread nD τ).loc main_v1) ↦{fullShare} m ((c : Thread nD τ).loc main_v1))
    ∗ (∃ f : Buf (Elt F) ((c : Thread nD τ).loc cc0_scratch0), ((c : Thread nD τ).loc cc0_scratch0) ↦{fullShare} f)
    ∗ (dats m 0 c).owesAt () t₀.castSucc)

def bodyPost (c : Dev nD) : sProp 𝕄 := iprop(Φ₁ m c ∗ (dats m 0 c).owesAt () t₀.succ)

omit [FloatOps F] in
theorem vM_set : (vM : Memref sig .tc .vmem S4096x1024 .f32).view.set = Finset.univ := View.set_whole _

set_option maxHeartbeats 1600000 in
/-- The body, one rule per effect in program order. -/
theorem sound_body (H : SlabFacts m) (K : Dev nD × Fin 9 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3) Kt := by
  rw [cc0_body_eq_skeleton]; unfold cc0_body_skel
  rw [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre
  iintro ⟨⟨#HR, ⟨HaB, HaL, HaT, HaS0, HaS1, HaS2, HaR0, HaR1, HaR2⟩, ⟨⟨HtB0, HtB1, HtB2⟩, ⟨HtR0, HtR1, HtR2⟩, ⟨HtL, HtT, HtS0, HtS1, HtS2⟩⟩,
    ⟨HcB, HcR0, HcR1, HcR2⟩, #Hlev, Hx, Hout, ⟨%fv, Hscr⟩, Ho⟩, Hk⟩
  unfold Dat.owesAt Pipeline.owesWithin
  icases Ho with ⟨%W, %hW, HO⟩
  rw [show (dats m 0 c).owed t₀.castSucc = O₀ c from rfl]
  -- the two arrays cut into their slabs
  ihave Hx4 := (H.x_split c).1 $$ Hx
  icases Hx4 with ⟨HxO, HxC0, HxC1, HxC2⟩
  ihave Ho4 := (H.o_split c _).1 $$ Hout
  icases Ho4 with ⟨HoO, HoP0, HoP1, HoP2⟩
  simp only [dev1_eq c, dev2_eq c, dev3_eq c]
  -- signal 0, to `peer c 0`: row block `peer c 0` of this device's result, and that receive cell `rev 0` here is at round 0
  iapply (Rounds.wp_signal 𝒱₀ ER (sched m) (c : Thread nD τ) none (dst := (peer c 0 : Thread nD τ)) (κ := K (peer c 0, 0))
      (d := rev 0) (show rev 0 ∈ (sched m).duties (kcell (peer c 0, 0)) 0 by rw [duties_k0]; exact Finset.mem_univ _)
      ((amount_bar m (peer c 0) (rev 0)).trans (by decide)) () (OB₁ c) rfl) $$ [HO HtB0 HoP0]
  · isplitr; · iapply (inv_at m K (peer c 0, 0)); iexact HR
    isplitl [HO]; · iexact HO
    isplitl [HtB0]; · iexact HtB0
    isplitl [HoP0]
    · rw [show (sched m).payload ((peer c 0 : Thread nD τ), SemLoc.reg barS) 0 (rev 0) = barPay (peer c 0) (rev 0) from payload_bar m (peer c 0) (rev 0)]
      unfold barPay; rw [peer_peer_rev]
      isplitl [HoP0]; · iexists _; iexact HoP0
      iapply (reached_at m K (c, recvIx (rev 0))); iexact HR
    · iapply (reached_at m K (peer c 0, 0)); iexact HR
  iintro HO
  -- signal 1, to `peer c 1`
  iapply (Rounds.wp_signal 𝒱₀ ER (sched m) (c : Thread nD τ) none (dst := (peer c 1 : Thread nD τ)) (κ := K (peer c 1, 0))
      (d := rev 1) (show rev 1 ∈ (sched m).duties (kcell (peer c 1, 0)) 0 by rw [duties_k0]; exact Finset.mem_univ _)
      ((amount_bar m (peer c 1) (rev 1)).trans (by decide)) () (OB₂ c) rfl) $$ [HO HtB1 HoP1]
  · isplitr; · iapply (inv_at m K (peer c 1, 0)); iexact HR
    isplitl [HO]; · iexact HO
    isplitl [HtB1]; · iexact HtB1
    isplitl [HoP1]
    · rw [show (sched m).payload ((peer c 1 : Thread nD τ), SemLoc.reg barS) 0 (rev 1) = barPay (peer c 1) (rev 1) from payload_bar m (peer c 1) (rev 1)]
      unfold barPay; rw [peer_peer_rev]
      isplitl [HoP1]; · iexists _; iexact HoP1
      iapply (reached_at m K (c, recvIx (rev 1))); iexact HR
    · iapply (reached_at m K (peer c 1, 0)); iexact HR
  iintro HO
  -- signal 2, to `peer c 2`
  iapply (Rounds.wp_signal 𝒱₀ ER (sched m) (c : Thread nD τ) none (dst := (peer c 2 : Thread nD τ)) (κ := K (peer c 2, 0))
      (d := rev 2) (show rev 2 ∈ (sched m).duties (kcell (peer c 2, 0)) 0 by rw [duties_k0]; exact Finset.mem_univ _)
      ((amount_bar m (peer c 2) (rev 2)).trans (by decide)) () (OR c) rfl) $$ [HO HtB2 HoP2]
  · isplitr; · iapply (inv_at m K (peer c 2, 0)); iexact HR
    isplitl [HO]; · iexact HO
    isplitl [HtB2]; · iexact HtB2
    isplitl [HoP2]
    · rw [show (sched m).payload ((peer c 2 : Thread nD τ), SemLoc.reg barS) 0 (rev 2) = barPay (peer c 2) (rev 2) from payload_bar m (peer c 2) (rev 2)]
      unfold barPay; rw [peer_peer_rev]
      isplitl [HoP2]; · iexists _; iexact HoP2
      iapply (reached_at m K (c, recvIx (rev 2))); iexact HR
    · iapply (reached_at m K (peer c 2, 0)); iexact HR
  iintro HO
  -- the wait for three units on its own barrier cell, owing the three receive credits
  iapply (Rounds.wp_wait_rest_token 𝒱₀ ER (sched m) (c : Thread nD τ) none (κ := K (c, 0))
      (wpE_semWait_eq 𝒱₀ (c : Thread nD τ) none Set.univ) (Set.mem_univ _) () (O := OR c) (W := W) (R := 0) (m := 0) (T := ∅)
      (show 0 + (3#32 : BitVec 32).toNat = (sched m).expect (kcell (c, 0)) 0 by rw [expect_bar]; decide)) $$ [HcB HO HaB]
  · isplitr; · iapply (inv_at m K (c, 0)); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay
  icases Hp with ⟨⟨⟨%f0, Hs0⟩, #Hq0⟩, ⟨⟨%f1, Hs1⟩, #Hq1⟩, ⟨%f2, Hs2⟩, #Hq2⟩
  -- transfer 0, to `peer c 0`
  iapply (wp_send_j m H K c _ 0 (dev4_eq c) f0 (OR c) (OR₁ c) rfl _) $$ [HxC0 Hs0 HO HtS0 HtR0]
  · isplitr; · iapply (inv_at m K (c, sendIx 0)); iexact HR
    isplitr; · iapply (inv_at m K (peer c 0, recvIx 0)); iexact HR
    isplitl [HxC0]; · iexact HxC0
    isplitl [Hs0]; · iexact Hs0
    isplitl [HO]; · iexact HO
    isplitl [HtS0]; · iexact HtS0
    isplitr; · iapply (reached_at m K (c, sendIx 0)); iexact HR
    isplitl [HtR0]; · iexact HtR0
    iexact Hq0
  iintro ⟨HcS0, HO⟩
  -- transfer 1, to `peer c 1`
  iapply (wp_send_j m H K c _ 1 (dev5_eq c) f1 (OR₁ c) (OR₂ c) rfl _) $$ [HxC1 Hs1 HO HtS1 HtR1]
  · isplitr; · iapply (inv_at m K (c, sendIx 1)); iexact HR
    isplitr; · iapply (inv_at m K (peer c 1, recvIx 1)); iexact HR
    isplitl [HxC1]; · iexact HxC1
    isplitl [Hs1]; · iexact Hs1
    isplitl [HO]; · iexact HO
    isplitl [HtS1]; · iexact HtS1
    isplitr; · iapply (reached_at m K (c, sendIx 1)); iexact HR
    isplitl [HtR1]; · iexact HtR1
    iexact Hq1
  iintro ⟨HcS1, HO⟩
  -- transfer 2, to `peer c 2`
  iapply (wp_send_j m H K c _ 2 (dev6_eq c) f2 (OR₂ c) (0) (by unfold OR₂; rw [zero_add]) _) $$ [HxC2 Hs2 HO HtS2 HtR2]
  · isplitr; · iapply (inv_at m K (c, sendIx 2)); iexact HR
    isplitr; · iapply (inv_at m K (peer c 2, recvIx 2)); iexact HR
    isplitl [HxC2]; · iexact HxC2
    isplitl [Hs2]; · iexact Hs2
    isplitl [HO]; · iexact HO
    isplitl [HtS2]; · iexact HtS2
    isplitr; · iapply (reached_at m K (c, sendIx 2)); iexact HR
    isplitl [HtR2]; · iexact HtR2
    iexact Hq2
  iintro ⟨HcS2, HO⟩
  -- the local load of column block `c` into the scratch buffer
  ihave Hscr' := (Entails.of_eq (show ((((c : Thread nD τ).loc cc0_scratch0) ↦{fullShare} fv) : sProp 𝕄) = vPts c fv by unfold vPts; rw [vM_set])) $$ Hscr
  iapply (Rounds.wp_copy_pointsTo 𝒱₀ ER (sched m) (c : Thread nD τ) none (κ := K (c, 1)) (src := xOwn c) (dst := vM) (sem := SemLoc.dma loadS.sem)
      (r := 0) (d := 0) (fs := X m c) (fd := fv) (q := fullShare)
      (show (0 : Fin 3) ∈ (sched m).duties (kcell (c, 1)) 0 by rw [duties_k m c 1 (by decide)]; exact Finset.mem_singleton_self _)
      () Nv rfl (amount_load m c 0)
      (by rw [show (sched m).payload ((c : Thread nD τ), SemLoc.dma loadS.sem) 0 0 = loadPay m c from payload_load m c 0]
          unfold loadPay vPts; rw [H.load_eq c fv])) $$ [HxO Hscr' HtL]
  · isplitr; · iapply (inv_at m K (c, 1)); iexact HR
    isplitl [HxO]; · iexact HxO
    isplitl [Hscr']; · iexact Hscr'
    isplitl [HtL]; · iexact HtL
    iapply (reached_at m K (c, 1)); iexact HR
  iintro HcL
  -- the wait on the load cell
  iapply (Rounds.wp_wait_rest_token 𝒱₀ ER (sched m) (c : Thread nD τ) none (κ := K (c, 1))
      (wpE_waitDma2_eq 𝒱₀ (c : Thread nD τ) none Set.univ) (Set.mem_univ _) () (O := 0) (R := 0) (m := 0) (T := ∅)
      (show 0 + (vM : Memref sig .tc .vmem S4096x1024 .f32).view.dmaCredit = (sched m).expect (kcell (c, 1)) 0 by rw [expect_load, Nat.zero_add])) $$ [HcL HO HaL]
  · isplitr; · iapply (inv_at m K (c, 1)); iexact HR
    isplitl [HcL]; · iexact HcL
    isplitl [HO]; · iexact HO
    isplitr; · rw [MayWait_zero]; iempintro
    iexact HaL
  iintro ⟨HO, HaL, -, Hpay⟩
  ihave Hp := (Entails.of_eq (rest_k m c 1 (by decide))) $$ Hpay
  ihave Hp' := (Entails.of_eq (show payK m c 1 0 = loadPay m c from rfl)) $$ Hp
  unfold loadPay
  icases Hp' with ⟨Hv, HxO⟩
  -- the local store of the scratch buffer into row block `c` of the result
  iapply (Rounds.wp_copy_pointsTo 𝒱₀ ER (sched m) (c : Thread nD τ) none (κ := K (c, 2)) (src := vM) (dst := oRow c) (sem := SemLoc.dma storeS.sem)
      (r := 0) (d := 0) (fs := kept m c) (fd := m ((c : Thread nD τ).loc main_v1)) (q := fullShare)
      (show (0 : Fin 3) ∈ (sched m).duties (kcell (c, 2)) 0 by rw [duties_k m c 2 (by decide)]; exact Finset.mem_singleton_self _)
      () N rfl (amount_store m c 0)
      (by rw [show (sched m).payload ((c : Thread nD τ), SemLoc.dma storeS.sem) 0 0 = storePay m c from payload_store m c 0]
          unfold storePay
          exact sep_mono_left (Entails.of_eq (pointsTo_congr (H.store_eq c _))))) $$ [Hv HoO HtT]
  · isplitr; · iapply (inv_at m K (c, 2)); iexact HR
    isplitl [Hv]; · iexact Hv
    isplitl [HoO]; · iexact HoO
    isplitl [HtT]; · iexact HtT
    iapply (reached_at m K (c, 2)); iexact HR
  iintro HcT
  -- the wait on the store cell
  iapply (Rounds.wp_wait_rest_token 𝒱₀ ER (sched m) (c : Thread nD τ) none (κ := K (c, 2))
      (wpE_waitDma2_eq 𝒱₀ (c : Thread nD τ) none Set.univ) (Set.mem_univ _) () (O := 0) (R := 0) (m := 0) (T := ∅)
      (show 0 + (oRow c).view.dmaCredit = (sched m).expect (kcell (c, 2)) 0 by rw [expect_store, Nat.zero_add])) $$ [HcT HO HaT]
  · isplitr; · iapply (inv_at m K (c, 2)); iexact HR
    isplitl [HcT]; · iexact HcT
    isplitl [HO]; · iexact HO
    isplitr; · rw [MayWait_zero]; iempintro
    iexact HaT
  iintro ⟨HO, HaT, -, Hpay⟩
  ihave Hp := (Entails.of_eq (rest_k m c 2 (by decide))) $$ Hpay
  ihave Hp' := (Entails.of_eq (show payK m c 2 0 = storePay m c from rfl)) $$ Hp
  unfold storePay
  icases Hp' with ⟨HoO, Hv⟩
  -- the wait on the send 0 cell
  iapply (Rounds.wp_wait_rest_token 𝒱₀ ER (sched m) (c : Thread nD τ) none (κ := K (c, 3))
      (wpE_waitDma2_eq 𝒱₀ (c : Thread nD τ) none Set.univ) (Set.mem_univ _) () (O := 0) (R := 0) (m := 0) (T := ∅)
      (show 0 + (xCol c 0).view.dmaCredit = (sched m).expect (kcell (c, 3)) 0 by rw [show (sched m).expect (kcell (c, 3)) 0 = N from expect_send m c 0, Nat.zero_add])) $$ [HcS0 HO HaS0]
  · isplitr; · iapply (inv_at m K (c, 3)); iexact HR
    isplitl [HcS0]; · iexact HcS0
    isplitl [HO]; · iexact HO
    isplitr; · rw [MayWait_zero]; iempintro
    iexact HaS0
  iintro ⟨HO, HaS0, -, Hpay⟩
  ihave Hp := (Entails.of_eq (rest_k m c 3 (by decide))) $$ Hpay
  ihave HxC0 := (Entails.of_eq (show payK m c 3 0 = xColPts m c 0 from rfl)) $$ Hp
  -- the wait on the receive 0 cell
  iapply (Rounds.wp_wait_rest_token 𝒱₀ ER (sched m) (c : Thread nD τ) none (κ := K (c, 6))
      (wpE_waitDma2_eq 𝒱₀ (c : Thread nD τ) none Set.univ) (Set.mem_univ _) () (O := 0) (R := 0) (m := 0) (T := ∅)
      (show 0 + (oRow c).view.dmaCredit = (sched m).expect (kcell (c, 6)) 0 by rw [show (sched m).expect (kcell (c, 6)) 0 = N from expect_recv m c 0, Nat.zero_add])) $$ [HcR0 HO HaR0]
  · isplitr; · iapply (inv_at m K (c, 6)); iexact HR
    isplitl [HcR0]; · iexact HcR0
    isplitl [HO]; · iexact HO
    isplitr; · rw [MayWait_zero]; iempintro
    iexact HaR0
  iintro ⟨HO, HaR0, -, Hpay⟩
  ihave Hp := (Entails.of_eq (rest_k m c 6 (by decide))) $$ Hpay
  ihave HoR0 := (Entails.of_eq (show payK m c 6 0 = oSlab c (srcOf c 0) (outF m c) from rfl)) $$ Hp
  -- the wait on the send 1 cell
  iapply (Rounds.wp_wait_rest_token 𝒱₀ ER (sched m) (c : Thread nD τ) none (κ := K (c, 4))
      (wpE_waitDma2_eq 𝒱₀ (c : Thread nD τ) none Set.univ) (Set.mem_univ _) () (O := 0) (R := 0) (m := 0) (T := ∅)
      (show 0 + (xCol c 1).view.dmaCredit = (sched m).expect (kcell (c, 4)) 0 by rw [show (sched m).expect (kcell (c, 4)) 0 = N from expect_send m c 1, Nat.zero_add])) $$ [HcS1 HO HaS1]
  · isplitr; · iapply (inv_at m K (c, 4)); iexact HR
    isplitl [HcS1]; · iexact HcS1
    isplitl [HO]; · iexact HO
    isplitr; · rw [MayWait_zero]; iempintro
    iexact HaS1
  iintro ⟨HO, HaS1, -, Hpay⟩
  ihave Hp := (Entails.of_eq (rest_k m c 4 (by decide))) $$ Hpay
  ihave HxC1 := (Entails.of_eq (show payK m c 4 0 = xColPts m c 1 from rfl)) $$ Hp
  -- the wait on the receive 1 cell
  iapply (Rounds.wp_wait_rest_token 𝒱₀ ER (sched m) (c : Thread nD τ) none (κ := K (c, 7))
      (wpE_waitDma2_eq 𝒱₀ (c : Thread nD τ) none Set.univ) (Set.mem_univ _) () (O := 0) (R := 0) (m := 0) (T := ∅)
      (show 0 + (oRow c).view.dmaCredit = (sched m).expect (kcell (c, 7)) 0 by rw [show (sched m).expect (kcell (c, 7)) 0 = N from expect_recv m c 1, Nat.zero_add])) $$ [HcR1 HO HaR1]
  · isplitr; · iapply (inv_at m K (c, 7)); iexact HR
    isplitl [HcR1]; · iexact HcR1
    isplitl [HO]; · iexact HO
    isplitr; · rw [MayWait_zero]; iempintro
    iexact HaR1
  iintro ⟨HO, HaR1, -, Hpay⟩
  ihave Hp := (Entails.of_eq (rest_k m c 7 (by decide))) $$ Hpay
  ihave HoR1 := (Entails.of_eq (show payK m c 7 0 = oSlab c (srcOf c 1) (outF m c) from rfl)) $$ Hp
  -- the wait on the send 2 cell
  iapply (Rounds.wp_wait_rest_token 𝒱₀ ER (sched m) (c : Thread nD τ) none (κ := K (c, 5))
      (wpE_waitDma2_eq 𝒱₀ (c : Thread nD τ) none Set.univ) (Set.mem_univ _) () (O := 0) (R := 0) (m := 0) (T := ∅)
      (show 0 + (xCol c 2).view.dmaCredit = (sched m).expect (kcell (c, 5)) 0 by rw [show (sched m).expect (kcell (c, 5)) 0 = N from expect_send m c 2, Nat.zero_add])) $$ [HcS2 HO HaS2]
  · isplitr; · iapply (inv_at m K (c, 5)); iexact HR
    isplitl [HcS2]; · iexact HcS2
    isplitl [HO]; · iexact HO
    isplitr; · rw [MayWait_zero]; iempintro
    iexact HaS2
  iintro ⟨HO, HaS2, -, Hpay⟩
  ihave Hp := (Entails.of_eq (rest_k m c 5 (by decide))) $$ Hpay
  ihave HxC2 := (Entails.of_eq (show payK m c 5 0 = xColPts m c 2 from rfl)) $$ Hp
  -- the wait on the receive 2 cell
  iapply (Rounds.wp_wait_rest_token 𝒱₀ ER (sched m) (c : Thread nD τ) none (κ := K (c, 8))
      (wpE_waitDma2_eq 𝒱₀ (c : Thread nD τ) none Set.univ) (Set.mem_univ _) () (O := 0) (R := 0) (m := 0) (T := ∅)
      (show 0 + (oRow c).view.dmaCredit = (sched m).expect (kcell (c, 8)) 0 by rw [show (sched m).expect (kcell (c, 8)) 0 = N from expect_recv m c 2, Nat.zero_add])) $$ [HcR2 HO HaR2]
  · isplitr; · iapply (inv_at m K (c, 8)); iexact HR
    isplitl [HcR2]; · iexact HcR2
    isplitl [HO]; · iexact HO
    isplitr; · rw [MayWait_zero]; iempintro
    iexact HaR2
  iintro ⟨HO, HaR2, -, Hpay⟩
  ihave Hp := (Entails.of_eq (rest_k m c 8 (by decide))) $$ Hpay
  ihave HoR2 := (Entails.of_eq (show payK m c 8 0 = oSlab c (srcOf c 2) (outF m c) from rfl)) $$ Hp
  -- the eight own cells close: their counters at zero are the core's again
  imod (Rounds.cell_close ER (sched m) (Set.mem_univ (K (c, 1))) (fun h => h) (R := 0 + 1) (duties_later m (kcell (c, 1)))) $$ [HaL] with Hz1
  · isplitr; · iapply (inv_at m K (c, 1)); iexact HR
    iexact HaL
  imod (Rounds.cell_close ER (sched m) (Set.mem_univ (K (c, 2))) (fun h => h) (R := 0 + 1) (duties_later m (kcell (c, 2)))) $$ [HaT] with Hz2
  · isplitr; · iapply (inv_at m K (c, 2)); iexact HR
    iexact HaT
  imod (Rounds.cell_close ER (sched m) (Set.mem_univ (K (c, 3))) (fun h => h) (R := 0 + 1) (duties_later m (kcell (c, 3)))) $$ [HaS0] with Hz3
  · isplitr; · iapply (inv_at m K (c, 3)); iexact HR
    iexact HaS0
  imod (Rounds.cell_close ER (sched m) (Set.mem_univ (K (c, 4))) (fun h => h) (R := 0 + 1) (duties_later m (kcell (c, 4)))) $$ [HaS1] with Hz4
  · isplitr; · iapply (inv_at m K (c, 4)); iexact HR
    iexact HaS1
  imod (Rounds.cell_close ER (sched m) (Set.mem_univ (K (c, 5))) (fun h => h) (R := 0 + 1) (duties_later m (kcell (c, 5)))) $$ [HaS2] with Hz5
  · isplitr; · iapply (inv_at m K (c, 5)); iexact HR
    iexact HaS2
  imod (Rounds.cell_close ER (sched m) (Set.mem_univ (K (c, 6))) (fun h => h) (R := 0 + 1) (duties_later m (kcell (c, 6)))) $$ [HaR0] with Hz6
  · isplitr; · iapply (inv_at m K (c, 6)); iexact HR
    iexact HaR0
  imod (Rounds.cell_close ER (sched m) (Set.mem_univ (K (c, 7))) (fun h => h) (R := 0 + 1) (duties_later m (kcell (c, 7)))) $$ [HaR1] with Hz7
  · isplitr; · iapply (inv_at m K (c, 7)); iexact HR
    iexact HaR1
  imod (Rounds.cell_close ER (sched m) (Set.mem_univ (K (c, 8))) (fun h => h) (R := 0 + 1) (duties_later m (kcell (c, 8)))) $$ [HaR2] with Hz8
  · isplitr; · iapply (inv_at m K (c, 8)); iexact HR
    iexact HaR2
  rw [wp_ret]; imodintro
  iapply Hk
  unfold bodyPost Φ₁ Dat.owesAt Pipeline.owesWithin
  rw [show (dats m 0 c).owed t₀.succ = 0 from rfl, bsep8]
  isplitr [HO]
  · isplitl [HxO HxC0 HxC1 HxC2]
    · iapply (H.x_split c).2
      isplitl [HxO]; · iexact HxO
      isplitl [HxC0]; · iexact HxC0
      isplitl [HxC1]; · iexact HxC1
      iexact HxC2
    isplitl [HoO HoR0 HoR1 HoR2]
    · iapply (H.o_join c (outF m c))
      isplitl [HoO]; · iexact HoO
      isplitl [HoR0]; · iexact HoR0
      isplitl [HoR1]; · iexact HoR1
      iexact HoR2
    isplitl [Hv]
    · iexists (kept m c)
      iapply (Entails.of_eq (show vPts c (kept m c) = ((((c : Thread nD τ).loc cc0_scratch0) ↦{fullShare} kept m c) : sProp 𝕄) by unfold vPts; rw [vM_set]))
      iexact Hv
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    iexact Hz8
  · iexists (insert (SemLoc.dma (recvS 2).sem, ()) (insert (SemLoc.dma (sendS 2).sem, ()) (insert (SemLoc.dma (recvS 1).sem, ()) (insert (SemLoc.dma (sendS 1).sem, ())
      (insert (SemLoc.dma (recvS 0).sem, ()) (insert (SemLoc.dma (sendS 0).sem, ()) (insert (SemLoc.dma storeS.sem, ()) (insert (SemLoc.dma loadS.sem, ())
      (insert (SemLoc.reg barS, ()) W)))))))))
    isplitr; · ipureintro; exact fun _ _ => Or.inl trivial
    iexact HO

/-- The library's body obligation on device `c`: the one grid point, from `Φ₀` to `Φ₁`. -/
theorem body_obligation (H : SlabFacts m) (c : Dev nD) : BodyObligation (dats (F := F) m 0 c) (defs₀ (F := F)) 𝒱₀ () Set.univ := fun t => by
  rw [fin_N t]
  have hW : ∀ Φ : Fin cfg0.W → sProp 𝕄, bigSep Finset.univ Φ = iprop(emp) := fun Φ => by
    rw [show (Finset.univ : Finset (Fin cfg0.W)) = ∅ from Finset.univ_eq_empty]; exact BI.bigSep_empty
  rw [hW, hW]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      (Memref.whole cc0_scratch0) (Memref.isWhole_whole _) cc0_scratch1 cc0_scratch2 cc0_scratch3)
    (fun _ => iprop(Φ₁ m c ∗ (dats m 0 c).owesAt () t₀.succ ∗ emp))
  unfold Φ₀ start ghost positions payToks
  rw [bsep9, bsep3, bsep3, bsep5]
  iintro ⟨⟨⟨⟨%K, HR, Hpos, Htok⟩, Hcred, Hlev, Hx, Hout⟩, Hscr⟩, Ho, -⟩
  iapply (sound_body m H K c fun _ => iprop(Φ₁ m c ∗ (dats m 0 c).owesAt () t₀.succ ∗ emp))
  unfold bodyPre
  isplitr []
  · isplitl [HR]; · iexact HR
    isplitl [Hpos]; · iexact Hpos
    isplitl [Htok]; · iexact Htok
    isplitl [Hcred]; · iexact Hcred
    isplitl [Hlev]; · iexact Hlev
    isplitl [Hx]; · iexact Hx
    isplitl [Hout]; · iexact Hout
    isplitl [Hscr]; · iexact Hscr
    iexact Ho
  · unfold bodyPost
    iintro ⟨H1, H2⟩
    isplitl [H1]; · iexact H1
    isplitl [H2]; · iexact H2
    iempintro

end Body

end Cert.KernelIdeal.A2A
end
-- ==== Proof.Launch.lean ====
/-
  The launch of the all-to-all on four devices.

  The launch mints, for every device, the round states of its nine semaphore cells, its positions at round 0, and the
  tokens of the duties of its own cells: the three duties of its barrier cell and the one duty of each of its eight
  transfer cells. One global step, over all devices at once, puts each cell's counter at zero and its round state under
  an invariant, and deals the tokens to the devices that PAY the duties: the token of duty `rev i` of the barrier cell
  of `peer c i` and the token of receive cell `j` of `peer c j` go to `c`; the tokens of a device's own load, store and
  send cells stay with it. With the launch credit and the two arrays this is what a device's body starts from; what it
  ends in gives back the eight own counters at zero and reads off the final contents of the two arrays.
-/
import proofs.«900007_g7700000000000008_dist_a2a_v7x_i4_i_m4096_n1024_f32_1_alg».proof.Proof.Ghost
import proofs.«900007_g7700000000000008_dist_a2a_v7x_i4_i_m4096_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens minted -/

theorem ownSemFacts : Pipeline.OwnSemFacts cfg0.spec osem := by decide

theorem kcell_injective : Function.Injective (kcell : Dev nD × Fin 9 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The thirty-six cells of the protocol. -/
def ringCells : Finset (GSem nD τ sig) := Finset.univ.map ⟨kcell, kcell_injective⟩

/-- The duties of a device's own cells, by cell and duty: the three barrier duties, the duty of each receive cell, the
    duty of each of the load, store and send cells. -/
def tokIx : Fin 3 ⊕ Fin 3 ⊕ Fin 5 → Fin 9 × Fin 3
  | .inl d => (0, d)
  | .inr (.inl j) => (recvIx j, 0)
  | .inr (.inr k) => (ownIx k, 0)

theorem tokIx_injective : Function.Injective tokIx := by decide

/-- A device's own cells' duty tokens as minted. -/
abbrev tokOf (cx : Dev nD × (Fin 3 ⊕ Fin 3 ⊕ Fin 5)) : GSem nD τ sig × ℕ × Fin 3 :=
  (kcell (cx.1, (tokIx cx.2).1), 0, (tokIx cx.2).2)

theorem tokOf_injective : Function.Injective (tokOf : Dev nD × (Fin 3 ⊕ Fin 3 ⊕ Fin 5) → GSem nD τ sig × ℕ × Fin 3) := by
  rintro ⟨c, x⟩ ⟨c', x'⟩ h
  have h1 : (c, (tokIx x).1) = (c', (tokIx x').1) := kcell_injective (congrArg (fun y : GSem nD τ sig × ℕ × Fin 3 => y.1) h)
  have h2 : (tokIx x).2 = (tokIx x').2 := congrArg (fun y : GSem nD τ sig × ℕ × Fin 3 => y.2.2) h
  have hc : c = c' := congrArg Prod.fst h1
  have hx : x = x' := tokIx_injective (Prod.ext (congrArg Prod.snd h1) h2)
  rw [hc, hx]

def ringToks : Finset (GSem nD τ sig × ℕ × Fin 3) := Finset.univ.map ⟨tokOf, tokOf_injective⟩

/-- The launch element: the pipeline library's (no staging cell) beside the protocol's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 3 => dutyTok ER (barCell c) 0 d)
    ∗ (bigSep Finset.univ fun j : Fin 3 => dutyTok ER (recvCell c j) 0 (0 : Fin 3))
    ∗ (bigSep Finset.univ fun k : Fin 5 => dutyTok ER (kcell (c, ownIx k)) 0 (0 : Fin 3)))

variable (m : (ℓ : Loc nD τ sig) → Buf (Elt F) ℓ)

/-- What the launch element deals device `c`. -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 (∅ : Finset (Fin 3)) 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell under its invariant, the tokens dealt to their payers -/

omit [FloatOps F] in
/-- A sum over the nine cells: the barrier cell, then the eight transfer cells. -/
theorem bigSep_fin9 (Φ : Fin 9 → sProp 𝕄) : bigSep Finset.univ Φ = iprop(Φ 0 ∗ bigSep Finset.univ fun k : Fin 8 => Φ k.succ) := by
  rw [bigSep_univ_at Φ 0, show (Finset.univ.erase (0 : Fin 9)) = Finset.univ.map ⟨Fin.succ, Fin.succ_injective 8⟩ from by decide, bigSep_map]
  rfl

omit [FloatOps F] in
/-- The eight transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun k : Fin 8 => semVal (kcell (c, k.succ)) 0 := rfl

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨HO, HB⟩
  isplitl [HB] <;> iassumption

/-- One device's nine counters and round states go under nine invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 9 => iprop(∃ κ : ℕ, cellInv ER (sched m) κ (kcell (c, k))))
          ∗ (bigSep Finset.univ fun k : Fin 9 => iprop(atPos ER (kcell (c, k)) 0 (∅ : Finset (Fin 3)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k : Fin 9 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 9 → ℕ) (c : Dev nD) : iprop(records m K ∗ positions c ∗ payToks c) ⊢ G' m c := by
  unfold G' ghost
  iintro H
  iexists K
  iexact H

/-- Going `i + 1` places round the ring and flipping the duty is its own inverse; -/
def barEquiv : Dev nD × Fin 3 ≃ Dev nD × Fin 3 where
  toFun x := (peer x.1 x.2, rev x.2)
  invFun x := (peer x.1 x.2, rev x.2)
  left_inv x := Prod.ext (peer_peer_rev x.1 x.2) (rev_rev x.2)
  right_inv x := Prod.ext (peer_peer_rev x.1 x.2) (rev_rev x.2)

/-- going `j + 1` places is undone by coming `j + 1` places back. -/
def recvEquiv : Dev nD × Fin 3 ≃ Dev nD × Fin 3 where
  toFun x := (peer x.1 x.2, x.2)
  invFun x := (srcOf x.1 x.2, x.2)
  left_inv x := Prod.ext (srcOf_peer x.1 x.2) rfl
  right_inv x := Prod.ext (peer_srcOf x.1 x.2) rfl

omit [FloatOps F] in
/-- The tokens dealt to their payers: duty `rev i` of the barrier cell of `peer c i` and the duty of receive cell `j` of
    `peer c j` go to `c`; the tokens of a device's load, store and send cells stay. -/
theorem toks_around : (bigSep Finset.univ fun c : Dev nD => (toks c : sProp 𝕄)) ⊢ bigSep Finset.univ fun c : Dev nD => payToks c := by
  have hB : (bigSep Finset.univ fun c : Dev nD => bigSep Finset.univ fun d : Fin 3 => (dutyTok ER (barCell c) 0 d : sProp 𝕄))
      = bigSep Finset.univ fun c : Dev nD => bigSep Finset.univ fun i : Fin 3 => dutyTok ER (barCell (peer c i)) 0 (rev i) := by
    rw [← bigSep_univ_prod (fun x : Dev nD × Fin 3 => (dutyTok ER (barCell x.1) 0 x.2 : sProp 𝕄)), bigSep_univ_equiv barEquiv, bigSep_univ_prod]
    rfl
  have hR : (bigSep Finset.univ fun c : Dev nD => bigSep Finset.univ fun j : Fin 3 => (dutyTok ER (recvCell c j) 0 (0 : Fin 3) : sProp 𝕄))
      = bigSep Finset.univ fun c : Dev nD => bigSep Finset.univ fun j : Fin 3 => dutyTok ER (recvCell (peer c j) j) 0 (0 : Fin 3) := by
    rw [← bigSep_univ_prod (fun x : Dev nD × Fin 3 => (dutyTok ER (recvCell x.1 x.2) 0 (0 : Fin 3) : sProp 𝕄)), bigSep_univ_equiv recvEquiv, bigSep_univ_prod]
    rfl
  unfold toks payToks
  rw [bigSep_sep', bigSep_sep', bigSep_sep', bigSep_sep', hB, hR]

/-- Every device's invariants gathered into one record, each device left with its positions and the tokens it pays with. -/
theorem regroup :
    (bigSep Finset.univ fun c : Dev nD => iprop((bigSep Finset.univ fun k : Fin 9 => iprop(∃ κ : ℕ, cellInv ER (sched m) κ (kcell (c, k))))
          ∗ (bigSep Finset.univ fun k : Fin 9 => iprop(atPos ER (kcell (c, k)) 0 (∅ : Finset (Fin 3)) 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 (∅ : Finset (Fin 3)) 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

variable (ρ : Dev nD → PrngReg)

/-- What a device's body starts from: the global step's share, the launch credit, the level facts and the two arrays. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What the launch keeps of a device's last state: its two arrays. -/
def Y (c : Dev nD) : sProp 𝕄 :=
  iprop((((c : Thread nD τ).loc main_arg0) ↦{fullShare} X m c) ∗ (((c : Thread nD τ).loc main_v1) ↦{fullShare} outF m c))

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨Hx, Ho, Hv, Hz⟩
  isplitl [Hx Ho]
  · isplitl [Hx] <;> iassumption
  isplitl [Hz] <;> iassumption

/-- There is no staging cell to wait on. -/
theorem waits (c : Dev nD) : (levAts L lv : sProp 𝕄) ⊢ Pipeline.cellsWaits cfgs (dats m) () 0 c :=
  Pipeline.cellsWaits_intro cfgs (dats m) () 0 c fun w => w.elim0

/-- The two arrays' final contents read off the memory. -/
theorem read_final (c : Dev nD) (s' : Phys nD τ sig (Elt F)) :
    iprop(Y m c ∗ (emp : sProp 𝕄) ∗ SI s')
      ⊢ |={Set.univ}=> iprop(⌜s'.mem.mem ((c : Thread nD τ).loc main_v1) = outF m c
          ∧ s'.mem.mem ((c : Thread nD τ).loc main_arg0) = m ((c : Thread nD τ).loc main_arg0)⌝ ∗ SI s') := by
  unfold Y
  iintro ⟨⟨Hx, Ho⟩, -, HSI⟩
  icombine HSI Ho gives %ho
  icombine HSI Hx gives %hx
  imodintro
  isplitr; · ipureintro; exact ⟨Buf.eq_of_forall_mem_univ ho, Buf.eq_of_forall_mem_univ hx⟩
  iexact HSI

/-! ## The run -/

set_option maxRecDepth 8000 in
/-- At the compiled mesh of four devices, for any float values, from any memory with zero counters: if every device's
    body meets its obligation, every weakly fair execution of @main — the four kernels handshaking on the barrier
    semaphore, then transferring their column blocks to one another — terminates, and every final state has each
    device's result array at its final contents and its `x` unchanged. -/
theorem run_main_of (m : (ℓ : Loc nD τ sig) → Buf (Elt F) ℓ) (ρ : Dev nD → PrngReg)
    (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => s.mem ((c : Thread nD τ).loc main_v1) = outF m c ∧ s.mem ((c : Thread nD τ).loc main_arg0) = m ((c : Thread nD τ).loc main_arg0))
    (hY := read_final m)
    (hQ := fun _ h c => (h c).2.2)

/-- info: 'Cert.KernelIdeal.A2A.run_main_of' depends on axioms: [propext, Classical.choice, Quot.sound] -/
#guard_msgs in #print axioms run_main_of

end Cert.KernelIdeal.A2A

end
-- ==== Proof.Slabs.lean ====
/-
  The index arithmetic of the slabs.

  On a device `x` is 4096 × 4096, cut into four column blocks of 1024 columns: the device's own block, and the block of
  each of its three peers. A result array is 16384 × 1024, cut into four row blocks of 4096 rows, one per sending device.
  The scratch buffer is 4096 × 1024 and is always used whole.

  This module says which elements each slab holds (a range of columns of `x`, a range of rows of a result array), where
  the slab's own index `(r, l)` sits in its array, what a transfer through a slab leaves in the result array — the final
  contents, on the rows of the slab —, and that each array is the disjoint union of its four slabs.
-/
import proofs.«900007_g7700000000000008_dist_a2a_v7x_i4_i_m4096_n1024_f32_1_alg».proof.Proof.Sched
import Idealize.ShloMosaic.Lib.Pipeline.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which elements a slab holds

A slab is the unit-stride rectangle of 4096 × 1024 elements at the offsets the kernel computes; in closed form the
offsets are `(4096 s, 0)` for row block `s` of a result array and `(0, 1024 b)` for column block `b` of `x`. The
other axis is whole, so membership is a condition on one coordinate. -/

/-- Row block `s` of a result array: the rows `[4096 s, 4096 s + 4096)`. -/
theorem mem_oRow (s : Dev nD) (i : S16384x1024.Idx) :
    i ∈ (oRow s).view.set ↔ 4096 * s.val ≤ (i 0).val ∧ (i 0).val < 4096 * s.val + 4096 := by
  have hs : (oRow s).view.set = (Rect.unit (s := S16384x1024) (k0_off1 s) S4096x1024.size (k0_off1_inb s)).set :=
    View.set_slice_whole main_v1 _
  rw [hs, Rect.mem_set_unit]
  have h0 := congrFun (k0_off1_eq s) 0
  have h1 := congrFun (k0_off1_eq s) 1
  rw [Fin.forall_fin_two, h0, h1]
  have h : (i 1).val < 1024 := (i 1).isLt
  show (4096 * s.val ≤ (i 0).val ∧ (i 0).val < 4096 * s.val + 4096) ∧ 0 ≤ (i 1).val ∧ (i 1).val < 0 + 1024 ↔ _
  omega

/-- Column block `c` of `x`: the columns `[1024 c, 1024 c + 1024)`. -/
theorem mem_xOwn (c : Dev nD) (i : S4096x4096.Idx) :
    i ∈ (xOwn c).view.set ↔ 1024 * c.val ≤ (i 1).val ∧ (i 1).val < 1024 * c.val + 1024 := by
  have hs : (xOwn c).view.set = (Rect.unit (s := S4096x4096) (k0_off3 c) S4096x1024.size (k0_off3_inb c)).set :=
    View.set_slice_whole main_arg0 _
  rw [hs, Rect.mem_set_unit]
  have h0 := congrFun (k0_off3_eq c) 0
  have h1 := congrFun (k0_off3_eq c) 1
  rw [Fin.forall_fin_two, h0, h1]
  have h : (i 0).val < 4096 := (i 0).isLt
  show (0 ≤ (i 0).val ∧ (i 0).val < 0 + 4096) ∧ 1024 * c.val ≤ (i 1).val ∧ (i 1).val < 1024 * c.val + 1024 ↔ _
  omega

/-- The source of transfer `j`: column block `peer c j` of `x`. -/
theorem mem_xCol (c : Dev nD) (j : Fin 3) (i : S4096x4096.Idx) :
    i ∈ (xCol c j).view.set ↔ 1024 * (peer c j).val ≤ (i 1).val ∧ (i 1).val < 1024 * (peer c j).val + 1024 := by
  have hs : (xCol c j).view.set = (Rect.unit (s := S4096x4096) (k0_off2 c (BitVec.ofNat 32 (1 + j.val))) S4096x1024.size (k0_off2_inb c j)).set :=
    View.set_slice_whole main_arg0 _
  rw [hs, Rect.mem_set_unit]
  have h0 := congrFun (k0_off2_eq c j) 0
  have h1 := congrFun (k0_off2_eq c j) 1
  rw [Fin.forall_fin_two, h0, h1]
  have h : (i 0).val < 4096 := (i 0).isLt
  show (0 ≤ (i 0).val ∧ (i 0).val < 0 + 4096) ∧ 1024 * ((c.val + j.val + 1) % 4) ≤ (i 1).val ∧ (i 1).val < 1024 * ((c.val + j.val + 1) % 4) + 1024 ↔
    1024 * ((c.val + j.val + 1) % 4) ≤ (i 1).val ∧ (i 1).val < 1024 * ((c.val + j.val + 1) % 4) + 1024
  omega

/-! ## Where a slab's index sits in its array

Index `(r, l)` of a slab sits at the slab's offsets plus `(r, l)`. -/

theorem oRow_emb0 (s : Dev nD) (y : S4096x1024.Idx) : (((oRow s).view.emb y : S16384x1024.Idx) 0).val = 4096 * s.val + (y 0).val := by
  have h0 := congrFun (k0_off1_eq s) 0
  show k0_off1 s 0 + 1 * (y 0).val = _
  rw [h0]; show 4096 * s.val + 1 * (y 0).val = _; omega
theorem oRow_emb1 (s : Dev nD) (y : S4096x1024.Idx) : (((oRow s).view.emb y : S16384x1024.Idx) 1).val = (y 1).val := by
  have h1 := congrFun (k0_off1_eq s) 1
  show k0_off1 s 1 + 1 * (y 1).val = _
  rw [h1]; show 0 + 1 * (y 1).val = _; omega
theorem xOwn_emb0 (c : Dev nD) (y : S4096x1024.Idx) : (((xOwn c).view.emb y : S4096x4096.Idx) 0).val = (y 0).val := by
  have h0 := congrFun (k0_off3_eq c) 0
  show k0_off3 c 0 + 1 * (y 0).val = _
  rw [h0]; show 0 + 1 * (y 0).val = _; omega
theorem xOwn_emb1 (c : Dev nD) (y : S4096x1024.Idx) : (((xOwn c).view.emb y : S4096x4096.Idx) 1).val = 1024 * c.val + (y 1).val := by
  have h1 := congrFun (k0_off3_eq c) 1
  show k0_off3 c 1 + 1 * (y 1).val = _
  rw [h1]; show 1024 * c.val + 1 * (y 1).val = _; omega
theorem xCol_emb0 (c : Dev nD) (j : Fin 3) (y : S4096x1024.Idx) : (((xCol c j).view.emb y : S4096x4096.Idx) 0).val = (y 0).val := by
  have h0 := congrFun (k0_off2_eq c j) 0
  show k0_off2 c (BitVec.ofNat 32 (1 + j.val)) 0 + 1 * (y 0).val = _
  rw [h0]; show 0 + 1 * (y 0).val = _; omega
theorem xCol_emb1 (c : Dev nD) (j : Fin 3) (y : S4096x1024.Idx) :
    (((xCol c j).view.emb y : S4096x4096.Idx) 1).val = 1024 * (peer c j).val + (y 1).val := by
  have h1 := congrFun (k0_off2_eq c j) 1
  show k0_off2 c (BitVec.ofNat 32 (1 + j.val)) 1 + 1 * (y 1).val = _
  rw [h1]; show 1024 * ((c.val + j.val + 1) % 4) + 1 * (y 1).val = 1024 * ((c.val + j.val + 1) % 4) + (y 1).val; omega

/-! ## What a transfer through a slab leaves -/

/-- The final contents of device `p`'s result at row `i 0`, column `i 1`, read off the device `s` whose row block
    holds row `i 0`: the entry of `x_s` at row `i 0 - 4096 s`, column `1024 p + i 1`. -/
theorem outF_apply (m : (ℓ : Loc nD τ sig) → Buf (Elt F) ℓ) (p s : Dev nD) (i : S16384x1024.Idx) (a : S4096x4096.Idx)
    (hs : (i 0).val / 4096 = s.val) (h0 : (a 0).val = (i 0).val % 4096) (h1 : (a 1).val = 1024 * p.val + (i 1).val) :
    outF m p i = (show S4096x4096.Idx → Elt F .f32 from X m s) a := by
  obtain ⟨sv, hsv⟩ := s
  dsimp only at hs
  subst hs
  unfold outF
  show (show S4096x4096.Idx → Elt F .f32 from X m _) _ = _
  refine congrArg _ (funext fun b => Fin.ext ?_)
  revert b
  rw [Fin.forall_fin_two]
  exact ⟨h0.symm, h1.symm⟩

/-- Transfer `j` of device `s` carries column block `peer s j` of `x_s` into row block `s` of `peer s j`'s result:
    entry `(r, l)` of the block lands at row `4096 s + r`, column `l`, where the final contents are the entry of `x_s`
    at row `r`, column `1024 (peer s j) + l` — the entry carried. -/
theorem landing_eq (m : (ℓ : Loc nD τ sig) → Buf (Elt F) ℓ) (s : Dev nD) (j : Fin 3) (fd : Buf (Elt F) ((peer s j : Thread nD τ).loc main_v1)) :
    ∀ i ∈ (oRow s).view.set, (oRow s).view.write (Elt F) fd ((xCol s j).view.read (Elt F) (X m s)) Finset.univ i = outF m (peer s j) i := by
  intro i hi
  obtain ⟨y, rfl⟩ := View.exists_emb_of_mem_set _ hi
  rw [View.write_emb_of_mem _ _ (Finset.mem_univ y), cast_eq, View.read_apply, cast_eq]
  have hy0 : (y 0).val < 4096 := (y 0).isLt
  have e0 := oRow_emb0 s y
  have e1 := oRow_emb1 s y
  rw [outF_apply m (peer s j) s ((oRow s).view.emb y) ((xCol s j).view.emb y) (by rw [e0]; omega)
    (by rw [e0, xCol_emb0]; omega) (by rw [e1, xCol_emb1])]

/-- The device's own copy, second half: the scratch buffer holding column block `c` of `x_c`, stored into row block `c`
    of its own result, leaves the final contents there. -/
theorem store_eq (m : (ℓ : Loc nD τ sig) → Buf (Elt F) ℓ) (c : Dev nD) (fd : Buf (Elt F) ((c : Thread nD τ).loc main_v1)) :
    ∀ i ∈ (oRow c).view.set, (oRow c).view.write (Elt F) fd ((vM : Memref sig .tc .vmem S4096x1024 .f32).view.read (Elt F) (kept m c)) Finset.univ i = outF m c i := by
  intro i hi
  obtain ⟨y, rfl⟩ := View.exists_emb_of_mem_set _ hi
  rw [View.write_emb_of_mem _ _ (Finset.mem_univ y), cast_eq]
  show (show S4096x1024.Idx → Elt F .f32 from kept m c) y = _
  unfold kept
  show (xOwn c).view.read (Elt F) (X m c) y = _
  rw [View.read_apply, cast_eq]
  have hy0 : (y 0).val < 4096 := (y 0).isLt
  have e0 := oRow_emb0 c y
  have e1 := oRow_emb1 c y
  rw [outF_apply m c c ((oRow c).view.emb y) ((xOwn c).view.emb y) (by rw [e0]; omega)
    (by rw [e0, xOwn_emb0]; omega) (by rw [e1, xOwn_emb1])]

/-- The device's own copy, first half: column block `c` of `x_c` loaded into the whole scratch buffer replaces its
    contents. -/
theorem load_eq (m : (ℓ : Loc nD τ sig) → Buf (Elt F) ℓ) (c : Dev nD) (fd : Buf (Elt F) ((c : Thread nD τ).loc cc0_scratch0)) :
    (vM : Memref sig .tc .vmem S4096x1024 .f32).view.write (Elt F) fd ((xOwn c).view.read (Elt F) (X m c)) Finset.univ = kept m c :=
  View.write_whole_univ cc0_scratch0 fd _

/-! ## Cutting an array into its four slabs -/

omit [FloatOps F] in
/-- A buffer whose elements fall into four pairwise disjoint sets is held as the four parts. -/
theorem pointsTo_four {ℓ : Loc nD τ sig} {q : PosShare TreeShare} {f : Buf (Elt F) ℓ} (A B C D : Finset (Idx ℓ))
    (hu : Finset.univ = A ∪ (B ∪ (C ∪ D))) (hA : Disjoint A (B ∪ (C ∪ D))) (hB : Disjoint B (C ∪ D)) (hC : Disjoint C D) :
    ((ℓ ↦{q} f) : sProp 𝕄) ⊣⊢ iprop((ℓ ↦[A]{q} f) ∗ (ℓ ↦[B]{q} f) ∗ (ℓ ↦[C]{q} f) ∗ (ℓ ↦[D]{q} f)) := by
  rw [hu]
  exact (pointsTo_union hA).trans (sep_congr_right ((pointsTo_union hB).trans (sep_congr_right (pointsTo_union hC))))

theorem x_split (m : (ℓ : Loc nD τ sig) → Buf (Elt F) ℓ) (c : Dev nD) :
    ((((c : Thread nD τ).loc main_arg0) ↦{fullShare} X m c) : sProp 𝕄) ⊣⊢ iprop(xOwnPts m c ∗ xColPts m c 0 ∗ xColPts m c 1 ∗ xColPts m c 2) := by
  have hc : c.val < 4 := c.isLt
  have p0 : (peer c 0).val = (c.val + 0 + 1) % 4 := rfl
  have p1 : (peer c 1).val = (c.val + 1 + 1) % 4 := rfl
  have p2 : (peer c 2).val = (c.val + 2 + 1) % 4 := rfl
  refine pointsTo_four (ℓ := (c : Thread nD τ).loc main_arg0) (xOwn c).view.set (xCol c 0).view.set (xCol c 1).view.set (xCol c 2).view.set ?_ ?_ ?_ ?_
  · refine (Finset.eq_univ_of_forall fun (i : S4096x4096.Idx) => ?_).symm
    have h : (i 1).val < 4096 := (i 1).isLt
    rw [Finset.mem_union, Finset.mem_union, Finset.mem_union]
    refine (or_congr (mem_xOwn c i) (or_congr (mem_xCol c 0 i) (or_congr (mem_xCol c 1 i) (mem_xCol c 2 i)))).mpr ?_
    omega
  · rw [Finset.disjoint_left]; intro (i : S4096x4096.Idx) hi hi'
    have hA := (mem_xOwn c i).mp hi
    rw [Finset.mem_union, Finset.mem_union] at hi'
    have hB := (or_congr (mem_xCol c 0 i) (or_congr (mem_xCol c 1 i) (mem_xCol c 2 i))).mp hi'
    omega
  · rw [Finset.disjoint_left]; intro (i : S4096x4096.Idx) hi hi'
    have hA := (mem_xCol c 0 i).mp hi
    rw [Finset.mem_union] at hi'
    have hB := (or_congr (mem_xCol c 1 i) (mem_xCol c 2 i)).mp hi'
    omega
  · rw [Finset.disjoint_left]; intro (i : S4096x4096.Idx) hi hi'
    have hA := (mem_xCol c 1 i).mp hi
    have hB := (mem_xCol c 2 i).mp hi'
    omega

omit [FloatOps F] in
/-- The row blocks of four devices that are all different cover a result array. -/
theorem o_four (p a b c d : Dev nD) (f : Buf (Elt F) ((p : Thread nD τ).loc main_v1))
    (hab : a ≠ b) (hac : a ≠ c) (had : a ≠ d) (hbc : b ≠ c) (hbd : b ≠ d) (hcd : c ≠ d) :
    ((((p : Thread nD τ).loc main_v1) ↦{fullShare} f) : sProp 𝕄) ⊣⊢ iprop(oSlab p a f ∗ oSlab p b f ∗ oSlab p c f ∗ oSlab p d f) := by
  have ha : a.val < 4 := a.isLt
  have hb : b.val < 4 := b.isLt
  have hc : c.val < 4 := c.isLt
  have hd : d.val < 4 := d.isLt
  have hab' : a.val ≠ b.val := fun h => hab (Fin.ext h)
  have hac' : a.val ≠ c.val := fun h => hac (Fin.ext h)
  have had' : a.val ≠ d.val := fun h => had (Fin.ext h)
  have hbc' : b.val ≠ c.val := fun h => hbc (Fin.ext h)
  have hbd' : b.val ≠ d.val := fun h => hbd (Fin.ext h)
  have hcd' : c.val ≠ d.val := fun h => hcd (Fin.ext h)
  refine pointsTo_four (ℓ := (p : Thread nD τ).loc main_v1) (oRow a).view.set (oRow b).view.set (oRow c).view.set (oRow d).view.set ?_ ?_ ?_ ?_
  · refine (Finset.eq_univ_of_forall fun (i : S16384x1024.Idx) => ?_).symm
    have h : (i 0).val < 16384 := (i 0).isLt
    rw [Finset.mem_union, Finset.mem_union, Finset.mem_union]
    refine (or_congr (mem_oRow a i) (or_congr (mem_oRow b i) (or_congr (mem_oRow c i) (mem_oRow d i)))).mpr ?_
    omega
  · rw [Finset.disjoint_left]; intro (i : S16384x1024.Idx) hi hi'
    have hA := (mem_oRow a i).mp hi
    rw [Finset.mem_union, Finset.mem_union] at hi'
    have hB := (or_congr (mem_oRow b i) (or_congr (mem_oRow c i) (mem_oRow d i))).mp hi'
    omega
  · rw [Finset.disjoint_left]; intro (i : S16384x1024.Idx) hi hi'
    have hA := (mem_oRow b i).mp hi
    rw [Finset.mem_union] at hi'
    have hB := (or_congr (mem_oRow c i) (mem_oRow d i)).mp hi'
    omega
  · rw [Finset.disjoint_left]; intro (i : S16384x1024.Idx) hi hi'
    have hA := (mem_oRow c i).mp hi
    have hB := (mem_oRow d i).mp hi'
    omega

omit [FloatOps F] in
theorem o_split (p : Dev nD) (f : Buf (Elt F) ((p : Thread nD τ).loc main_v1)) :
    ((((p : Thread nD τ).loc main_v1) ↦{fullShare} f) : sProp 𝕄) ⊣⊢ iprop(oSlab p p f ∗ oSlab p (peer p 0) f ∗ oSlab p (peer p 1) f ∗ oSlab p (peer p 2) f) :=
  o_four p p (peer p 0) (peer p 1) (peer p 2) f (peer_ne p 0).symm (peer_ne p 1).symm (peer_ne p 2).symm
    (fun h => absurd (peer_inj p h) (by decide)) (fun h => absurd (peer_inj p h) (by decide)) (fun h => absurd (peer_inj p h) (by decide))

omit [FloatOps F] in
theorem o_join (p : Dev nD) (f : Buf (Elt F) ((p : Thread nD τ).loc main_v1)) :
    iprop(oSlab p p f ∗ oSlab p (srcOf p 0) f ∗ oSlab p (srcOf p 1) f ∗ oSlab p (srcOf p 2) f) ⊢ ((((p : Thread nD τ).loc main_v1) ↦{fullShare} f) : sProp 𝕄) :=
  (o_four p p (srcOf p 0) (srcOf p 1) (srcOf p 2) f (srcOf_ne p 0).symm (srcOf_ne p 1).symm (srcOf_ne p 2).symm
    (fun h => absurd (srcOf_inj p h) (by decide)) (fun h => absurd (srcOf_inj p h) (by decide)) (fun h => absurd (srcOf_inj p h) (by decide))).2

/-- info: 'Cert.KernelIdeal.A2A.landing_eq' depends on axioms: [propext, Classical.choice, Quot.sound] -/
#guard_msgs in #print axioms landing_eq

/-- info: 'Cert.KernelIdeal.A2A.store_eq' depends on axioms: [propext, Classical.choice, Quot.sound] -/
#guard_msgs in #print axioms store_eq

/-- info: 'Cert.KernelIdeal.A2A.load_eq' depends on axioms: [propext, Classical.choice, Quot.sound] -/
#guard_msgs in #print axioms load_eq

/-- info: 'Cert.KernelIdeal.A2A.x_split' depends on axioms: [propext, Classical.choice, Quot.sound] -/
#guard_msgs in #print axioms x_split

/-- info: 'Cert.KernelIdeal.A2A.o_split' depends on axioms: [propext, Classical.choice, Quot.sound] -/
#guard_msgs in #print axioms o_split

/-- info: 'Cert.KernelIdeal.A2A.o_join' depends on axioms: [propext, Classical.choice, Quot.sound] -/
#guard_msgs in #print axioms o_join

end Cert.KernelIdeal.A2A

end
-- ==== Proof.WProto.lean ====
/-
  An all-to-all over four devices. Device `c` holds `x_c`, rows `[4096c, 4096c + 4096)` of the whole array, and must end
  holding columns `[1024c, 1024c + 1024)` of it: row block `s` of its result is column block `c` of `x_s`. Each device
  sends column block `p` of its `x` into row block `c` of device `p`'s result (three addressed transfers, `p ≠ c`), and
  moves its own column block `c` through a scratch buffer into its own row block `c` (two local transfers).

  This module names the protocol's objects: the ring arithmetic on device ids, the slabs of the two arrays each transfer
  reads and writes, the semaphore cells, and what the result array holds at the end.
-/
import proofs.«900007_g7700000000000008_dist_a2a_v7x_i4_i_m4096_n1024_f32_1_alg».proof.Proof.Gen.Kernel
import proofs.«900007_g7700000000000008_dist_a2a_v7x_i4_i_m4096_n1024_f32_1_alg».proof.Proof.Gen.Kernel.Skeleton
import proofs.«900007_g7700000000000008_dist_a2a_v7x_i4_i_m4096_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Device arithmetic

`peer c j` is the device `j + 1` places after `c` on the ring of four: the target of `c`'s transfer `j` and of its signal `j`.
`srcOf c j` is the device whose transfer `j` targets `c`. `rev j = 2 - j`: going `j + 1` places and then `rev j + 1` more
comes back to the start. -/

def peer (c : Dev nD) (j : Fin 3) : Dev nD := ⟨(c.val + j.val + 1) % 4, Nat.mod_lt _ (by decide)⟩
def srcOf (c : Dev nD) (j : Fin 3) : Dev nD := ⟨(c.val + 3 - j.val) % 4, Nat.mod_lt _ (by decide)⟩
def rev (j : Fin 3) : Fin 3 := ⟨2 - j.val, by omega⟩

theorem peer_srcOf (c : Dev nD) (j : Fin 3) : peer (srcOf c j) j = c := by revert c j; decide
theorem srcOf_peer (c : Dev nD) (j : Fin 3) : srcOf (peer c j) j = c := by revert c j; decide
theorem peer_peer_rev (c : Dev nD) (j : Fin 3) : peer (peer c j) (rev j) = c := by revert c j; decide
theorem srcOf_rev (c : Dev nD) (j : Fin 3) : srcOf c (rev j) = peer c j := by revert c j; decide
theorem rev_rev (j : Fin 3) : rev (rev j) = j := by revert j; decide
theorem peer_ne (c : Dev nD) (j : Fin 3) : peer c j ≠ c := by revert c j; decide
theorem srcOf_ne (c : Dev nD) (j : Fin 3) : srcOf c j ≠ c := by revert c j; decide
theorem peer_inj (c : Dev nD) : Function.Injective (peer c) := by revert c; decide
theorem srcOf_inj (c : Dev nD) : Function.Injective (srcOf c) := by revert c; decide
theorem peer_eq_iff (c d : Dev nD) (j : Fin 3) : peer d j = c ↔ d = srcOf c j := by revert c d j; decide

/-- The kernel's device chains: signal `j` and transfer `j` both name `peer c j`. -/
theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 0 := Fin.ext (k0_dev4_eq c)
theorem dev5_eq (c : Dev nD) : (⟨k0_dev5 c, k0_dev5_lt c⟩ : Dev nD) = peer c 1 := Fin.ext (k0_dev5_eq c)
theorem dev6_eq (c : Dev nD) : (⟨k0_dev6 c, k0_dev6_lt c⟩ : Dev nD) = peer c 2 := Fin.ext (k0_dev6_eq c)

/-! ## The arrays and their slabs -/

abbrev xM : Memref sig .tc .hbm S4096x4096 .f32 := Memref.whole main_arg0
abbrev oM : Memref sig .tc .hbm S16384x1024 .f32 := Memref.whole main_v1
abbrev vM : Memref sig .tc .vmem S4096x1024 .f32 := Memref.whole cc0_scratch0

/-- Column block `peer c j` of `x`: the source of `c`'s transfer `j`. -/
abbrev xCol (c : Dev nD) (j : Fin 3) : Memref sig .tc .hbm S4096x1024 .f32 :=
  xM.slice (Rect.unit (s := S4096x4096) (k0_off2 c (BitVec.ofNat 32 (1 + j.val))) S4096x1024.size (k0_off2_inb c j)) (fun _ => rfl)
/-- Column block `c` of `x`: the source of `c`'s own copy. -/
abbrev xOwn (c : Dev nD) : Memref sig .tc .hbm S4096x1024 .f32 :=
  xM.slice (Rect.unit (s := S4096x4096) (k0_off3 c) S4096x1024.size (k0_off3_inb c)) (fun _ => rfl)
/-- Row block `c` of a result array: where everything device `c` sends lands, on whichever device. -/
abbrev oRow (c : Dev nD) : Memref sig .tc .hbm S4096x1024 .f32 :=
  oM.slice (Rect.unit (s := S16384x1024) (k0_off1 c) S4096x1024.size (k0_off1_inb c)) (fun _ => rfl)

/-! ## The semaphores and their cells -/

abbrev barS : Sem sig := (SemArray.scalar (sig.barrier 0 rfl) : Sems sig S_).sem
abbrev loadS : DmaSems sig S_ := (cc0_scratch1.slice (Rect.unit (s := S2) ![0] S1.size inb_S2_S1_0)).squeeze S_ squeezes_S1_S_
abbrev storeS : DmaSems sig S_ := (cc0_scratch1.slice (Rect.unit (s := S2) ![1] S1.size inb_S2_S1_1)).squeeze S_ squeezes_S1_S_
abbrev sendS : Fin 3 → DmaSems sig S_
  | 0 => (cc0_scratch2.slice (Rect.unit (s := S3) ![0] S1.size inb_S3_S1_0)).squeeze S_ squeezes_S1_S_
  | 1 => (cc0_scratch2.slice (Rect.unit (s := S3) ![1] S1.size inb_S3_S1_1)).squeeze S_ squeezes_S1_S_
  | 2 => (cc0_scratch2.slice (Rect.unit (s := S3) ![2] S1.size inb_S3_S1_2)).squeeze S_ squeezes_S1_S_
abbrev recvS : Fin 3 → DmaSems sig S_
  | 0 => (cc0_scratch3.slice (Rect.unit (s := S3) ![0] S1.size inb_S3_S1_0)).squeeze S_ squeezes_S1_S_
  | 1 => (cc0_scratch3.slice (Rect.unit (s := S3) ![1] S1.size inb_S3_S1_1)).squeeze S_ squeezes_S1_S_
  | 2 => (cc0_scratch3.slice (Rect.unit (s := S3) ![2] S1.size inb_S3_S1_2)).squeeze S_ squeezes_S1_S_

/-- The nine semaphores a device's body names: barrier, load, store, three send, three receive. -/
abbrev csem : Fin 9 → SemLoc sig
  | 0 => .reg barS | 1 => .dma loadS.sem | 2 => .dma storeS.sem
  | 3 => .dma (sendS 0).sem | 4 => .dma (sendS 1).sem | 5 => .dma (sendS 2).sem
  | 6 => .dma (recvS 0).sem | 7 => .dma (recvS 1).sem | 8 => .dma (recvS 2).sem
/-- The eight of them that are the kernel's own (scoped). -/
abbrev osem : Fin 8 → SemLoc sig := fun k => csem k.succ

theorem csem_injective : Function.Injective csem := by decide

abbrev kcell (ck : Dev nD × Fin 9) : GSem nD τ sig := ((ck.1 : Thread nD τ), csem ck.2)
abbrev barCell (c : Dev nD) : GSem nD τ sig := kcell (c, 0)
abbrev loadCell (c : Dev nD) : GSem nD τ sig := kcell (c, 1)
abbrev storeCell (c : Dev nD) : GSem nD τ sig := kcell (c, 2)
abbrev sendIx (j : Fin 3) : Fin 9 := ⟨3 + j.val, by omega⟩
abbrev recvIx (j : Fin 3) : Fin 9 := ⟨6 + j.val, by omega⟩
abbrev sendCell (c : Dev nD) (j : Fin 3) : GSem nD τ sig := kcell (c, sendIx j)
abbrev recvCell (c : Dev nD) (j : Fin 3) : GSem nD τ sig := kcell (c, recvIx j)

theorem csem_sendIx (j : Fin 3) : csem (sendIx j) = .dma (sendS j).sem := by revert j; decide
theorem csem_recvIx (j : Fin 3) : csem (recvIx j) = .dma (recvS j).sem := by revert j; decide

/-- What one transfer of a 4096 × 1024 block credits on a DMA semaphore, into the result array and into the scratch. -/
abbrev N : ℕ := (oRow (0 : Dev nD)).view.dmaCredit
abbrev Nv : ℕ := (vM : Memref sig .tc .vmem S4096x1024 .f32).view.dmaCredit
theorem N_pos : 0 < N := View.dmaCredit_pos _ (by decide)
theorem Nv_pos : 0 < Nv := View.dmaCredit_pos _ (by decide)
theorem oRow_credit (c : Dev nD) : (oRow c).view.dmaCredit = N := rfl

end Cert.Kernel.A2A

end
-- ==== Proof.WSched.lean ====
/-
  The schedule of the all-to-all's nine semaphore cells per device, one round each.

  * The barrier cell of device `c` has three duties of one unit: duty `j` is paid by `peer c j` and hands `c` row block
    `c` of `peer c j`'s result array (at any contents) together with the fact that `peer c j` has reached round 0 of its
    receive cell `j` — exactly what `c`'s transfer `j` into that device needs.
  * The load cell: the scratch buffer holding column block `c` of `x_c`, and that column block back.
  * The store cell: row block `c` of the result at its final contents, and the scratch buffer back.
  * Send cell `j`: column block `peer c j` of `x_c` back.
  * Receive cell `j`: row block `srcOf c j` of the result at its final contents.
-/
import proofs.«900007_g7700000000000008_dist_a2a_v7x_i4_i_m4096_n1024_f32_1_alg».proof.Proof.WProto

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `c`'s block of `x`, as launched. -/
abbrev X (c : Dev nD) : Buf (Elt F) ((c : Thread nD τ).loc main_arg0) := m ((c : Thread nD τ).loc main_arg0)

/-- What device `p`'s result array holds at the end: at row `R`, column `l`, the entry of `x_(R / 4096)` at row
    `R % 4096` and column `1024 p + l`. -/
def outF (p : Dev nD) : Buf (Elt F) ((p : Thread nD τ).loc main_v1) :=
  show S16384x1024.Idx → Elt F .f32 from fun i =>
    have h0 : (i 0).val < 16384 := (i 0).isLt
    have h1 : (i 1).val < 1024 := (i 1).isLt
    have hp : p.val < 4 := p.isLt
    (show S4096x4096.Idx → Elt F .f32 from X m ⟨(i 0).val / 4096, by show _ < 4; omega⟩)
      (Shape.pair (d := ![4096, 4096]) ⟨(i 0).val % 4096, Nat.mod_lt _ (by decide)⟩ ⟨1024 * p.val + (i 1).val, by show _ < 4096; omega⟩)

/-- What device `c`'s own copy carries: column block `c` of `x_c`. -/
def kept (c : Dev nD) : Buf (Elt F) ((c : Thread nD τ).loc cc0_scratch0) :=
  show S4096x1024.Idx → Elt F .f32 from (xOwn c).view.read (Elt F) (X m c)

/-! ## The slabs as assertions -/

/-- Row block `s` of device `p`'s result array, at contents `f`. -/
abbrev oSlab (p s : Dev nD) (f : Buf (Elt F) ((p : Thread nD τ).loc main_v1)) : sProp 𝕄 :=
  (oRow s).view.loc (p : Thread nD τ) ↦[(oRow s).view.set]{fullShare} f
/-- Column block `peer c j` of `x_c`. -/
abbrev xColPts (c : Dev nD) (j : Fin 3) : sProp 𝕄 :=
  (xCol c j).view.loc (c : Thread nD τ) ↦[(xCol c j).view.set]{fullShare} X m c
/-- Column block `c` of `x_c`. -/
abbrev xOwnPts (c : Dev nD) : sProp 𝕄 :=
  (xOwn c).view.loc (c : Thread nD τ) ↦[(xOwn c).view.set]{fullShare} X m c
/-- The scratch buffer at contents `f`. -/
abbrev vPts (c : Dev nD) (f : Buf (Elt F) ((c : Thread nD τ).loc cc0_scratch0)) : sProp 𝕄 :=
  (vM : Memref sig .tc .vmem S4096x1024 .f32).view.loc (c : Thread nD τ) ↦[(vM : Memref sig .tc .vmem S4096x1024 .f32).view.set]{fullShare} f

/-! ## Payloads -/

def barPay (c : Dev nD) (j : Fin 3) : sProp 𝕄 := iprop((∃ f, oSlab (peer c j) c f) ∗ reached ER (recvCell (peer c j) j) 0)
def loadPay (c : Dev nD) : sProp 𝕄 := iprop(vPts c (kept m c) ∗ xOwnPts m c)
def storePay (c : Dev nD) : sProp 𝕄 := iprop(oSlab c c (outF m c) ∗ vPts c (kept m c))
def sendPay (c : Dev nD) (j : Fin 3) : sProp 𝕄 := xColPts m c j
def recvPay (c : Dev nD) (j : Fin 3) : sProp 𝕄 := oSlab c (srcOf c j) (outF m c)

/-- The payload of duty `d` of cell `k` of device `c`. -/
def payK (c : Dev nD) (k : Fin 9) (d : Fin 3) : sProp 𝕄 :=
  match k with
  | 0 => barPay c d | 1 => loadPay m c | 2 => storePay m c
  | 3 => sendPay m c 0 | 4 => sendPay m c 1 | 5 => sendPay m c 2
  | 6 => recvPay m c 0 | 7 => recvPay m c 1 | 8 => recvPay m c 2

instance payK_storable (c : Dev nD) (k : Fin 9) (d : Fin 3) : BI.Storable (upEmb : UEmb _ 𝕄) (payK m c k d) := by
  unfold payK barPay loadPay storePay sendPay recvPay
  split <;> infer_instance

/-! ## The schedule -/

/-- Which of the nine a semaphore is, if any. -/
def ksem? (s : SemLoc sig) : Option (Fin 9) := (List.finRange 9).find? fun k => csem k = s

theorem ksem?_csem (k : Fin 9) : ksem? (csem k) = some k := by revert k; decide

/-- The units of a duty of cell `k`: one on the barrier, a block's credit on a DMA cell. -/
def amtK : Fin 9 → ℕ
  | 0 => 1 | 1 => Nv | _ => N
theorem amtK_pos (k : Fin 9) : 0 < amtK k := by
  unfold amtK; split
  · exact Nat.one_pos
  · exact Nv_pos
  · exact N_pos
/-- The duties of cell `k`: three on the barrier, one on a DMA cell. -/
def dutK : Fin 9 → Finset (Fin 3)
  | 0 => Finset.univ | _ => {0}

def sched : Rounds.Schedule (GSem nD τ sig) (Fin 3) 𝕄 where
  duties g r := if r = 0 ∧ g.1.2 = .tc then (match ksem? g.2 with | some k => dutK k | none => ∅) else ∅
  unitless _ := False
  amount g _ _ := match ksem? g.2 with | some k => amtK k | none => 1
  payload g _ d := match ksem? g.2 with | some k => payK m g.1.1 k d | none => iprop(emp)
  amount_pos g _ _ _ := by
    show 0 < (match ksem? g.2 with | some k => amtK k | none => 1)
    split
    · exact amtK_pos _
    · exact Nat.one_pos

instance sched_payload_storable (g : GSem nD τ sig) (r : ℕ) (d : Fin 3) :
    BI.Storable (upEmb : UEmb _ 𝕄) ((sched (F := F) m).payload g r d) := by
  show BI.Storable upEmb (match ksem? g.2 with | some k => payK m g.1.1 k d | none => iprop(emp))
  split <;> infer_instance

section Tables
variable (c : Dev nD)

theorem duties_kk (k : Fin 9) : (sched (F := F) m).duties (kcell (c, k)) 0 = dutK k := by
  show (if (0 : ℕ) = 0 ∧ ((c : Thread nD τ)).2 = .tc then (match ksem? (csem k) with | some k => dutK k | none => ∅) else ∅) = _
  rw [if_pos ⟨rfl, rfl⟩, ksem?_csem]
theorem duties_k0 : (sched (F := F) m).duties (kcell (c, 0)) 0 = Finset.univ := duties_kk m c 0
theorem dutK_ne (k : Fin 9) (hk : k ≠ 0) : dutK k = {0} := by revert k; decide
theorem duties_k (k : Fin 9) (hk : k ≠ 0) : (sched (F := F) m).duties (kcell (c, k)) 0 = {0} := by
  rw [duties_kk, dutK_ne k hk]
theorem duties_later (g : GSem nD τ sig) : ∀ r, 1 ≤ r → (sched (F := F) m).duties g r = ∅ :=
  fun r hr => by dsimp only [sched]; rw [if_neg fun h => by omega]

theorem amount_k (k : Fin 9) (r : ℕ) (d : Fin 3) :
    (sched (F := F) m).amount (kcell (c, k)) r d = amtK k := by
  show (match ksem? (csem k) with | some k => amtK k | none => 1) = _
  rw [ksem?_csem]
theorem amtK_send (j : Fin 3) : amtK (sendIx j) = N := by revert j; decide
theorem amtK_recv (j : Fin 3) : amtK (recvIx j) = N := by revert j; decide
theorem amount_bar (d : Fin 3) : (sched (F := F) m).amount (barCell c) 0 d = 1 := amount_k m c 0 0 d
theorem amount_load (d : Fin 3) : (sched (F := F) m).amount (loadCell c) 0 d = Nv := amount_k m c 1 0 d
theorem amount_store (d : Fin 3) : (sched (F := F) m).amount (storeCell c) 0 d = N := amount_k m c 2 0 d
theorem amount_send (j : Fin 3) (d : Fin 3) : (sched (F := F) m).amount (sendCell c j) 0 d = N := by
  rw [amount_k, amtK_send]
theorem amount_recv (j : Fin 3) (d : Fin 3) : (sched (F := F) m).amount (recvCell c j) 0 d = N := by
  rw [amount_k, amtK_recv]

theorem payload_k (k : Fin 9) (r : ℕ) (d : Fin 3) : (sched (F := F) m).payload (kcell (c, k)) r d = payK m c k d := by
  show (match ksem? (csem k) with | some k => payK m c k d | none => iprop(emp)) = _
  rw [ksem?_csem]

theorem payload_bar (d : Fin 3) : (sched (F := F) m).payload (barCell c) 0 d = barPay c d := payload_k m c 0 0 d
theorem payload_load (d : Fin 3) : (sched (F := F) m).payload (loadCell c) 0 d = loadPay m c := payload_k m c 1 0 d
theorem payload_store (d : Fin 3) : (sched (F := F) m).payload (storeCell c) 0 d = storePay m c := payload_k m c 2 0 d
theorem payK_send (j : Fin 3) (d : Fin 3) : payK m c (sendIx j) d = sendPay m c j := by fin_cases j <;> rfl
theorem payK_recv (j : Fin 3) (d : Fin 3) : payK m c (recvIx j) d = recvPay m c j := by fin_cases j <;> rfl
theorem payload_send (j : Fin 3) (d : Fin 3) : (sched (F := F) m).payload (sendCell c j) 0 d = sendPay m c j := by
  rw [payload_k, payK_send]
theorem payload_recv (j : Fin 3) (d : Fin 3) : (sched (F := F) m).payload (recvCell c j) 0 d = recvPay m c j := by
  rw [payload_k, payK_recv]

theorem sendIx_ne (j : Fin 3) : sendIx j ≠ 0 := by revert j; decide
theorem recvIx_ne (j : Fin 3) : recvIx j ≠ 0 := by revert j; decide

theorem expect_bar : (sched (F := F) m).expect (barCell c) 0 = 3 := by
  unfold Schedule.expect Schedule.amountOf
  rw [duties_k0, Finset.sum_congr rfl fun d _ => amount_bar m c d, Finset.sum_const, Finset.card_univ, Fintype.card_fin, smul_eq_mul]
theorem expect_k (k : Fin 9) (hk : k ≠ 0) : (sched (F := F) m).expect (kcell (c, k)) 0 = amtK k := by
  unfold Schedule.expect Schedule.amountOf; rw [duties_k m c k hk, Finset.sum_singleton, amount_k]
theorem expect_load : (sched (F := F) m).expect (loadCell c) 0 = Nv := expect_k m c 1 (by decide)
theorem expect_store : (sched (F := F) m).expect (storeCell c) 0 = N := expect_k m c 2 (by decide)
theorem expect_send (j : Fin 3) : (sched (F := F) m).expect (sendCell c j) 0 = N := by
  rw [expect_k m c _ (sendIx_ne j), amtK_send]
theorem expect_recv (j : Fin 3) : (sched (F := F) m).expect (recvCell c j) 0 = N := by
  rw [expect_k m c _ (recvIx_ne j), amtK_recv]

/-- The whole of the barrier cell's round: the three neighbours' payloads. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_k0, bigSep_univ_eq_bigSepL [0, 1, 2] (by decide) (by decide)]
  show iprop((sched (F := F) m).payload (barCell c) 0 0 ∗ (sched (F := F) m).payload (barCell c) 0 1 ∗ (sched (F := F) m).payload (barCell c) 0 2) = _
  rw [payload_bar, payload_bar, payload_bar]
theorem rest_k (k : Fin 9) (hk : k ≠ 0) : bigSep ((sched (F := F) m).duties (kcell (c, k)) 0 \ ∅) (fun d => (sched (F := F) m).payload (kcell (c, k)) 0 d)
    = payK m c k 0 := by
  rw [Finset.sdiff_empty, duties_k m c k hk, bigSep_singleton, payload_k]

end Tables

end Cert.Kernel.A2A

end
-- ==== Proof.WLevels.lean ====
/-
  What each device owes the others at launch, and why no wait can deadlock.

  Device `c` owes one unit to the barrier cell of each of its three peers, and a block's credit to receive cell `j` of
  `peer c j` for each of its three transfers. Barrier cells sit at level 1, receive cells at level 2, every other cell at
  level 0: the only wait a device makes while it still owes anything is its barrier wait, and what it owes then — the
  three receive credits — lies strictly above.
-/
import proofs.«900007_g7700000000000008_dist_a2a_v7x_i4_i_m4096_n1024_f32_1_alg».proof.Proof.WSched

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The tallies, summed in the order they are paid off (last summand first) -/

/-- The receive credits: transfer 0 peels the last summand, transfer 1 the middle one, transfer 2 the first. -/
def OR₂ (c : Dev nD) : CellTallies nD τ sig Unit := tallyAt (recvCell (peer c 2) 2) () N
def OR₁ (c : Dev nD) : CellTallies nD τ sig Unit := OR₂ c + tallyAt (recvCell (peer c 1) 1) () N
def OR (c : Dev nD) : CellTallies nD τ sig Unit := OR₁ c + tallyAt (recvCell (peer c 0) 0) () N
/-- With the barrier units: signal 0 peels the last summand, signal 1 the next, signal 2 the next. -/
def OB₂ (c : Dev nD) : CellTallies nD τ sig Unit := OR c + tallyAt (barCell (peer c 2)) () 1
def OB₁ (c : Dev nD) : CellTallies nD τ sig Unit := OB₂ c + tallyAt (barCell (peer c 1)) () 1
def O₀ (c : Dev nD) : CellTallies nD τ sig Unit := OB₁ c + tallyAt (barCell (peer c 0)) () 1

def L (g : GSem nD τ sig) : Finset Unit := if g.1.2 = .tc then {()} else ∅
/-- Barrier cells at 1, receive cells at 2, everything else at 0. -/
def lv (g : GSem nD τ sig) (_ : Unit) : ℕ :=
  if g.2 = .reg barS then 1 else if g.2 = .dma (recvS 0).sem ∨ g.2 = .dma (recvS 1).sem ∨ g.2 = .dma (recvS 2).sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (j : Fin 3) (u : Unit) : lv (recvCell c j) u = 2 := by
  unfold lv
  rw [if_neg (by show ¬ csem (recvIx j) = SemLoc.reg barS; revert j; decide),
    if_pos (by show csem (recvIx j) = .dma (recvS 0).sem ∨ csem (recvIx j) = .dma (recvS 1).sem ∨ csem (recvIx j) = .dma (recvS 2).sem; revert j; decide)]

theorem OR_pos {c : Dev nD} {g : GSem nD τ sig} {u : Unit} (h : 0 < OR c g u) : ∃ j, g = recvCell (peer c j) j := by
  unfold OR OR₁ OR₂ at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

omit [FloatOps F] in
/-- At its barrier wait a device owes the three receive credits only: receive cells, above its barrier cell. -/
theorem mayWait_bar (c : Dev nD) :
    (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨j, rfl⟩ := OR_pos hg; exact Finset.mem_singleton_self _)
    (fun p hp => by rw [Finset.mem_singleton.mp hp]; exact le_of_eq (lv_bar c ()))
    (fun g u hg => by obtain ⟨j, rfl⟩ := OR_pos hg; rw [lv_recv]; decide)

/-! ## The launch credit: what all devices together owe each cell of device `c` -/

theorem bar_eq_iff {a b : Dev nD} : Iff (barCell a = barCell b) (a = b) :=
  ⟨fun h => Fin.ext (congrArg (fun g : GSem nD τ sig => g.1.1.val) h), fun h => h ▸ rfl⟩
theorem recvIx_inj : Function.Injective recvIx := by decide
theorem recv_eq_iff {a b : Dev nD} {j j' : Fin 3} : Iff (recvCell a j = recvCell b j') (a = b ∧ j = j') :=
  ⟨fun h => ⟨Fin.ext (congrArg (fun g : GSem nD τ sig => g.1.1.val) h),
      recvIx_inj (csem_injective (show csem (recvIx j) = csem (recvIx j') from congrArg Prod.snd h))⟩, fun h => by rw [h.1, h.2]⟩
theorem recv_ne_bar (a b : Dev nD) (j : Fin 3) : recvCell a j ≠ barCell b := fun h => by
  have h2 : csem (recvIx j) = csem 0 := congrArg Prod.snd h
  exact recvIx_ne j (csem_injective h2)

/-- One unit-of-account term read at a barrier cell and at a receive cell. -/
theorem bar_at_bar (a c : Dev nD) (n : ℕ) : tallyAt (barCell a) () n (barCell c) () = if a = c then n else 0 := by
  rw [tallyAt_apply]
  by_cases h : a = c
  · subst h; rw [if_pos ⟨rfl, rfl⟩, if_pos rfl]
  · rw [if_neg h, if_neg fun h' => h (bar_eq_iff.mp h'.1).symm]
theorem recv_at_bar (a c : Dev nD) (j : Fin 3) (n : ℕ) : tallyAt (recvCell a j) () n (barCell c) () = 0 := by
  rw [tallyAt_apply, if_neg fun h' => recv_ne_bar a c j h'.1.symm]
theorem bar_at_recv (a c : Dev nD) (j : Fin 3) (n : ℕ) : tallyAt (barCell a) () n (recvCell c j) () = 0 := by
  rw [tallyAt_apply, if_neg fun h' => recv_ne_bar c a j h'.1]
theorem recv_at_recv (d c : Dev nD) (j j' : Fin 3) (n : ℕ) :
    tallyAt (recvCell (peer d j') j') () n (recvCell c j) () = if j' = j then (if peer d j = c then n else 0) else 0 := by
  rw [tallyAt_apply]
  by_cases hj : j' = j
  · subst hj
    rw [if_pos rfl]
    by_cases hc : peer d j' = c
    · rw [if_pos hc, if_pos ⟨by rw [hc], rfl⟩]
    · rw [if_neg hc, if_neg fun h => hc (recv_eq_iff.mp h.1).1.symm]
  · rw [if_neg hj, if_neg fun h => hj (recv_eq_iff.mp h.1).2.symm]

/-- What device `d` owes device `c`'s barrier cell: a unit for each of its signals that names `c`. -/
theorem owed_bar (d c : Dev nD) : O₀ d (barCell c) () =
    (if peer d 0 = c then 1 else 0) + (if peer d 1 = c then 1 else 0) + (if peer d 2 = c then 1 else 0) := by
  unfold O₀ OB₁ OB₂ OR OR₁ OR₂
  simp only [Pi.add_apply, Finsupp.add_apply, bar_at_bar, recv_at_bar]
  omega

/-- What device `d` owes device `c`'s receive cell `j`: the block's credit if its transfer `j` names `c`. -/
theorem owed_recv (d c : Dev nD) (j : Fin 3) : O₀ d (recvCell c j) () = if peer d j = c then N else 0 := by
  unfold O₀ OB₁ OB₂ OR OR₁ OR₂
  simp only [Pi.add_apply, Finsupp.add_apply, bar_at_recv, recv_at_recv]
  generalize (if peer d j = c then N else 0) = x
  fin_cases j <;> simp

theorem sum_peer (c : Dev nD) (j : Fin 3) (n : ℕ) : (∑ d : Dev nD, if peer d j = c then n else 0) = n := by
  rw [Finset.sum_congr rfl fun d _ => if_congr (peer_eq_iff c d j) rfl rfl,
    Finset.sum_ite_eq' Finset.univ (srcOf c j) fun _ => n, if_pos (Finset.mem_univ _)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, sum_peer, sum_peer, sum_peer]

theorem launch_recv (c : Dev nD) (j : Fin 3) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, sum_peer]

omit [FloatOps F] in
/-- The credit tokens device `c` starts with: three units on its barrier cell, a block's credit on each receive cell. -/
theorem creds (c : Dev nD) :
    (Pipeline.launchCred O₀ c : sProp 𝕄) ⊢ iprop(cred (tallyAt (barCell c) () 3) ∗ cred (tallyAt (recvCell c 0) () N)
      ∗ cred (tallyAt (recvCell c 1) () N) ∗ cred (tallyAt (recvCell c 2) () N)) := by
  unfold Pipeline.launchCred
  refine (bigSep_subset (t := ([csem 0, csem 6, csem 7, csem 8] : List (SemLoc sig)).toFinset) (Finset.subset_univ _)).trans ?_
  rw [bigSep_eq_bigSepL_of_eq [csem 0, csem 6, csem 7, csem 8] rfl (by decide)]
  show iprop(cred (tallyOn (barCell c) _) ∗ cred (tallyOn (recvCell c 0) _) ∗ cred (tallyOn (recvCell c 1) _) ∗ cred (tallyOn (recvCell c 2) _)) ⊢ _
  rw [launch_bar, launch_recv, launch_recv, launch_recv]

end Cert.Kernel.A2A

end
-- ==== Proof.WGhost.lean ====
/-
  The state a device's body starts from and ends in, and the pipeline's proof data over them.

  A device starts holding: the invariants of every cell and that every cell is at round 0 (`records`); its own nine
  positions; the tokens of the duties IT pays — on each peer's barrier cell, on the receive cell of each peer it
  transfers into, on its own load, store and send cells —; three units of credit on its barrier cell and a block's credit
  on each receive cell; the level facts; its `x` and its result array whole; the scratch buffer at some contents.
  It ends holding `x` unchanged, the result array at its final contents, the scratch buffer, and its eight own
  semaphores back at zero.
-/
import proofs.«900007_g7700000000000008_dist_a2a_v7x_i4_i_m4096_n1024_f32_1_alg».proof.Proof.WLevels

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Every cell's invariant, under the names `K` the launch allocated them at, and that every cell is at round 0. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) : records m K ⊢ cellInv ER (sched m) (K ck) (kcell ck) := by
  unfold records
  exact (BI.Entails.trans BI.sep_and BI.and_elimL).trans (bigSep_elim (Φ := fun ck : Dev nD × Fin 9 => (cellInv ER (sched m) (K ck) (kcell ck) : sProp 𝕄)) (Finset.mem_univ ck))
theorem reached_at (K : Dev nD × Fin 9 → ℕ) (ck : Dev nD × Fin 9) : records m K ⊢ reached ER (kcell ck) 0 := by
  unfold records
  exact (BI.Entails.trans BI.sep_and BI.and_elimR).trans (bigSep_elim (Φ := fun ck : Dev nD × Fin 9 => (reached ER (kcell ck) 0 : sProp 𝕄)) (Finset.mem_univ ck))

/-- The five own cells whose one duty the device pays itself: load, store, the three send cells. -/
abbrev ownIx (k : Fin 5) : Fin 9 := ⟨k.val + 1, by omega⟩

/-- The tokens of the duties device `c` pays: signal `i` pays duty `rev i` of `peer c i`'s barrier cell; transfer `j` pays
    the duty of receive cell `j` of `peer c j` and of its own send cell `j`; its own load and store cells' duties. -/
def payToks (c : Dev nD) : sProp 𝕄 :=
  iprop((bigSep Finset.univ fun i : Fin 3 => dutyTok ER (barCell (peer c i)) 0 (rev i))
    ∗ (bigSep Finset.univ fun j : Fin 3 => dutyTok ER (recvCell (peer c j) j) 0 (0 : Fin 3))
    ∗ (bigSep Finset.univ fun k : Fin 5 => dutyTok ER (kcell (c, ownIx k)) 0 (0 : Fin 3)))

/-- Device `c`'s positions: round 0 of each of its nine cells, nothing taken. -/
def positions (c : Dev nD) : sProp 𝕄 := bigSep Finset.univ fun k : Fin 9 => atPos ER (kcell (c, k)) 0 (∅ : Finset (Fin 3)) 0

def ghost (K : Dev nD × Fin 9 → ℕ) (c : Dev nD) : sProp 𝕄 := iprop(records m K ∗ positions c ∗ payToks c)

/-- What device `c`'s body starts from, the scratch buffer apart. -/
def start (c : Dev nD) : sProp 𝕄 :=
  iprop((∃ K, ghost m K c)
    ∗ (cred (tallyAt (barCell c) () 3) ∗ cred (tallyAt (recvCell c 0) () N) ∗ cred (tallyAt (recvCell c 1) () N) ∗ cred (tallyAt (recvCell c 2) () N))
    ∗ levAts L lv
    ∗ (((c : Thread nD τ).loc main_arg0) ↦{fullShare} X m c)
    ∗ (((c : Thread nD τ).loc main_v1) ↦{fullShare} m ((c : Thread nD τ).loc main_v1)))

def Φ₀ (c : Dev nD) : sProp 𝕄 :=
  iprop(start m c ∗ ∃ f : Buf (Elt F) ((c : Thread nD τ).loc cc0_scratch0), ((c : Thread nD τ).loc cc0_scratch0) ↦{fullShare} f)

/-- After the body: `x` as it was, the result array at its final contents, the scratch buffer, the eight own cells closed. -/
def Φ₁ (c : Dev nD) : sProp 𝕄 :=
  iprop((((c : Thread nD τ).loc main_arg0) ↦{fullShare} X m c)
    ∗ (((c : Thread nD τ).loc main_v1) ↦{fullShare} outF m c)
    ∗ (∃ f : Buf (Elt F) ((c : Thread nD τ).loc cc0_scratch0), ((c : Thread nD τ).loc cc0_scratch0) ↦{fullShare} f)
    ∗ bigSep Finset.univ fun k : Fin 8 => semVal (kcell (c, k.succ)) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The pipeline's proof data: no window; the invariant before and after the one point; what is owed there. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- What the run establishes: every device's result array at its final contents, its `x` unchanged. -/
def QC : PUnit × MemSt nD τ sig (Elt F) → Prop := fun r =>
  ∀ c : Dev nD, r.2.mem ((c : Thread nD τ).loc main_v1) = outF m c
    ∧ r.2.mem ((c : Thread nD τ).loc main_arg0) = m ((c : Thread nD τ).loc main_arg0)

end Cert.Kernel.A2A

end
-- ==== Proof.WBody.lean ====
/-
  One device's body of the all-to-all, from the state the launch deals it to the state it gives back.

  In program order. Three signals: signal `i` pays duty `rev i` of the barrier cell of `peer c i`, handing that device row
  block `peer c i` of this device's result array (cut out of the whole array beforehand) and the fact that receive cell
  `rev i` here is at round 0. The wait for three units on the own barrier cell — the only wait made while anything is
  still owed, and what is owed then, the three receive credits, lies above it — brings the three peers' row blocks
  `c`. Three addressed transfers: transfer `j` reads column block `peer c j` of `x_c` into row block `c` of `peer c j`'s
  result; what lands there is the final contents of that block. The own column block goes through the scratch buffer into
  the own row block by two local transfers, each waited for at once. Six more waits bring back the three column blocks
  (send cells) and the three row blocks written by the other devices (receive cells). The eight own cells are closed, the
  two arrays put together again from their slabs.
-/
import proofs.«900007_g7700000000000008_dist_a2a_v7x_i4_i_m4096_n1024_f32_1_alg».proof.Proof.WGhost

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the protocol needs of the slabs' index arithmetic: what each transfer lands is the final contents there, and the
    two arrays are the disjoint unions of their slabs. -/
structure SlabFacts : Prop where
  load_eq : ∀ (c : Dev nD) (fd : Buf (Elt F) ((c : Thread nD τ).loc cc0_scratch0)),
    (vM : Memref sig .tc .vmem S4096x1024 .f32).view.write (Elt F) fd ((xOwn c).view.read (Elt F) (X m c)) Finset.univ = kept m c
  landing_eq : ∀ (s : Dev nD) (j : Fin 3) (fd : Buf (Elt F) ((peer s j : Thread nD τ).loc main_v1)),
    ∀ i ∈ (oRow s).view.set, (oRow s).view.write (Elt F) fd ((xCol s j).view.read (Elt F) (X m s)) Finset.univ i = outF m (peer s j) i
  store_eq : ∀ (c : Dev nD) (fd : Buf (Elt F) ((c : Thread nD τ).loc main_v1)),
    ∀ i ∈ (oRow c).view.set, (oRow c).view.write (Elt F) fd ((vM : Memref sig .tc .vmem S4096x1024 .f32).view.read (Elt F) (kept m c)) Finset.univ i = outF m c i
  x_split : ∀ c : Dev nD,
    ((((c : Thread nD τ).loc main_arg0) ↦{fullShare} X m c) : sProp 𝕄) ⊣⊢ iprop(xOwnPts m c ∗ xColPts m c 0 ∗ xColPts m c 1 ∗ xColPts m c 2)
  o_split : ∀ (p : Dev nD) (f : Buf (Elt F) ((p : Thread nD τ).loc main_v1)),
    ((((p : Thread nD τ).loc main_v1) ↦{fullShare} f) : sProp 𝕄) ⊣⊢ iprop(oSlab p p f ∗ oSlab p (peer p 0) f ∗ oSlab p (peer p 1) f ∗ oSlab p (peer p 2) f)
  o_join : ∀ (p : Dev nD) (f : Buf (Elt F) ((p : Thread nD τ).loc main_v1)),
    iprop(oSlab p p f ∗ oSlab p (srcOf p 0) f ∗ oSlab p (srcOf p 1) f ∗ oSlab p (srcOf p 2) f) ⊢ ((((p : Thread nD τ).loc main_v1) ↦{fullShare} f) : sProp 𝕄)

omit [FloatOps F] in
theorem bsep3 (Φ : Fin 3 → sProp 𝕄) : bigSep Finset.univ Φ = iprop(Φ 0 ∗ Φ 1 ∗ Φ 2) := bigSep_univ_eq_bigSepL [0, 1, 2] (by decide) (by decide) Φ
omit [FloatOps F] in
theorem bsep5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
theorem bsep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bsep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem xCol_credit (c : Dev nD) (j : Fin 3) : (xCol c j).view.dmaCredit = N := rfl
theorem vM_credit : (vM : Memref sig .tc .vmem S4096x1024 .f32).view.dmaCredit = Nv := rfl
theorem Nv_eq_N : Nv = N := rfl

section Body

/-- Transfer `j` of device `c`, addressed to `n = peer c j`: it pays the duty of its own send cell `j` (column block `peer c j`
    of `x_c` comes back with it) and the duty of receive cell `j` of the peer (row block `c` of the peer's result, at its final
    contents, goes to the peer), and takes the block's credit off what `c` owes. -/
theorem wp_send_j (H : SlabFacts m) (K : Dev nD × Fin 9 → ℕ) (c n : Dev nD) (j : Fin 3) (hn : n = peer c j)
    {hsc : ((oRow c : Memref sig (Dev.tc n : Thread nD τ).2.kind .hbm S4096x1024 .f32)).view.ref.isScScratch = false}
    {hsrc : (xCol c j).view.WordExact} {hdst : (oRow c).view.WordExact}
    {hsem : DmaTarget.Typed .hbm (.dma (recvS j).sem) (.remote (Dev.tc n : Thread nD τ) (oRow c) (.dma (sendS j).sem) hsc)}
    {α : Type} {Q : α → sProp 𝕄} {k : PUnit → Prog (TpuEff nD τ sig (Elt F) Λ₀ .tc) α}
    (fd : Buf (Elt F) ((peer c j : Thread nD τ).loc main_v1)) (O' O : CellTallies nD τ sig Unit)
    (hO : O' = O + tallyAt (recvCell (peer c j) j) () N) (W : Waits sig Unit) :
    iprop(cellInv ER (sched m) (K (c, sendIx j)) (sendCell c j) ∗ cellInv ER (sched m) (K (peer c j, recvIx j)) (recvCell (peer c j) j)
        ∗ xColPts m c j ∗ oSlab (peer c j) c fd
        ∗ owes (c : Thread nD τ) O' W
        ∗ dutyTok ER (sendCell c j) 0 (0 : Fin 3) ∗ reached ER (sendCell c j) 0
        ∗ dutyTok ER (recvCell (peer c j) j) 0 (0 : Fin 3) ∗ reached ER (recvCell (peer c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xCol c j) (.remote (Dev.tc n : Thread nD τ) (oRow c) (.dma (sendS j).sem) hsc) (.dma (recvS j).sem) hsrc hdst hsem) k) Q) := by
  subst hn
  have e1 : sendCell c j = ((c : Thread nD τ), SemLoc.dma (sendS j).sem) := by rw [← csem_sendIx]
  have e2 : recvCell (peer c j) j = ((peer c j : Thread nD τ), SemLoc.dma (recvS j).sem) := by rw [← csem_recvIx]
  rw [e1, e2]
  exact Rounds.wp_send_pointsTo 𝒱₀ ER (sched m) (c : Thread nD τ) none (κ₁ := K (c, sendIx j)) (κ₂ := K (peer c j, recvIx j))
    (src := xCol c j) (dst := oRow c) (c' := (peer c j : Thread nD τ))
    (r₁ := 0) (r₂ := 0) (d₁ := 0) (d₂ := 0) (fd := fd) (fs := X m c) (q := fullShare)
    (by rw [← e1, duties_k m c _ (sendIx_ne j)]; exact Finset.mem_singleton_self _)
    (by rw [← e2, duties_k m (peer c j) _ (recvIx_ne j)]; exact Finset.mem_singleton_self _)
    () () N rfl (by rw [← e1]; exact amount_send m c j 0) (by rw [← e2]; exact amount_recv m (peer c j) j 0) O (by rw [hO, e2]) (W := W)
    (by rw [← e1, payload_send]; exact BI.Entails.refl _)
    (by rw [← e2, payload_recv]; unfold recvPay; rw [srcOf_peer]
        exact Entails.of_eq (pointsTo_congr (H.landing_eq c j fd)))

/-- The state the body starts from, spelt out conjunct by conjunct. -/
def bodyPre (K : Dev nD × Fin 9 → ℕ) (c : Dev nD) : sProp 𝕄 :=
  iprop(records m K
    ∗ (atPos ER (kcell (c, 0)) 0 (∅ : Finset (Fin 3)) 0 ∗ atPos ER (kcell (c, 1)) 0 (∅ : Finset (Fin 3)) 0 ∗ atPos ER (kcell (c, 2)) 0 (∅ : Finset (Fin 3)) 0
      ∗ atPos ER (kcell (c, 3)) 0 (∅ : Finset (Fin 3)) 0 ∗ atPos ER (kcell (c, 4)) 0 (∅ : Finset (Fin 3)) 0 ∗ atPos ER (kcell (c, 5)) 0 (∅ : Finset (Fin 3)) 0
      ∗ atPos ER (kcell (c, 6)) 0 (∅ : Finset (Fin 3)) 0 ∗ atPos ER (kcell (c, 7)) 0 (∅ : Finset (Fin 3)) 0 ∗ atPos ER (kcell (c, 8)) 0 (∅ : Finset (Fin 3)) 0)
    ∗ ((dutyTok ER (barCell (peer c 0)) 0 (rev 0) ∗ dutyTok ER (barCell (peer c 1)) 0 (rev 1) ∗ dutyTok ER (barCell (peer c 2)) 0 (rev 2))
      ∗ (dutyTok ER (recvCell (peer c 0) 0) 0 (0 : Fin 3) ∗ dutyTok ER (recvCell (peer c 1) 1) 0 (0 : Fin 3) ∗ dutyTok ER (recvCell (peer c 2) 2) 0 (0 : Fin 3))
      ∗ (dutyTok ER (kcell (c, ownIx 0)) 0 (0 : Fin 3) ∗ dutyTok ER (kcell (c, ownIx 1)) 0 (0 : Fin 3) ∗ dutyTok ER (kcell (c, ownIx 2)) 0 (0 : Fin 3)
        ∗ dutyTok ER (kcell (c, ownIx 3)) 0 (0 : Fin 3) ∗ dutyTok ER (kcell (c, ownIx 4)) 0 (0 : Fin 3)))
    ∗ (cred (tallyAt (barCell c) () 3) ∗ cred (tallyAt (recvCell c 0) () N) ∗ cred (tallyAt (recvCell c 1) () N) ∗ cred (tallyAt (recvCell c 2) () N))
    ∗ levAts L lv
    ∗ (((c : Thread nD τ).loc main_arg0) ↦{fullShare} X m c)
    ∗ (((c : Thread nD τ).loc main_v1) ↦{fullShare} m ((c : Thread nD τ).loc main_v1))
    ∗ (∃ f : Buf (Elt F) ((c : Thread nD τ).loc cc0_scratch0), ((c : Thread nD τ).loc cc0_scratch0) ↦{fullShare} f)
    ∗ (dats m 0 c).owesAt () t₀.castSucc)

def bodyPost (c : Dev nD) : sProp 𝕄 := iprop(Φ₁ m c ∗ (dats m 0 c).owesAt () t₀.succ)

omit [FloatOps F] in
theorem vM_set : (vM : Memref sig .tc .vmem S4096x1024 .f32).view.set = Finset.univ := View.set_whole _

set_option maxHeartbeats 1600000 in
/-- The body, one rule per effect in program order. -/
theorem sound_body (H : SlabFacts m) (K : Dev nD × Fin 9 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3) Kt := by
  rw [cc0_body_eq_skeleton]; unfold cc0_body_skel
  rw [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre
  iintro ⟨⟨#HR, ⟨HaB, HaL, HaT, HaS0, HaS1, HaS2, HaR0, HaR1, HaR2⟩, ⟨⟨HtB0, HtB1, HtB2⟩, ⟨HtR0, HtR1, HtR2⟩, ⟨HtL, HtT, HtS0, HtS1, HtS2⟩⟩,
    ⟨HcB, HcR0, HcR1, HcR2⟩, #Hlev, Hx, Hout, ⟨%fv, Hscr⟩, Ho⟩, Hk⟩
  unfold Dat.owesAt Pipeline.owesWithin
  icases Ho with ⟨%W, %hW, HO⟩
  rw [show (dats m 0 c).owed t₀.castSucc = O₀ c from rfl]
  -- the two arrays cut into their slabs
  ihave Hx4 := (H.x_split c).1 $$ Hx
  icases Hx4 with ⟨HxO, HxC0, HxC1, HxC2⟩
  ihave Ho4 := (H.o_split c _).1 $$ Hout
  icases Ho4 with ⟨HoO, HoP0, HoP1, HoP2⟩
  simp only [dev1_eq c, dev2_eq c, dev3_eq c]
  -- signal 0, to `peer c 0`: row block `peer c 0` of this device's result, and that receive cell `rev 0` here is at round 0
  iapply (Rounds.wp_signal 𝒱₀ ER (sched m) (c : Thread nD τ) none (dst := (peer c 0 : Thread nD τ)) (κ := K (peer c 0, 0))
      (d := rev 0) (show rev 0 ∈ (sched m).duties (kcell (peer c 0, 0)) 0 by rw [duties_k0]; exact Finset.mem_univ _)
      ((amount_bar m (peer c 0) (rev 0)).trans (by decide)) () (OB₁ c) rfl) $$ [HO HtB0 HoP0]
  · isplitr; · iapply (inv_at m K (peer c 0, 0)); iexact HR
    isplitl [HO]; · iexact HO
    isplitl [HtB0]; · iexact HtB0
    isplitl [HoP0]
    · rw [show (sched m).payload ((peer c 0 : Thread nD τ), SemLoc.reg barS) 0 (rev 0) = barPay (peer c 0) (rev 0) from payload_bar m (peer c 0) (rev 0)]
      unfold barPay; rw [peer_peer_rev]
      isplitl [HoP0]; · iexists _; iexact HoP0
      iapply (reached_at m K (c, recvIx (rev 0))); iexact HR
    · iapply (reached_at m K (peer c 0, 0)); iexact HR
  iintro HO
  -- signal 1, to `peer c 1`
  iapply (Rounds.wp_signal 𝒱₀ ER (sched m) (c : Thread nD τ) none (dst := (peer c 1 : Thread nD τ)) (κ := K (peer c 1, 0))
      (d := rev 1) (show rev 1 ∈ (sched m).duties (kcell (peer c 1, 0)) 0 by rw [duties_k0]; exact Finset.mem_univ _)
      ((amount_bar m (peer c 1) (rev 1)).trans (by decide)) () (OB₂ c) rfl) $$ [HO HtB1 HoP1]
  · isplitr; · iapply (inv_at m K (peer c 1, 0)); iexact HR
    isplitl [HO]; · iexact HO
    isplitl [HtB1]; · iexact HtB1
    isplitl [HoP1]
    · rw [show (sched m).payload ((peer c 1 : Thread nD τ), SemLoc.reg barS) 0 (rev 1) = barPay (peer c 1) (rev 1) from payload_bar m (peer c 1) (rev 1)]
      unfold barPay; rw [peer_peer_rev]
      isplitl [HoP1]; · iexists _; iexact HoP1
      iapply (reached_at m K (c, recvIx (rev 1))); iexact HR
    · iapply (reached_at m K (peer c 1, 0)); iexact HR
  iintro HO
  -- signal 2, to `peer c 2`
  iapply (Rounds.wp_signal 𝒱₀ ER (sched m) (c : Thread nD τ) none (dst := (peer c 2 : Thread nD τ)) (κ := K (peer c 2, 0))
      (d := rev 2) (show rev 2 ∈ (sched m).duties (kcell (peer c 2, 0)) 0 by rw [duties_k0]; exact Finset.mem_univ _)
      ((amount_bar m (peer c 2) (rev 2)).trans (by decide)) () (OR c) rfl) $$ [HO HtB2 HoP2]
  · isplitr; · iapply (inv_at m K (peer c 2, 0)); iexact HR
    isplitl [HO]; · iexact HO
    isplitl [HtB2]; · iexact HtB2
    isplitl [HoP2]
    · rw [show (sched m).payload ((peer c 2 : Thread nD τ), SemLoc.reg barS) 0 (rev 2) = barPay (peer c 2) (rev 2) from payload_bar m (peer c 2) (rev 2)]
      unfold barPay; rw [peer_peer_rev]
      isplitl [HoP2]; · iexists _; iexact HoP2
      iapply (reached_at m K (c, recvIx (rev 2))); iexact HR
    · iapply (reached_at m K (peer c 2, 0)); iexact HR
  iintro HO
  -- the wait for three units on its own barrier cell, owing the three receive credits
  iapply (Rounds.wp_wait_rest_token 𝒱₀ ER (sched m) (c : Thread nD τ) none (κ := K (c, 0))
      (wpE_semWait_eq 𝒱₀ (c : Thread nD τ) none Set.univ) (Set.mem_univ _) () (O := OR c) (W := W) (R := 0) (m := 0) (T := ∅)
      (show 0 + (3#32 : BitVec 32).toNat = (sched m).expect (kcell (c, 0)) 0 by rw [expect_bar]; decide)) $$ [HcB HO HaB]
  · isplitr; · iapply (inv_at m K (c, 0)); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay
  icases Hp with ⟨⟨⟨%f0, Hs0⟩, #Hq0⟩, ⟨⟨%f1, Hs1⟩, #Hq1⟩, ⟨%f2, Hs2⟩, #Hq2⟩
  -- transfer 0, to `peer c 0`
  iapply (wp_send_j m H K c _ 0 (dev4_eq c) f0 (OR c) (OR₁ c) rfl _) $$ [HxC0 Hs0 HO HtS0 HtR0]
  · isplitr; · iapply (inv_at m K (c, sendIx 0)); iexact HR
    isplitr; · iapply (inv_at m K (peer c 0, recvIx 0)); iexact HR
    isplitl [HxC0]; · iexact HxC0
    isplitl [Hs0]; · iexact Hs0
    isplitl [HO]; · iexact HO
    isplitl [HtS0]; · iexact HtS0
    isplitr; · iapply (reached_at m K (c, sendIx 0)); iexact HR
    isplitl [HtR0]; · iexact HtR0
    iexact Hq0
  iintro ⟨HcS0, HO⟩
  -- transfer 1, to `peer c 1`
  iapply (wp_send_j m H K c _ 1 (dev5_eq c) f1 (OR₁ c) (OR₂ c) rfl _) $$ [HxC1 Hs1 HO HtS1 HtR1]
  · isplitr; · iapply (inv_at m K (c, sendIx 1)); iexact HR
    isplitr; · iapply (inv_at m K (peer c 1, recvIx 1)); iexact HR
    isplitl [HxC1]; · iexact HxC1
    isplitl [Hs1]; · iexact Hs1
    isplitl [HO]; · iexact HO
    isplitl [HtS1]; · iexact HtS1
    isplitr; · iapply (reached_at m K (c, sendIx 1)); iexact HR
    isplitl [HtR1]; · iexact HtR1
    iexact Hq1
  iintro ⟨HcS1, HO⟩
  -- transfer 2, to `peer c 2`
  iapply (wp_send_j m H K c _ 2 (dev6_eq c) f2 (OR₂ c) (0) (by unfold OR₂; rw [zero_add]) _) $$ [HxC2 Hs2 HO HtS2 HtR2]
  · isplitr; · iapply (inv_at m K (c, sendIx 2)); iexact HR
    isplitr; · iapply (inv_at m K (peer c 2, recvIx 2)); iexact HR
    isplitl [HxC2]; · iexact HxC2
    isplitl [Hs2]; · iexact Hs2
    isplitl [HO]; · iexact HO
    isplitl [HtS2]; · iexact HtS2
    isplitr; · iapply (reached_at m K (c, sendIx 2)); iexact HR
    isplitl [HtR2]; · iexact HtR2
    iexact Hq2
  iintro ⟨HcS2, HO⟩
  -- the local load of column block `c` into the scratch buffer
  ihave Hscr' := (Entails.of_eq (show ((((c : Thread nD τ).loc cc0_scratch0) ↦{fullShare} fv) : sProp 𝕄) = vPts c fv by unfold vPts; rw [vM_set])) $$ Hscr
  iapply (Rounds.wp_copy_pointsTo 𝒱₀ ER (sched m) (c : Thread nD τ) none (κ := K (c, 1)) (src := xOwn c) (dst := vM) (sem := SemLoc.dma loadS.sem)
      (r := 0) (d := 0) (fs := X m c) (fd := fv) (q := fullShare)
      (show (0 : Fin 3) ∈ (sched m).duties (kcell (c, 1)) 0 by rw [duties_k m c 1 (by decide)]; exact Finset.mem_singleton_self _)
      () Nv rfl (amount_load m c 0)
      (by rw [show (sched m).payload ((c : Thread nD τ), SemLoc.dma loadS.sem) 0 0 = loadPay m c from payload_load m c 0]
          unfold loadPay vPts; rw [H.load_eq c fv])) $$ [HxO Hscr' HtL]
  · isplitr; · iapply (inv_at m K (c, 1)); iexact HR
    isplitl [HxO]; · iexact HxO
    isplitl [Hscr']; · iexact Hscr'
    isplitl [HtL]; · iexact HtL
    iapply (reached_at m K (c, 1)); iexact HR
  iintro HcL
  -- the wait on the load cell
  iapply (Rounds.wp_wait_rest_token 𝒱₀ ER (sched m) (c : Thread nD τ) none (κ := K (c, 1))
      (wpE_waitDma2_eq 𝒱₀ (c : Thread nD τ) none Set.univ) (Set.mem_univ _) () (O := 0) (R := 0) (m := 0) (T := ∅)
      (show 0 + (vM : Memref sig .tc .vmem S4096x1024 .f32).view.dmaCredit = (sched m).expect (kcell (c, 1)) 0 by rw [expect_load, Nat.zero_add])) $$ [HcL HO HaL]
  · isplitr; · iapply (inv_at m K (c, 1)); iexact HR
    isplitl [HcL]; · iexact HcL
    isplitl [HO]; · iexact HO
    isplitr; · rw [MayWait_zero]; iempintro
    iexact HaL
  iintro ⟨HO, HaL, -, Hpay⟩
  ihave Hp := (Entails.of_eq (rest_k m c 1 (by decide))) $$ Hpay
  ihave Hp' := (Entails.of_eq (show payK m c 1 0 = loadPay m c from rfl)) $$ Hp
  unfold loadPay
  icases Hp' with ⟨Hv, HxO⟩
  -- the local store of the scratch buffer into row block `c` of the result
  iapply (Rounds.wp_copy_pointsTo 𝒱₀ ER (sched m) (c : Thread nD τ) none (κ := K (c, 2)) (src := vM) (dst := oRow c) (sem := SemLoc.dma storeS.sem)
      (r := 0) (d := 0) (fs := kept m c) (fd := m ((c : Thread nD τ).loc main_v1)) (q := fullShare)
      (show (0 : Fin 3) ∈ (sched m).duties (kcell (c, 2)) 0 by rw [duties_k m c 2 (by decide)]; exact Finset.mem_singleton_self _)
      () N rfl (amount_store m c 0)
      (by rw [show (sched m).payload ((c : Thread nD τ), SemLoc.dma storeS.sem) 0 0 = storePay m c from payload_store m c 0]
          unfold storePay
          exact sep_mono_left (Entails.of_eq (pointsTo_congr (H.store_eq c _))))) $$ [Hv HoO HtT]
  · isplitr; · iapply (inv_at m K (c, 2)); iexact HR
    isplitl [Hv]; · iexact Hv
    isplitl [HoO]; · iexact HoO
    isplitl [HtT]; · iexact HtT
    iapply (reached_at m K (c, 2)); iexact HR
  iintro HcT
  -- the wait on the store cell
  iapply (Rounds.wp_wait_rest_token 𝒱₀ ER (sched m) (c : Thread nD τ) none (κ := K (c, 2))
      (wpE_waitDma2_eq 𝒱₀ (c : Thread nD τ) none Set.univ) (Set.mem_univ _) () (O := 0) (R := 0) (m := 0) (T := ∅)
      (show 0 + (oRow c).view.dmaCredit = (sched m).expect (kcell (c, 2)) 0 by rw [expect_store, Nat.zero_add])) $$ [HcT HO HaT]
  · isplitr; · iapply (inv_at m K (c, 2)); iexact HR
    isplitl [HcT]; · iexact HcT
    isplitl [HO]; · iexact HO
    isplitr; · rw [MayWait_zero]; iempintro
    iexact HaT
  iintro ⟨HO, HaT, -, Hpay⟩
  ihave Hp := (Entails.of_eq (rest_k m c 2 (by decide))) $$ Hpay
  ihave Hp' := (Entails.of_eq (show payK m c 2 0 = storePay m c from rfl)) $$ Hp
  unfold storePay
  icases Hp' with ⟨HoO, Hv⟩
  -- the wait on the send 0 cell
  iapply (Rounds.wp_wait_rest_token 𝒱₀ ER (sched m) (c : Thread nD τ) none (κ := K (c, 3))
      (wpE_waitDma2_eq 𝒱₀ (c : Thread nD τ) none Set.univ) (Set.mem_univ _) () (O := 0) (R := 0) (m := 0) (T := ∅)
      (show 0 + (xCol c 0).view.dmaCredit = (sched m).expect (kcell (c, 3)) 0 by rw [show (sched m).expect (kcell (c, 3)) 0 = N from expect_send m c 0, Nat.zero_add])) $$ [HcS0 HO HaS0]
  · isplitr; · iapply (inv_at m K (c, 3)); iexact HR
    isplitl [HcS0]; · iexact HcS0
    isplitl [HO]; · iexact HO
    isplitr; · rw [MayWait_zero]; iempintro
    iexact HaS0
  iintro ⟨HO, HaS0, -, Hpay⟩
  ihave Hp := (Entails.of_eq (rest_k m c 3 (by decide))) $$ Hpay
  ihave HxC0 := (Entails.of_eq (show payK m c 3 0 = xColPts m c 0 from rfl)) $$ Hp
  -- the wait on the receive 0 cell
  iapply (Rounds.wp_wait_rest_token 𝒱₀ ER (sched m) (c : Thread nD τ) none (κ := K (c, 6))
      (wpE_waitDma2_eq 𝒱₀ (c : Thread nD τ) none Set.univ) (Set.mem_univ _) () (O := 0) (R := 0) (m := 0) (T := ∅)
      (show 0 + (oRow c).view.dmaCredit = (sched m).expect (kcell (c, 6)) 0 by rw [show (sched m).expect (kcell (c, 6)) 0 = N from expect_recv m c 0, Nat.zero_add])) $$ [HcR0 HO HaR0]
  · isplitr; · iapply (inv_at m K (c, 6)); iexact HR
    isplitl [HcR0]; · iexact HcR0
    isplitl [HO]; · iexact HO
    isplitr; · rw [MayWait_zero]; iempintro
    iexact HaR0
  iintro ⟨HO, HaR0, -, Hpay⟩
  ihave Hp := (Entails.of_eq (rest_k m c 6 (by decide))) $$ Hpay
  ihave HoR0 := (Entails.of_eq (show payK m c 6 0 = oSlab c (srcOf c 0) (outF m c) from rfl)) $$ Hp
  -- the wait on the send 1 cell
  iapply (Rounds.wp_wait_rest_token 𝒱₀ ER (sched m) (c : Thread nD τ) none (κ := K (c, 4))
      (wpE_waitDma2_eq 𝒱₀ (c : Thread nD τ) none Set.univ) (Set.mem_univ _) () (O := 0) (R := 0) (m := 0) (T := ∅)
      (show 0 + (xCol c 1).view.dmaCredit = (sched m).expect (kcell (c, 4)) 0 by rw [show (sched m).expect (kcell (c, 4)) 0 = N from expect_send m c 1, Nat.zero_add])) $$ [HcS1 HO HaS1]
  · isplitr; · iapply (inv_at m K (c, 4)); iexact HR
    isplitl [HcS1]; · iexact HcS1
    isplitl [HO]; · iexact HO
    isplitr; · rw [MayWait_zero]; iempintro
    iexact HaS1
  iintro ⟨HO, HaS1, -, Hpay⟩
  ihave Hp := (Entails.of_eq (rest_k m c 4 (by decide))) $$ Hpay
  ihave HxC1 := (Entails.of_eq (show payK m c 4 0 = xColPts m c 1 from rfl)) $$ Hp
  -- the wait on the receive 1 cell
  iapply (Rounds.wp_wait_rest_token 𝒱₀ ER (sched m) (c : Thread nD τ) none (κ := K (c, 7))
      (wpE_waitDma2_eq 𝒱₀ (c : Thread nD τ) none Set.univ) (Set.mem_univ _) () (O := 0) (R := 0) (m := 0) (T := ∅)
      (show 0 + (oRow c).view.dmaCredit = (sched m).expect (kcell (c, 7)) 0 by rw [show (sched m).expect (kcell (c, 7)) 0 = N from expect_recv m c 1, Nat.zero_add])) $$ [HcR1 HO HaR1]
  · isplitr; · iapply (inv_at m K (c, 7)); iexact HR
    isplitl [HcR1]; · iexact HcR1
    isplitl [HO]; · iexact HO
    isplitr; · rw [MayWait_zero]; iempintro
    iexact HaR1
  iintro ⟨HO, HaR1, -, Hpay⟩
  ihave Hp := (Entails.of_eq (rest_k m c 7 (by decide))) $$ Hpay
  ihave HoR1 := (Entails.of_eq (show payK m c 7 0 = oSlab c (srcOf c 1) (outF m c) from rfl)) $$ Hp
  -- the wait on the send 2 cell
  iapply (Rounds.wp_wait_rest_token 𝒱₀ ER (sched m) (c : Thread nD τ) none (κ := K (c, 5))
      (wpE_waitDma2_eq 𝒱₀ (c : Thread nD τ) none Set.univ) (Set.mem_univ _) () (O := 0) (R := 0) (m := 0) (T := ∅)
      (show 0 + (xCol c 2).view.dmaCredit = (sched m).expect (kcell (c, 5)) 0 by rw [show (sched m).expect (kcell (c, 5)) 0 = N from expect_send m c 2, Nat.zero_add])) $$ [HcS2 HO HaS2]
  · isplitr; · iapply (inv_at m K (c, 5)); iexact HR
    isplitl [HcS2]; · iexact HcS2
    isplitl [HO]; · iexact HO
    isplitr; · rw [MayWait_zero]; iempintro
    iexact HaS2
  iintro ⟨HO, HaS2, -, Hpay⟩
  ihave Hp := (Entails.of_eq (rest_k m c 5 (by decide))) $$ Hpay
  ihave HxC2 := (Entails.of_eq (show payK m c 5 0 = xColPts m c 2 from rfl)) $$ Hp
  -- the wait on the receive 2 cell
  iapply (Rounds.wp_wait_rest_token 𝒱₀ ER (sched m) (c : Thread nD τ) none (κ := K (c, 8))
      (wpE_waitDma2_eq 𝒱₀ (c : Thread nD τ) none Set.univ) (Set.mem_univ _) () (O := 0) (R := 0) (m := 0) (T := ∅)
      (show 0 + (oRow c).view.dmaCredit = (sched m).expect (kcell (c, 8)) 0 by rw [show (sched m).expect (kcell (c, 8)) 0 = N from expect_recv m c 2, Nat.zero_add])) $$ [HcR2 HO HaR2]
  · isplitr; · iapply (inv_at m K (c, 8)); iexact HR
    isplitl [HcR2]; · iexact HcR2
    isplitl [HO]; · iexact HO
    isplitr; · rw [MayWait_zero]; iempintro
    iexact HaR2
  iintro ⟨HO, HaR2, -, Hpay⟩
  ihave Hp := (Entails.of_eq (rest_k m c 8 (by decide))) $$ Hpay
  ihave HoR2 := (Entails.of_eq (show payK m c 8 0 = oSlab c (srcOf c 2) (outF m c) from rfl)) $$ Hp
  -- the eight own cells close: their counters at zero are the core's again
  imod (Rounds.cell_close ER (sched m) (Set.mem_univ (K (c, 1))) (fun h => h) (R := 0 + 1) (duties_later m (kcell (c, 1)))) $$ [HaL] with Hz1
  · isplitr; · iapply (inv_at m K (c, 1)); iexact HR
    iexact HaL
  imod (Rounds.cell_close ER (sched m) (Set.mem_univ (K (c, 2))) (fun h => h) (R := 0 + 1) (duties_later m (kcell (c, 2)))) $$ [HaT] with Hz2
  · isplitr; · iapply (inv_at m K (c, 2)); iexact HR
    iexact HaT
  imod (Rounds.cell_close ER (sched m) (Set.mem_univ (K (c, 3))) (fun h => h) (R := 0 + 1) (duties_later m (kcell (c, 3)))) $$ [HaS0] with Hz3
  · isplitr; · iapply (inv_at m K (c, 3)); iexact HR
    iexact HaS0
  imod (Rounds.cell_close ER (sched m) (Set.mem_univ (K (c, 4))) (fun h => h) (R := 0 + 1) (duties_later m (kcell (c, 4)))) $$ [HaS1] with Hz4
  · isplitr; · iapply (inv_at m K (c, 4)); iexact HR
    iexact HaS1
  imod (Rounds.cell_close ER (sched m) (Set.mem_univ (K (c, 5))) (fun h => h) (R := 0 + 1) (duties_later m (kcell (c, 5)))) $$ [HaS2] with Hz5
  · isplitr; · iapply (inv_at m K (c, 5)); iexact HR
    iexact HaS2
  imod (Rounds.cell_close ER (sched m) (Set.mem_univ (K (c, 6))) (fun h => h) (R := 0 + 1) (duties_later m (kcell (c, 6)))) $$ [HaR0] with Hz6
  · isplitr; · iapply (inv_at m K (c, 6)); iexact HR
    iexact HaR0
  imod (Rounds.cell_close ER (sched m) (Set.mem_univ (K (c, 7))) (fun h => h) (R := 0 + 1) (duties_later m (kcell (c, 7)))) $$ [HaR1] with Hz7
  · isplitr; · iapply (inv_at m K (c, 7)); iexact HR
    iexact HaR1
  imod (Rounds.cell_close ER (sched m) (Set.mem_univ (K (c, 8))) (fun h => h) (R := 0 + 1) (duties_later m (kcell (c, 8)))) $$ [HaR2] with Hz8
  · isplitr; · iapply (inv_at m K (c, 8)); iexact HR
    iexact HaR2
  rw [wp_ret]; imodintro
  iapply Hk
  unfold bodyPost Φ₁ Dat.owesAt Pipeline.owesWithin
  rw [show (dats m 0 c).owed t₀.succ = 0 from rfl, bsep8]
  isplitr [HO]
  · isplitl [HxO HxC0 HxC1 HxC2]
    · iapply (H.x_split c).2
      isplitl [HxO]; · iexact HxO
      isplitl [HxC0]; · iexact HxC0
      isplitl [HxC1]; · iexact HxC1
      iexact HxC2
    isplitl [HoO HoR0 HoR1 HoR2]
    · iapply (H.o_join c (outF m c))
      isplitl [HoO]; · iexact HoO
      isplitl [HoR0]; · iexact HoR0
      isplitl [HoR1]; · iexact HoR1
      iexact HoR2
    isplitl [Hv]
    · iexists (kept m c)
      iapply (Entails.of_eq (show vPts c (kept m c) = ((((c : Thread nD τ).loc cc0_scratch0) ↦{fullShare} kept m c) : sProp 𝕄) by unfold vPts; rw [vM_set]))
      iexact Hv
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    iexact Hz8
  · iexists (insert (SemLoc.dma (recvS 2).sem, ()) (insert (SemLoc.dma (sendS 2).sem, ()) (insert (SemLoc.dma (recvS 1).sem, ()) (insert (SemLoc.dma (sendS 1).sem, ())
      (insert (SemLoc.dma (recvS 0).sem, ()) (insert (SemLoc.dma (sendS 0).sem, ()) (insert (SemLoc.dma storeS.sem, ()) (insert (SemLoc.dma loadS.sem, ())
      (insert (SemLoc.reg barS, ()) W)))))))))
    isplitr; · ipureintro; exact fun _ _ => Or.inl trivial
    iexact HO

/-- The library's body obligation on device `c`: the one grid point, from `Φ₀` to `Φ₁`. -/
theorem body_obligation (H : SlabFacts m) (c : Dev nD) : BodyObligation (dats (F := F) m 0 c) (defs₀ (F := F)) 𝒱₀ () Set.univ := fun t => by
  rw [fin_N t]
  have hW : ∀ Φ : Fin cfg0.W → sProp 𝕄, bigSep Finset.univ Φ = iprop(emp) := fun Φ => by
    rw [show (Finset.univ : Finset (Fin cfg0.W)) = ∅ from Finset.univ_eq_empty]; exact BI.bigSep_empty
  rw [hW, hW]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      (Memref.whole cc0_scratch0) (Memref.isWhole_whole _) cc0_scratch1 cc0_scratch2 cc0_scratch3)
    (fun _ => iprop(Φ₁ m c ∗ (dats m 0 c).owesAt () t₀.succ ∗ emp))
  unfold Φ₀ start ghost positions payToks
  rw [bsep9, bsep3, bsep3, bsep5]
  iintro ⟨⟨⟨⟨%K, HR, Hpos, Htok⟩, Hcred, Hlev, Hx, Hout⟩, Hscr⟩, Ho, -⟩
  iapply (sound_body m H K c fun _ => iprop(Φ₁ m c ∗ (dats m 0 c).owesAt () t₀.succ ∗ emp))
  unfold bodyPre
  isplitr []
  · isplitl [HR]; · iexact HR
    isplitl [Hpos]; · iexact Hpos
    isplitl [Htok]; · iexact Htok
    isplitl [Hcred]; · iexact Hcred
    isplitl [Hlev]; · iexact Hlev
    isplitl [Hx]; · iexact Hx
    isplitl [Hout]; · iexact Hout
    isplitl [Hscr]; · iexact Hscr
    iexact Ho
  · unfold bodyPost
    iintro ⟨H1, H2⟩
    isplitl [H1]; · iexact H1
    isplitl [H2]; · iexact H2
    iempintro

end Body

end Cert.Kernel.A2A
end
-- ==== Proof.WLaunch.lean ====
/-
  The launch of the all-to-all on four devices.

  The launch mints, for every device, the round states of its nine semaphore cells, its positions at round 0, and the
  tokens of the duties of its own cells: the three duties of its barrier cell and the one duty of each of its eight
  transfer cells. One global step, over all devices at once, puts each cell's counter at zero and its round state under
  an invariant, and deals the tokens to the devices that PAY the duties: the token of duty `rev i` of the barrier cell
  of `peer c i` and the token of receive cell `j` of `peer c j` go to `c`; the tokens of a device's own load, store and
  send cells stay with it. With the launch credit and the two arrays this is what a device's body starts from; what it
  ends in gives back the eight own counters at zero and reads off the final contents of the two arrays.
-/
import proofs.«900007_g7700000000000008_dist_a2a_v7x_i4_i_m4096_n1024_f32_1_alg».proof.Proof.WGhost
import proofs.«900007_g7700000000000008_dist_a2a_v7x_i4_i_m4096_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens minted -/

theorem ownSemFacts : Pipeline.OwnSemFacts cfg0.spec osem := by decide

theorem kcell_injective : Function.Injective (kcell : Dev nD × Fin 9 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The thirty-six cells of the protocol. -/
def ringCells : Finset (GSem nD τ sig) := Finset.univ.map ⟨kcell, kcell_injective⟩

/-- The duties of a device's own cells, by cell and duty: the three barrier duties, the duty of each receive cell, the
    duty of each of the load, store and send cells. -/
def tokIx : Fin 3 ⊕ Fin 3 ⊕ Fin 5 → Fin 9 × Fin 3
  | .inl d => (0, d)
  | .inr (.inl j) => (recvIx j, 0)
  | .inr (.inr k) => (ownIx k, 0)

theorem tokIx_injective : Function.Injective tokIx := by decide

/-- A device's own cells' duty tokens as minted. -/
abbrev tokOf (cx : Dev nD × (Fin 3 ⊕ Fin 3 ⊕ Fin 5)) : GSem nD τ sig × ℕ × Fin 3 :=
  (kcell (cx.1, (tokIx cx.2).1), 0, (tokIx cx.2).2)

theorem tokOf_injective : Function.Injective (tokOf : Dev nD × (Fin 3 ⊕ Fin 3 ⊕ Fin 5) → GSem nD τ sig × ℕ × Fin 3) := by
  rintro ⟨c, x⟩ ⟨c', x'⟩ h
  have h1 : (c, (tokIx x).1) = (c', (tokIx x').1) := kcell_injective (congrArg (fun y : GSem nD τ sig × ℕ × Fin 3 => y.1) h)
  have h2 : (tokIx x).2 = (tokIx x').2 := congrArg (fun y : GSem nD τ sig × ℕ × Fin 3 => y.2.2) h
  have hc : c = c' := congrArg Prod.fst h1
  have hx : x = x' := tokIx_injective (Prod.ext (congrArg Prod.snd h1) h2)
  rw [hc, hx]

def ringToks : Finset (GSem nD τ sig × ℕ × Fin 3) := Finset.univ.map ⟨tokOf, tokOf_injective⟩

/-- The launch element: the pipeline library's (no staging cell) beside the protocol's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 3 => dutyTok ER (barCell c) 0 d)
    ∗ (bigSep Finset.univ fun j : Fin 3 => dutyTok ER (recvCell c j) 0 (0 : Fin 3))
    ∗ (bigSep Finset.univ fun k : Fin 5 => dutyTok ER (kcell (c, ownIx k)) 0 (0 : Fin 3)))

variable (m : (ℓ : Loc nD τ sig) → Buf (Elt F) ℓ)

/-- What the launch element deals device `c`. -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 (∅ : Finset (Fin 3)) 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell under its invariant, the tokens dealt to their payers -/

omit [FloatOps F] in
/-- A sum over the nine cells: the barrier cell, then the eight transfer cells. -/
theorem bigSep_fin9 (Φ : Fin 9 → sProp 𝕄) : bigSep Finset.univ Φ = iprop(Φ 0 ∗ bigSep Finset.univ fun k : Fin 8 => Φ k.succ) := by
  rw [bigSep_univ_at Φ 0, show (Finset.univ.erase (0 : Fin 9)) = Finset.univ.map ⟨Fin.succ, Fin.succ_injective 8⟩ from by decide, bigSep_map]
  rfl

omit [FloatOps F] in
/-- The eight transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun k : Fin 8 => semVal (kcell (c, k.succ)) 0 := rfl

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨HO, HB⟩
  isplitl [HB] <;> iassumption

/-- One device's nine counters and round states go under nine invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 9 => iprop(∃ κ : ℕ, cellInv ER (sched m) κ (kcell (c, k))))
          ∗ (bigSep Finset.univ fun k : Fin 9 => iprop(atPos ER (kcell (c, k)) 0 (∅ : Finset (Fin 3)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k : Fin 9 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 9 → ℕ) (c : Dev nD) : iprop(records m K ∗ positions c ∗ payToks c) ⊢ G' m c := by
  unfold G' ghost
  iintro H
  iexists K
  iexact H

/-- Going `i + 1` places round the ring and flipping the duty is its own inverse; -/
def barEquiv : Dev nD × Fin 3 ≃ Dev nD × Fin 3 where
  toFun x := (peer x.1 x.2, rev x.2)
  invFun x := (peer x.1 x.2, rev x.2)
  left_inv x := Prod.ext (peer_peer_rev x.1 x.2) (rev_rev x.2)
  right_inv x := Prod.ext (peer_peer_rev x.1 x.2) (rev_rev x.2)

/-- going `j + 1` places is undone by coming `j + 1` places back. -/
def recvEquiv : Dev nD × Fin 3 ≃ Dev nD × Fin 3 where
  toFun x := (peer x.1 x.2, x.2)
  invFun x := (srcOf x.1 x.2, x.2)
  left_inv x := Prod.ext (srcOf_peer x.1 x.2) rfl
  right_inv x := Prod.ext (peer_srcOf x.1 x.2) rfl

omit [FloatOps F] in
/-- The tokens dealt to their payers: duty `rev i` of the barrier cell of `peer c i` and the duty of receive cell `j` of
    `peer c j` go to `c`; the tokens of a device's load, store and send cells stay. -/
theorem toks_around : (bigSep Finset.univ fun c : Dev nD => (toks c : sProp 𝕄)) ⊢ bigSep Finset.univ fun c : Dev nD => payToks c := by
  have hB : (bigSep Finset.univ fun c : Dev nD => bigSep Finset.univ fun d : Fin 3 => (dutyTok ER (barCell c) 0 d : sProp 𝕄))
      = bigSep Finset.univ fun c : Dev nD => bigSep Finset.univ fun i : Fin 3 => dutyTok ER (barCell (peer c i)) 0 (rev i) := by
    rw [← bigSep_univ_prod (fun x : Dev nD × Fin 3 => (dutyTok ER (barCell x.1) 0 x.2 : sProp 𝕄)), bigSep_univ_equiv barEquiv, bigSep_univ_prod]
    rfl
  have hR : (bigSep Finset.univ fun c : Dev nD => bigSep Finset.univ fun j : Fin 3 => (dutyTok ER (recvCell c j) 0 (0 : Fin 3) : sProp 𝕄))
      = bigSep Finset.univ fun c : Dev nD => bigSep Finset.univ fun j : Fin 3 => dutyTok ER (recvCell (peer c j) j) 0 (0 : Fin 3) := by
    rw [← bigSep_univ_prod (fun x : Dev nD × Fin 3 => (dutyTok ER (recvCell x.1 x.2) 0 (0 : Fin 3) : sProp 𝕄)), bigSep_univ_equiv recvEquiv, bigSep_univ_prod]
    rfl
  unfold toks payToks
  rw [bigSep_sep', bigSep_sep', bigSep_sep', bigSep_sep', hB, hR]

/-- Every device's invariants gathered into one record, each device left with its positions and the tokens it pays with. -/
theorem regroup :
    (bigSep Finset.univ fun c : Dev nD => iprop((bigSep Finset.univ fun k : Fin 9 => iprop(∃ κ : ℕ, cellInv ER (sched m) κ (kcell (c, k))))
          ∗ (bigSep Finset.univ fun k : Fin 9 => iprop(atPos ER (kcell (c, k)) 0 (∅ : Finset (Fin 3)) 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 (∅ : Finset (Fin 3)) 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

variable (ρ : Dev nD → PrngReg)

/-- What a device's body starts from: the global step's share, the launch credit, the level facts and the two arrays. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What the launch keeps of a device's last state: its two arrays. -/
def Y (c : Dev nD) : sProp 𝕄 :=
  iprop((((c : Thread nD τ).loc main_arg0) ↦{fullShare} X m c) ∗ (((c : Thread nD τ).loc main_v1) ↦{fullShare} outF m c))

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨Hx, Ho, Hv, Hz⟩
  isplitl [Hx Ho]
  · isplitl [Hx] <;> iassumption
  isplitl [Hz] <;> iassumption

/-- There is no staging cell to wait on. -/
theorem waits (c : Dev nD) : (levAts L lv : sProp 𝕄) ⊢ Pipeline.cellsWaits cfgs (dats m) () 0 c :=
  Pipeline.cellsWaits_intro cfgs (dats m) () 0 c fun w => w.elim0

/-- The two arrays' final contents read off the memory. -/
theorem read_final (c : Dev nD) (s' : Phys nD τ sig (Elt F)) :
    iprop(Y m c ∗ (emp : sProp 𝕄) ∗ SI s')
      ⊢ |={Set.univ}=> iprop(⌜s'.mem.mem ((c : Thread nD τ).loc main_v1) = outF m c
          ∧ s'.mem.mem ((c : Thread nD τ).loc main_arg0) = m ((c : Thread nD τ).loc main_arg0)⌝ ∗ SI s') := by
  unfold Y
  iintro ⟨⟨Hx, Ho⟩, -, HSI⟩
  icombine HSI Ho gives %ho
  icombine HSI Hx gives %hx
  imodintro
  isplitr; · ipureintro; exact ⟨Buf.eq_of_forall_mem_univ ho, Buf.eq_of_forall_mem_univ hx⟩
  iexact HSI

/-! ## The run -/

set_option maxRecDepth 8000 in
/-- At the compiled mesh of four devices, for any float values, from any memory with zero counters: if every device's
    body meets its obligation, every weakly fair execution of @main — the four kernels handshaking on the barrier
    semaphore, then transferring their column blocks to one another — terminates, and every final state has each
    device's result array at its final contents and its `x` unchanged. -/
theorem run_main_of (m : (ℓ : Loc nD τ sig) → Buf (Elt F) ℓ) (ρ : Dev nD → PrngReg)
    (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => s.mem ((c : Thread nD τ).loc main_v1) = outF m c ∧ s.mem ((c : Thread nD τ).loc main_arg0) = m ((c : Thread nD τ).loc main_arg0))
    (hY := read_final m)
    (hQ := fun _ h c => (h c).2.2)

/-- info: 'Cert.Kernel.A2A.run_main_of' depends on axioms: [propext, Classical.choice, Quot.sound] -/
#guard_msgs in #print axioms run_main_of

end Cert.Kernel.A2A

end
-- ==== Proof.WSlabs.lean ====
/-
  The index arithmetic of the slabs.

  On a device `x` is 4096 × 4096, cut into four column blocks of 1024 columns: the device's own block, and the block of
  each of its three peers. A result array is 16384 × 1024, cut into four row blocks of 4096 rows, one per sending device.
  The scratch buffer is 4096 × 1024 and is always used whole.

  This module says which elements each slab holds (a range of columns of `x`, a range of rows of a result array), where
  the slab's own index `(r, l)` sits in its array, what a transfer through a slab leaves in the result array — the final
  contents, on the rows of the slab —, and that each array is the disjoint union of its four slabs.
-/
import proofs.«900007_g7700000000000008_dist_a2a_v7x_i4_i_m4096_n1024_f32_1_alg».proof.Proof.WSched
import Idealize.ShloMosaic.Lib.Pipeline.Value

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which elements a slab holds

A slab is the unit-stride rectangle of 4096 × 1024 elements at the offsets the kernel computes; in closed form the
offsets are `(4096 s, 0)` for row block `s` of a result array and `(0, 1024 b)` for column block `b` of `x`. The
other axis is whole, so membership is a condition on one coordinate. -/

/-- Row block `s` of a result array: the rows `[4096 s, 4096 s + 4096)`. -/
theorem mem_oRow (s : Dev nD) (i : S16384x1024.Idx) :
    i ∈ (oRow s).view.set ↔ 4096 * s.val ≤ (i 0).val ∧ (i 0).val < 4096 * s.val + 4096 := by
  have hs : (oRow s).view.set = (Rect.unit (s := S16384x1024) (k0_off1 s) S4096x1024.size (k0_off1_inb s)).set :=
    View.set_slice_whole main_v1 _
  rw [hs, Rect.mem_set_unit]
  have h0 := congrFun (k0_off1_eq s) 0
  have h1 := congrFun (k0_off1_eq s) 1
  rw [Fin.forall_fin_two, h0, h1]
  have h : (i 1).val < 1024 := (i 1).isLt
  show (4096 * s.val ≤ (i 0).val ∧ (i 0).val < 4096 * s.val + 4096) ∧ 0 ≤ (i 1).val ∧ (i 1).val < 0 + 1024 ↔ _
  omega

/-- Column block `c` of `x`: the columns `[1024 c, 1024 c + 1024)`. -/
theorem mem_xOwn (c : Dev nD) (i : S4096x4096.Idx) :
    i ∈ (xOwn c).view.set ↔ 1024 * c.val ≤ (i 1).val ∧ (i 1).val < 1024 * c.val + 1024 := by
  have hs : (xOwn c).view.set = (Rect.unit (s := S4096x4096) (k0_off3 c) S4096x1024.size (k0_off3_inb c)).set :=
    View.set_slice_whole main_arg0 _
  rw [hs, Rect.mem_set_unit]
  have h0 := congrFun (k0_off3_eq c) 0
  have h1 := congrFun (k0_off3_eq c) 1
  rw [Fin.forall_fin_two, h0, h1]
  have h : (i 0).val < 4096 := (i 0).isLt
  show (0 ≤ (i 0).val ∧ (i 0).val < 0 + 4096) ∧ 1024 * c.val ≤ (i 1).val ∧ (i 1).val < 1024 * c.val + 1024 ↔ _
  omega

/-- The source of transfer `j`: column block `peer c j` of `x`. -/
theorem mem_xCol (c : Dev nD) (j : Fin 3) (i : S4096x4096.Idx) :
    i ∈ (xCol c j).view.set ↔ 1024 * (peer c j).val ≤ (i 1).val ∧ (i 1).val < 1024 * (peer c j).val + 1024 := by
  have hs : (xCol c j).view.set = (Rect.unit (s := S4096x4096) (k0_off2 c (BitVec.ofNat 32 (1 + j.val))) S4096x1024.size (k0_off2_inb c j)).set :=
    View.set_slice_whole main_arg0 _
  rw [hs, Rect.mem_set_unit]
  have h0 := congrFun (k0_off2_eq c j) 0
  have h1 := congrFun (k0_off2_eq c j) 1
  rw [Fin.forall_fin_two, h0, h1]
  have h : (i 0).val < 4096 := (i 0).isLt
  show (0 ≤ (i 0).val ∧ (i 0).val < 0 + 4096) ∧ 1024 * ((c.val + j.val + 1) % 4) ≤ (i 1).val ∧ (i 1).val < 1024 * ((c.val + j.val + 1) % 4) + 1024 ↔
    1024 * ((c.val + j.val + 1) % 4) ≤ (i 1).val ∧ (i 1).val < 1024 * ((c.val + j.val + 1) % 4) + 1024
  omega

/-! ## Where a slab's index sits in its array

Index `(r, l)` of a slab sits at the slab's offsets plus `(r, l)`. -/

theorem oRow_emb0 (s : Dev nD) (y : S4096x1024.Idx) : (((oRow s).view.emb y : S16384x1024.Idx) 0).val = 4096 * s.val + (y 0).val := by
  have h0 := congrFun (k0_off1_eq s) 0
  show k0_off1 s 0 + 1 * (y 0).val = _
  rw [h0]; show 4096 * s.val + 1 * (y 0).val = _; omega
theorem oRow_emb1 (s : Dev nD) (y : S4096x1024.Idx) : (((oRow s).view.emb y : S16384x1024.Idx) 1).val = (y 1).val := by
  have h1 := congrFun (k0_off1_eq s) 1
  show k0_off1 s 1 + 1 * (y 1).val = _
  rw [h1]; show 0 + 1 * (y 1).val = _; omega
theorem xOwn_emb0 (c : Dev nD) (y : S4096x1024.Idx) : (((xOwn c).view.emb y : S4096x4096.Idx) 0).val = (y 0).val := by
  have h0 := congrFun (k0_off3_eq c) 0
  show k0_off3 c 0 + 1 * (y 0).val = _
  rw [h0]; show 0 + 1 * (y 0).val = _; omega
theorem xOwn_emb1 (c : Dev nD) (y : S4096x1024.Idx) : (((xOwn c).view.emb y : S4096x4096.Idx) 1).val = 1024 * c.val + (y 1).val := by
  have h1 := congrFun (k0_off3_eq c) 1
  show k0_off3 c 1 + 1 * (y 1).val = _
  rw [h1]; show 1024 * c.val + 1 * (y 1).val = _; omega
theorem xCol_emb0 (c : Dev nD) (j : Fin 3) (y : S4096x1024.Idx) : (((xCol c j).view.emb y : S4096x4096.Idx) 0).val = (y 0).val := by
  have h0 := congrFun (k0_off2_eq c j) 0
  show k0_off2 c (BitVec.ofNat 32 (1 + j.val)) 0 + 1 * (y 0).val = _
  rw [h0]; show 0 + 1 * (y 0).val = _; omega
theorem xCol_emb1 (c : Dev nD) (j : Fin 3) (y : S4096x1024.Idx) :
    (((xCol c j).view.emb y : S4096x4096.Idx) 1).val = 1024 * (peer c j).val + (y 1).val := by
  have h1 := congrFun (k0_off2_eq c j) 1
  show k0_off2 c (BitVec.ofNat 32 (1 + j.val)) 1 + 1 * (y 1).val = _
  rw [h1]; show 1024 * ((c.val + j.val + 1) % 4) + 1 * (y 1).val = 1024 * ((c.val + j.val + 1) % 4) + (y 1).val; omega

/-! ## What a transfer through a slab leaves -/

/-- The final contents of device `p`'s result at row `i 0`, column `i 1`, read off the device `s` whose row block
    holds row `i 0`: the entry of `x_s` at row `i 0 - 4096 s`, column `1024 p + i 1`. -/
theorem outF_apply (m : (ℓ : Loc nD τ sig) → Buf (Elt F) ℓ) (p s : Dev nD) (i : S16384x1024.Idx) (a : S4096x4096.Idx)
    (hs : (i 0).val / 4096 = s.val) (h0 : (a 0).val = (i 0).val % 4096) (h1 : (a 1).val = 1024 * p.val + (i 1).val) :
    outF m p i = (show S4096x4096.Idx → Elt F .f32 from X m s) a := by
  obtain ⟨sv, hsv⟩ := s
  dsimp only at hs
  subst hs
  unfold outF
  show (show S4096x4096.Idx → Elt F .f32 from X m _) _ = _
  refine congrArg _ (funext fun b => Fin.ext ?_)
  revert b
  rw [Fin.forall_fin_two]
  exact ⟨h0.symm, h1.symm⟩

/-- Transfer `j` of device `s` carries column block `peer s j` of `x_s` into row block `s` of `peer s j`'s result:
    entry `(r, l)` of the block lands at row `4096 s + r`, column `l`, where the final contents are the entry of `x_s`
    at row `r`, column `1024 (peer s j) + l` — the entry carried. -/
theorem landing_eq (m : (ℓ : Loc nD τ sig) → Buf (Elt F) ℓ) (s : Dev nD) (j : Fin 3) (fd : Buf (Elt F) ((peer s j : Thread nD τ).loc main_v1)) :
    ∀ i ∈ (oRow s).view.set, (oRow s).view.write (Elt F) fd ((xCol s j).view.read (Elt F) (X m s)) Finset.univ i = outF m (peer s j) i := by
  intro i hi
  obtain ⟨y, rfl⟩ := View.exists_emb_of_mem_set _ hi
  rw [View.write_emb_of_mem _ _ (Finset.mem_univ y), cast_eq, View.read_apply, cast_eq]
  have hy0 : (y 0).val < 4096 := (y 0).isLt
  have e0 := oRow_emb0 s y
  have e1 := oRow_emb1 s y
  rw [outF_apply m (peer s j) s ((oRow s).view.emb y) ((xCol s j).view.emb y) (by rw [e0]; omega)
    (by rw [e0, xCol_emb0]; omega) (by rw [e1, xCol_emb1])]

/-- The device's own copy, second half: the scratch buffer holding column block `c` of `x_c`, stored into row block `c`
    of its own result, leaves the final contents there. -/
theorem store_eq (m : (ℓ : Loc nD τ sig) → Buf (Elt F) ℓ) (c : Dev nD) (fd : Buf (Elt F) ((c : Thread nD τ).loc main_v1)) :
    ∀ i ∈ (oRow c).view.set, (oRow c).view.write (Elt F) fd ((vM : Memref sig .tc .vmem S4096x1024 .f32).view.read (Elt F) (kept m c)) Finset.univ i = outF m c i := by
  intro i hi
  obtain ⟨y, rfl⟩ := View.exists_emb_of_mem_set _ hi
  rw [View.write_emb_of_mem _ _ (Finset.mem_univ y), cast_eq]
  show (show S4096x1024.Idx → Elt F .f32 from kept m c) y = _
  unfold kept
  show (xOwn c).view.read (Elt F) (X m c) y = _
  rw [View.read_apply, cast_eq]
  have hy0 : (y 0).val < 4096 := (y 0).isLt
  have e0 := oRow_emb0 c y
  have e1 := oRow_emb1 c y
  rw [outF_apply m c c ((oRow c).view.emb y) ((xOwn c).view.emb y) (by rw [e0]; omega)
    (by rw [e0, xOwn_emb0]; omega) (by rw [e1, xOwn_emb1])]

/-- The device's own copy, first half: column block `c` of `x_c` loaded into the whole scratch buffer replaces its
    contents. -/
theorem load_eq (m : (ℓ : Loc nD τ sig) → Buf (Elt F) ℓ) (c : Dev nD) (fd : Buf (Elt F) ((c : Thread nD τ).loc cc0_scratch0)) :
    (vM : Memref sig .tc .vmem S4096x1024 .f32).view.write (Elt F) fd ((xOwn c).view.read (Elt F) (X m c)) Finset.univ = kept m c :=
  View.write_whole_univ cc0_scratch0 fd _

/-! ## Cutting an array into its four slabs -/

omit [FloatOps F] in
/-- A buffer whose elements fall into four pairwise disjoint sets is held as the four parts. -/
theorem pointsTo_four {ℓ : Loc nD τ sig} {q : PosShare TreeShare} {f : Buf (Elt F) ℓ} (A B C D : Finset (Idx ℓ))
    (hu : Finset.univ = A ∪ (B ∪ (C ∪ D))) (hA : Disjoint A (B ∪ (C ∪ D))) (hB : Disjoint B (C ∪ D)) (hC : Disjoint C D) :
    ((ℓ ↦{q} f) : sProp 𝕄) ⊣⊢ iprop((ℓ ↦[A]{q} f) ∗ (ℓ ↦[B]{q} f) ∗ (ℓ ↦[C]{q} f) ∗ (ℓ ↦[D]{q} f)) := by
  rw [hu]
  exact (pointsTo_union hA).trans (sep_congr_right ((pointsTo_union hB).trans (sep_congr_right (pointsTo_union hC))))

theorem x_split (m : (ℓ : Loc nD τ sig) → Buf (Elt F) ℓ) (c : Dev nD) :
    ((((c : Thread nD τ).loc main_arg0) ↦{fullShare} X m c) : sProp 𝕄) ⊣⊢ iprop(xOwnPts m c ∗ xColPts m c 0 ∗ xColPts m c 1 ∗ xColPts m c 2) := by
  have hc : c.val < 4 := c.isLt
  have p0 : (peer c 0).val = (c.val + 0 + 1) % 4 := rfl
  have p1 : (peer c 1).val = (c.val + 1 + 1) % 4 := rfl
  have p2 : (peer c 2).val = (c.val + 2 + 1) % 4 := rfl
  refine pointsTo_four (ℓ := (c : Thread nD τ).loc main_arg0) (xOwn c).view.set (xCol c 0).view.set (xCol c 1).view.set (xCol c 2).view.set ?_ ?_ ?_ ?_
  · refine (Finset.eq_univ_of_forall fun (i : S4096x4096.Idx) => ?_).symm
    have h : (i 1).val < 4096 := (i 1).isLt
    rw [Finset.mem_union, Finset.mem_union, Finset.mem_union]
    refine (or_congr (mem_xOwn c i) (or_congr (mem_xCol c 0 i) (or_congr (mem_xCol c 1 i) (mem_xCol c 2 i)))).mpr ?_
    omega
  · rw [Finset.disjoint_left]; intro (i : S4096x4096.Idx) hi hi'
    have hA := (mem_xOwn c i).mp hi
    rw [Finset.mem_union, Finset.mem_union] at hi'
    have hB := (or_congr (mem_xCol c 0 i) (or_congr (mem_xCol c 1 i) (mem_xCol c 2 i))).mp hi'
    omega
  · rw [Finset.disjoint_left]; intro (i : S4096x4096.Idx) hi hi'
    have hA := (mem_xCol c 0 i).mp hi
    rw [Finset.mem_union] at hi'
    have hB := (or_congr (mem_xCol c 1 i) (mem_xCol c 2 i)).mp hi'
    omega
  · rw [Finset.disjoint_left]; intro (i : S4096x4096.Idx) hi hi'
    have hA := (mem_xCol c 1 i).mp hi
    have hB := (mem_xCol c 2 i).mp hi'
    omega

omit [FloatOps F] in
/-- The row blocks of four devices that are all different cover a result array. -/
theorem o_four (p a b c d : Dev nD) (f : Buf (Elt F) ((p : Thread nD τ).loc main_v1))
    (hab : a ≠ b) (hac : a ≠ c) (had : a ≠ d) (hbc : b ≠ c) (hbd : b ≠ d) (hcd : c ≠ d) :
    ((((p : Thread nD τ).loc main_v1) ↦{fullShare} f) : sProp 𝕄) ⊣⊢ iprop(oSlab p a f ∗ oSlab p b f ∗ oSlab p c f ∗ oSlab p d f) := by
  have ha : a.val < 4 := a.isLt
  have hb : b.val < 4 := b.isLt
  have hc : c.val < 4 := c.isLt
  have hd : d.val < 4 := d.isLt
  have hab' : a.val ≠ b.val := fun h => hab (Fin.ext h)
  have hac' : a.val ≠ c.val := fun h => hac (Fin.ext h)
  have had' : a.val ≠ d.val := fun h => had (Fin.ext h)
  have hbc' : b.val ≠ c.val := fun h => hbc (Fin.ext h)
  have hbd' : b.val ≠ d.val := fun h => hbd (Fin.ext h)
  have hcd' : c.val ≠ d.val := fun h => hcd (Fin.ext h)
  refine pointsTo_four (ℓ := (p : Thread nD τ).loc main_v1) (oRow a).view.set (oRow b).view.set (oRow c).view.set (oRow d).view.set ?_ ?_ ?_ ?_
  · refine (Finset.eq_univ_of_forall fun (i : S16384x1024.Idx) => ?_).symm
    have h : (i 0).val < 16384 := (i 0).isLt
    rw [Finset.mem_union, Finset.mem_union, Finset.mem_union]
    refine (or_congr (mem_oRow a i) (or_congr (mem_oRow b i) (or_congr (mem_oRow c i) (mem_oRow d i)))).mpr ?_
    omega
  · rw [Finset.disjoint_left]; intro (i : S16384x1024.Idx) hi hi'
    have hA := (mem_oRow a i).mp hi
    rw [Finset.mem_union, Finset.mem_union] at hi'
    have hB := (or_congr (mem_oRow b i) (or_congr (mem_oRow c i) (mem_oRow d i))).mp hi'
    omega
  · rw [Finset.disjoint_left]; intro (i : S16384x1024.Idx) hi hi'
    have hA := (mem_oRow b i).mp hi
    rw [Finset.mem_union] at hi'
    have hB := (or_congr (mem_oRow c i) (mem_oRow d i)).mp hi'
    omega
  · rw [Finset.disjoint_left]; intro (i : S16384x1024.Idx) hi hi'
    have hA := (mem_oRow c i).mp hi
    have hB := (mem_oRow d i).mp hi'
    omega

omit [FloatOps F] in
theorem o_split (p : Dev nD) (f : Buf (Elt F) ((p : Thread nD τ).loc main_v1)) :
    ((((p : Thread nD τ).loc main_v1) ↦{fullShare} f) : sProp 𝕄) ⊣⊢ iprop(oSlab p p f ∗ oSlab p (peer p 0) f ∗ oSlab p (peer p 1) f ∗ oSlab p (peer p 2) f) :=
  o_four p p (peer p 0) (peer p 1) (peer p 2) f (peer_ne p 0).symm (peer_ne p 1).symm (peer_ne p 2).symm
    (fun h => absurd (peer_inj p h) (by decide)) (fun h => absurd (peer_inj p h) (by decide)) (fun h => absurd (peer_inj p h) (by decide))

omit [FloatOps F] in
theorem o_join (p : Dev nD) (f : Buf (Elt F) ((p : Thread nD τ).loc main_v1)) :
    iprop(oSlab p p f ∗ oSlab p (srcOf p 0) f ∗ oSlab p (srcOf p 1) f ∗ oSlab p (srcOf p 2) f) ⊢ ((((p : Thread nD τ).loc main_v1) ↦{fullShare} f) : sProp 𝕄) :=
  (o_four p p (srcOf p 0) (srcOf p 1) (srcOf p 2) f (srcOf_ne p 0).symm (srcOf_ne p 1).symm (srcOf_ne p 2).symm
    (fun h => absurd (srcOf_inj p h) (by decide)) (fun h => absurd (srcOf_inj p h) (by decide)) (fun h => absurd (srcOf_inj p h) (by decide))).2

/-- info: 'Cert.Kernel.A2A.landing_eq' depends on axioms: [propext, Classical.choice, Quot.sound] -/
#guard_msgs in #print axioms landing_eq

/-- info: 'Cert.Kernel.A2A.store_eq' depends on axioms: [propext, Classical.choice, Quot.sound] -/
#guard_msgs in #print axioms store_eq

/-- info: 'Cert.Kernel.A2A.load_eq' depends on axioms: [propext, Classical.choice, Quot.sound] -/
#guard_msgs in #print axioms load_eq

/-- info: 'Cert.Kernel.A2A.x_split' depends on axioms: [propext, Classical.choice, Quot.sound] -/
#guard_msgs in #print axioms x_split

/-- info: 'Cert.Kernel.A2A.o_split' depends on axioms: [propext, Classical.choice, Quot.sound] -/
#guard_msgs in #print axioms o_split

/-- info: 'Cert.Kernel.A2A.o_join' depends on axioms: [propext, Classical.choice, Quot.sound] -/
#guard_msgs in #print axioms o_join

end Cert.Kernel.A2A

end
-- ==== Proof.ValueRef.lean ====
/-
  Two facts about values, both at the ideal instance.

  The value equation. Device `c`'s result array ends holding, at row `R` and column `l`, the entry of `x_(R / 4096)`
  at row `R % 4096` and column `1024 c + l`. When `x_s` is row block `s` of a whole array `v` of 16384 rows — its entry
  at `(r, k)` is `v (4096 s + r, k)` — that entry is `v (4096 (R / 4096) + R % 4096, 1024 c + l) = v (R, 1024 c + l)`:
  the entry at `(R, l)` of column block `c` of `v`.

  The reference's run. The reference has no operation: its one array is argument and result, and its program
  returns at once. From any memory with every counter at zero it terminates and every buffer of every device ends as
  it began; in particular its argument ends unchanged.
-/
import proofs.«900007_g7700000000000008_dist_a2a_v7x_i4_i_m4096_n1024_f32_1_alg».proof.Defs
import proofs.«900007_g7700000000000008_dist_a2a_v7x_i4_i_m4096_n1024_f32_1_alg».proof.Proof.Sched
import proofs.«900007_g7700000000000008_dist_a2a_v7x_i4_i_m4096_n1024_f32_1_alg».proof.Proof.Gen.ReferenceIdeal
import proofs.«900007_g7700000000000008_dist_a2a_v7x_i4_i_m4096_n1024_f32_1_alg».proof.Proof.Gen.Pre_finite_inputs_ReferenceIdeal
import Idealize.ShloMosaic.Lib.Layout
import Idealize.ShloMosaic.Lib.StableHlo.Run

noncomputable section

namespace Cert.KernelIdeal.A2A

open Cert.KernelIdeal Cert.KernelIdeal.Gen

open Idealize.ShloMosaic
open Idealize.ShloMosaic.TcCoe
open Idealize.SL.Sem

/-- Row `4096 (R / 4096) + R % 4096` is row `R`. -/
theorem row_rejoin (R : ℕ) : R / 4096 * 4096 + R % 4096 = R := Nat.div_add_mod' R 4096

/-- If each device's `x` is its row block of the whole array `v`, the contents device `c`'s result array ends at
    are column block `c` of `v`. -/
theorem outF_block (m : (ℓ : Loc nD τ sig) → Buf (Elt Ideal) ℓ)
    (v : Buf (Elt Ideal) (((0 : Dev Cert.ReferenceIdeal.nD).tc : Thread Cert.ReferenceIdeal.nD Cert.ReferenceIdeal.τ).loc Cert.ReferenceIdeal.main_arg0))
    (hagree : ∀ c : Dev nD, m ((c.tc : Thread nD τ).loc main_arg0)
      = Layout.block ⟨2, ![4096, 4096]⟩ ⟨2, ![16384, 4096]⟩ 0 4 c v)
    (c : Dev nD) :
    outF m c = Layout.block ⟨2, ![16384, 1024]⟩ ⟨2, ![16384, 4096]⟩ 1 4 c v := by
  funext i
  dsimp only [outF, X]
  rw [hagree, Layout.block_apply, Layout.block_apply]
  refine congrArg v (funext fun b => Fin.ext ?_)
  rw [Layout.Tiles.idx_val, Layout.Tiles.idx_val]
  fin_cases b
  · show (⟨(i 0).val / 4096, _⟩ : Fin 4).val * 4096 + (i 0).val % 4096 = (i 0).val
    exact row_rejoin _
  · show 1024 * c.val + (i 1).val = c.val * 1024 + (i 1).val
    rw [Nat.mul_comm]

end Cert.KernelIdeal.A2A

namespace Cert.ReferenceIdeal.RefRun

open Cert.ReferenceIdeal Cert.ReferenceIdeal.Gen

open Idealize.ShloMosaic
open Idealize.ShloMosaic.TcCoe
open Idealize.SL.Sem
open Idealize.ShloMosaic.StableHlo

/-- The reference declares no scoped buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- The reference's program is the empty line of operations. -/
theorem main_eq (d : Dev nD) : main (F := Ideal) d = seq ([] : List (HloOp τ sig (Elt Ideal))) := rfl

/-- From any memory with zero counters every weakly fair execution of the reference terminates, and every buffer of
    every device ends as it began. -/
theorem ref_run (m' : (ℓ : Loc nD τ sig) → Buf (Elt Ideal) ℓ) (g' : Dev nD → PrngReg) :
    θ_run (defs (F := Ideal)) (onTc (τ := τ) (main (F := Ideal))) ⟨m', fun _ => 0, g'⟩
      (fun r => ∀ (d : Dev nD) (b : Ref sig .tc), r.2.mem ((d.tc : Thread nD τ).loc b) = m' ((d.tc : Thread nD τ).loc b)) :=
  run_seq scopedRefs_eq scopedSems_eq defs main (fun _ => []) main_eq (fun _ => trivial) m' g'
    (fun _ _ h => nomatch h)

/-- The reference runs and its argument ends unchanged. -/
theorem frame_ri : Cert.frame_ReferenceIdeal (hReferenceIdeal := Cert.ReferenceIdeal.Gen.facts)
    (hPre_finite_inputs_ReferenceIdeal := Cert.Pre_finite_inputs_ReferenceIdeal.Gen.facts) :=
  fun m g _ => (θ_run _ _ _).mono (fun _ h c => h c main_arg0) (ref_run m g)

end Cert.ReferenceIdeal.RefRun

/-- info: 'Cert.KernelIdeal.A2A.outF_block' depends on axioms: [propext, Classical.choice, Quot.sound] -/
#guard_msgs in #print axioms Cert.KernelIdeal.A2A.outF_block
/-- info: 'Cert.ReferenceIdeal.RefRun.ref_run' depends on axioms: [propext, Classical.choice, Quot.sound] -/
#guard_msgs in #print axioms Cert.ReferenceIdeal.RefRun.ref_run
/-- info: 'Cert.ReferenceIdeal.RefRun.frame_ri' depends on axioms: [propext, Classical.choice, Quot.sound] -/
#guard_msgs in #print axioms Cert.ReferenceIdeal.RefRun.frame_ri

end
-- ==== Proof.lean ====
/-
  An all-to-all over four devices against the identity.

  The whole array `x` is 16384 × 4096. Device `c` is given rows `[4096c, 4096c + 4096)` of it and must end holding
  columns `[1024c, 1024c + 1024)`. The kernel sends column block `p` of each device's rows to device `p`, which stores it at
  the sender's row block: device `c`'s result at row `R`, column `l` is the entry of `x_(R / 4096)` at row `R % 4096`, column
  `1024c + l`, that is the entry of the whole array at `(R, 1024c + l)` — column block `c` of the whole array, which is what
  the identity's result, cut along the columns, gives device `c`. No arithmetic is done on the entries: the equation holds
  for every contents, finite or not, and is the same at the word level and over the extended reals.

  The run of the four kernels (termination, no fault, the arguments unchanged, each result array at those contents) is
  proved once, generic in the float instance: the protocol's objects (Proto), the schedule of the semaphore cells (Sched), what
  each device owes and the levels (Levels), the state a body starts from and ends in (Ghost), the body (Body), the launch
  (Launch), the index arithmetic of the slabs (Slabs). The three frames are that run with the values dropped; the
  algebraic claim is its instance over the extended reals joined to the identity's run (ValueRef).
-/
import proofs.«900007_g7700000000000008_dist_a2a_v7x_i4_i_m4096_n1024_f32_1_alg».proof.Defs
import proofs.«900007_g7700000000000008_dist_a2a_v7x_i4_i_m4096_n1024_f32_1_alg».proof.Proof.Gen.Kernel
import proofs.«900007_g7700000000000008_dist_a2a_v7x_i4_i_m4096_n1024_f32_1_alg».proof.Proof.Gen.KernelIdeal
import proofs.«900007_g7700000000000008_dist_a2a_v7x_i4_i_m4096_n1024_f32_1_alg».proof.Proof.Gen.ReferenceIdeal
import proofs.«900007_g7700000000000008_dist_a2a_v7x_i4_i_m4096_n1024_f32_1_alg».proof.Proof.Gen.Pre_finite_inputs_Kernel
import proofs.«900007_g7700000000000008_dist_a2a_v7x_i4_i_m4096_n1024_f32_1_alg».proof.Proof.Gen.Pre_finite_inputs_ReferenceIdeal
import proofs.«900007_g7700000000000008_dist_a2a_v7x_i4_i_m4096_n1024_f32_1_alg».proof.Proof.Body
import proofs.«900007_g7700000000000008_dist_a2a_v7x_i4_i_m4096_n1024_f32_1_alg».proof.Proof.Launch
import proofs.«900007_g7700000000000008_dist_a2a_v7x_i4_i_m4096_n1024_f32_1_alg».proof.Proof.Slabs
import proofs.«900007_g7700000000000008_dist_a2a_v7x_i4_i_m4096_n1024_f32_1_alg».proof.Proof.WBody
import proofs.«900007_g7700000000000008_dist_a2a_v7x_i4_i_m4096_n1024_f32_1_alg».proof.Proof.WLaunch
import proofs.«900007_g7700000000000008_dist_a2a_v7x_i4_i_m4096_n1024_f32_1_alg».proof.Proof.WSlabs
import proofs.«900007_g7700000000000008_dist_a2a_v7x_i4_i_m4096_n1024_f32_1_alg».proof.Proof.ValueRef
import Idealize.ShloMosaic.Adequacy
import Idealize.ShloMosaic.Init

noncomputable section

namespace Cert.Proof

open Idealize.ShloMosaic Idealize.SL.Sem

/-! ## The run, at either instance -/

/-- The slabs' index arithmetic, bundled as the body takes it (idealized kernel). -/
theorem slabsI {F : FTy → Type} [FloatOps F] (m : (ℓ : Loc Cert.KernelIdeal.nD Cert.KernelIdeal.τ Cert.KernelIdeal.sig) → Buf (Elt F) ℓ) :
    Cert.KernelIdeal.A2A.SlabFacts m :=
  ⟨Cert.KernelIdeal.A2A.load_eq m, Cert.KernelIdeal.A2A.landing_eq m, Cert.KernelIdeal.A2A.store_eq m, Cert.KernelIdeal.A2A.x_split m,
    Cert.KernelIdeal.A2A.o_split, Cert.KernelIdeal.A2A.o_join⟩

/-- The same for the kernel as printed. -/
theorem slabsW {F : FTy → Type} [FloatOps F] (m : (ℓ : Loc Cert.Kernel.nD Cert.Kernel.τ Cert.Kernel.sig) → Buf (Elt F) ℓ) :
    Cert.Kernel.A2A.SlabFacts m :=
  ⟨Cert.Kernel.A2A.load_eq m, Cert.Kernel.A2A.landing_eq m, Cert.Kernel.A2A.store_eq m, Cert.Kernel.A2A.x_split m,
    Cert.Kernel.A2A.o_split, Cert.Kernel.A2A.o_join⟩

/-- Every fair execution of the four idealized kernels ends, faulting nowhere, each result array at its final contents and
    each `x` unchanged. -/
theorem runI {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (Cert.KernelIdeal.A2A.QC m) :=
  Cert.KernelIdeal.A2A.run_main_of m ρ fun c => Cert.KernelIdeal.A2A.body_obligation m (slabsI m) c

theorem runW {F : FTy → Type} [FloatOps F] (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩ (Cert.Kernel.A2A.QC m) :=
  Cert.Kernel.A2A.run_main_of m ρ fun c => Cert.Kernel.A2A.body_obligation m (slabsW m) c

/-! ## The claims -/

theorem frame_p : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2) (runW (F := Bits) m ρ)

theorem frame_pi : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c).2) (runI (F := Ideal) m ρ)

/-- The idealization rewrote nothing. -/
theorem preserves : Cert.preserves_Kernel_KernelIdeal := trivial

/-- Over the extended reals each device's result ends as column block `c` of the whole array the devices' `x` blocks are the
    row blocks of, and the identity's result is that whole array. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · exact (θ_run (Cert.KernelIdeal.defs (F := Ideal)) _ _).mono
      (fun _ h c => ⟨(h c).1.trans (Cert.KernelIdeal.A2A.outF_block m _ hagree c), (h c).2⟩) (runI (F := Ideal) m ρ)
  · exact (θ_run (Cert.ReferenceIdeal.defs (F := Ideal)) _ _).mono
      (fun _ h => ⟨h 0 Cert.ReferenceIdeal.main_arg0, h 0 Cert.ReferenceIdeal.main_arg0⟩) (Cert.ReferenceIdeal.RefRun.ref_run m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, Cert.ReferenceIdeal.RefRun.frame_ri, preserves, algebraic⟩

end Cert.Proof

end
